-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x50000x1 : Shape := ⟨3, ![4, 50000, 1]⟩
abbrev S2x800000 : Shape := ⟨2, ![2, 800000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S4x50000x1 : S_.BroadcastsInDim S4x50000x1 (![] : Fin 0 → Fin S4x50000x1.rank)
  reducesTo_S4x50000x1_S_d0_1_2 : S4x50000x1.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4x50000x1 .f32) (main_arg1 : IVec S2x800000 32) (main_arg2 : FVec F S1x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S4x50000x1 .f32 := Host.absf main_arg0
  let main_cst : FVec F S_ .f32 := constant S_ .f32 0x7F800000#32
  let main_v1 : FVec F S4x50000x1 .f32 := broadcastInDim S4x50000x1 ![] bcast_S_S4x50000x1 main_cst
  let main_v2 : IVec S4x50000x1 1 := cmpf .olt main_v0 main_v1
  let main_c : IVec S_ 1 := constantI S_ 1 1#1
  let main_v3 : IVec S_ 1 := (fun x v => Host.reduce IntOp.andi x v reducesTo_S4x50000x1_S_d0_1_2 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S4x50000x1 : Shape := ⟨3, ![4, 50000, 1]⟩
abbrev S2x800000 : Shape := ⟨2, ![2, 800000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S200000x1 : Shape := ⟨2, ![200000, 1]⟩
abbrev S200000x64 : Shape := ⟨2, ![200000, 64]⟩
abbrev S10000x1 : Shape := ⟨2, ![10000, 1]⟩
abbrev S10000x64 : Shape := ⟨2, ![10000, 64]⟩
abbrev S4x50000x64 : Shape := ⟨3, ![4, 50000, 64]⟩
abbrev S4x850000x64 : Shape := ⟨3, ![4, 850000, 64]⟩
abbrev S4x3400x64 : Shape := ⟨3, ![4, 3400, 64]⟩
abbrev S3400x1 : Shape := ⟨2, ![3400, 1]⟩
abbrev S1x3400x1 : Shape := ⟨3, ![1, 3400, 1]⟩
abbrev S4x2000x64 : Shape := ⟨3, ![4, 2000, 64]⟩
abbrev S1x1x64 : Shape := ⟨3, ![1, 1, 64]⟩
abbrev S200000x32 : Shape := ⟨2, ![200000, 32]⟩
abbrev S10000x32 : Shape := ⟨2, ![10000, 32]⟩
abbrev S4x50000x32 : Shape := ⟨3, ![4, 50000, 32]⟩
abbrev S4x850000x32 : Shape := ⟨3, ![4, 850000, 32]⟩
abbrev S4x3400x32 : Shape := ⟨3, ![4, 3400, 32]⟩
abbrev S1x32 : Shape := ⟨2, ![1, 32]⟩
abbrev S4x2000x32 : Shape := ⟨3, ![4, 2000, 32]⟩
abbrev S1x1x32 : Shape := ⟨3, ![1, 1, 32]⟩
abbrev S4x850000x1 : Shape := ⟨3, ![4, 850000, 1]⟩
abbrev S4x3400x1 : Shape := ⟨3, ![4, 3400, 1]⟩
abbrev S1x1 : Shape := ⟨2, ![1, 1]⟩
abbrev S4x2000x1 : Shape := ⟨3, ![4, 2000, 1]⟩
abbrev S1x1x1 : Shape := ⟨3, ![1, 1, 1]⟩

abbrev nBuf : Space → Nat
  | .hbm => 130
  | .vmem => 48
  | .smem => 0
  | _ => 0

abbrev hbmTy0_0 (i : Nat) : BufTy := match i % 128 with
  | 0 => ⟨S4x50000x1, .f32⟩
  | 1 => ⟨S2x800000, .i32⟩
  | 2 => ⟨S1x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S850000x1, .f32⟩
  | 52 => ⟨S200000x1, .f32⟩
  | 53 => ⟨S200000x64, .f32⟩
  | 54 => ⟨S4x50000x64, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S4x850000x64, .f32⟩
  | 64 => ⟨S4x850000x64, .f32⟩
  | 65 => ⟨S_, .f32⟩
  | 66 => ⟨S4x50000x64, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S4x50000x64, .f32⟩
  | 76 => ⟨S1x64, .f32⟩
  | 77 => ⟨S4x50000x64, .f32⟩
  | 78 => ⟨S200000x64, .f32⟩
  | 79 => ⟨S200000x32, .f32⟩
  | 80 => ⟨S4x50000x32, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S4x850000x32, .f32⟩
  | 90 => ⟨S4x850000x32, .f32⟩
  | 91 => ⟨S_, .f32⟩
  | 92 => ⟨S4x50000x32, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S4x50000x32, .f32⟩
  | 102 => ⟨S1x32, .f32⟩
  | 103 => ⟨S4x50000x32, .f32⟩
  | 104 => ⟨S200000x32, .f32⟩
  | 105 => ⟨S200000x1, .f32⟩
  | 106 => ⟨S4x50000x1, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S4x850000x1, .f32⟩
  | 116 => ⟨S4x850000x1, .f32⟩
  | 117 => ⟨S_, .f32⟩
  | 118 => ⟨S4x50000x1, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S4x50000x1, .f32⟩
  | _ => ⟨S4x50000x1, .f32⟩

abbrev hbmTy0_1 (i : Nat) : BufTy := match i % 128 with
  | 0 => ⟨S1x1, .f32⟩
  | 1 => ⟨S4x50000x1, .f32⟩
  | _ => ⟨S4x50000x1, .f32⟩

abbrev hbmTy (i : Nat) : BufTy := match i / 128 with
  | 0 => hbmTy0_0 i
  | 1 => hbmTy0_1 i
  | _ => ⟨S4x50000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S4x3400x64, .f32⟩
  | .local _ .vmem, ⟨6, _⟩ => ⟨S4x3400x64, .f32⟩
  | .local _ .vmem, ⟨7, _⟩ => ⟨S3400x1, .f32⟩
  | .local _ .vmem, ⟨8, _⟩ => ⟨S3400x1, .f32⟩
  | .local _ .vmem, ⟨9, _⟩ => ⟨S4x3400x64, .f32⟩
  | .local _ .vmem, ⟨10, _⟩ => ⟨S4x3400x64, .f32⟩
  | .local _ .vmem, ⟨11, _⟩ => ⟨S4x2000x64, .f32⟩
  | .local _ .vmem, ⟨12, _⟩ => ⟨S4x2000x64, .f32⟩
  | .local _ .vmem, ⟨13, _⟩ => ⟨S1x64, .f32⟩
  | .local _ .vmem, ⟨14, _⟩ => ⟨S4x2000x64, .f32⟩
  | .local _ .vmem, ⟨15, _⟩ => ⟨S4x2000x64, .f32⟩
  | .local _ .vmem, ⟨16, _⟩ => ⟨S10000x64, .f32⟩
  | .local _ .vmem, ⟨17, _⟩ => ⟨S10000x64, .f32⟩
  | .local _ .vmem, ⟨18, _⟩ => ⟨S64x32, .f32⟩
  | .local _ .vmem, ⟨19, _⟩ => ⟨S10000x32, .f32⟩
  | .local _ .vmem, ⟨20, _⟩ => ⟨S10000x32, .f32⟩
  | .local _ .vmem, ⟨21, _⟩ => ⟨S4x3400x32, .f32⟩
  | .local _ .vmem, ⟨22, _⟩ => ⟨S4x3400x32, .f32⟩
  | .local _ .vmem, ⟨23, _⟩ => ⟨S3400x1, .f32⟩
  | .local _ .vmem, ⟨24, _⟩ => ⟨S3400x1, .f32⟩
  | .local _ .vmem, ⟨25, _⟩ => ⟨S4x3400x32, .f32⟩
  | .local _ .vmem, ⟨26, _⟩ => ⟨S4x3400x32, .f32⟩
  | .local _ .vmem, ⟨27, _⟩ => ⟨S4x2000x32, .f32⟩
  | .local _ .vmem, ⟨28, _⟩ => ⟨S4x2000x32, .f32⟩
  | .local _ .vmem, ⟨29, _⟩ => ⟨S1x32, .f32⟩
  | .local _ .vmem, ⟨30, _⟩ => ⟨S4x2000x32, .f32⟩
  | .local _ .vmem, ⟨31, _⟩ => ⟨S4x2000x32, .f32⟩
  | .local _ .vmem, ⟨32, _⟩ => ⟨S10000x32, .f32⟩
  | .local _ .vmem, ⟨33, _⟩ => ⟨S10000x32, .f32⟩
  | .local _ .vmem, ⟨34, _⟩ => ⟨S32x1, .f32⟩
  | .local _ .vmem, ⟨35, _⟩ => ⟨S10000x1, .f32⟩
  | .local _ .vmem, ⟨36, _⟩ => ⟨S10000x1, .f32⟩
  | .local _ .vmem, ⟨37, _⟩ => ⟨S4x3400x1, .f32⟩
  | .local _ .vmem, ⟨38, _⟩ => ⟨S4x3400x1, .f32⟩
  | .local _ .vmem, ⟨39, _⟩ => ⟨S3400x1, .f32⟩
  | .local _ .vmem, ⟨40, _⟩ => ⟨S3400x1, .f32⟩
  | .local _ .vmem, ⟨41, _⟩ => ⟨S4x3400x1, .f32⟩
  | .local _ .vmem, ⟨42, _⟩ => ⟨S4x3400x1, .f32⟩
  | .local _ .vmem, ⟨43, _⟩ => ⟨S4x2000x1, .f32⟩
  | .local _ .vmem, ⟨44, _⟩ => ⟨S4x2000x1, .f32⟩
  | .local _ .vmem, ⟨45, _⟩ => ⟨S1x1, .f32⟩
  | .local _ .vmem, ⟨46, _⟩ => ⟨S4x2000x1, .f32⟩
  | .local _ .vmem, ⟨47, _⟩ => ⟨S4x2000x1, .f32⟩
  | _, _ => ⟨S4x50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_c_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_c_17 : Ref sig .tc := ⟨.hbm, 107, rfl⟩
abbrev main_v78 : Ref sig .tc := ⟨.hbm, 108, rfl⟩
abbrev main_v79 : Ref sig .tc := ⟨.hbm, 109, rfl⟩
abbrev main_c_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_v86 : Ref sig .tc := ⟨.hbm, 118, rfl⟩
abbrev main_c_20 : Ref sig .tc := ⟨.hbm, 119, rfl⟩
abbrev main_v87 : Ref sig .tc := ⟨.hbm, 120, rfl⟩
abbrev main_v88 : Ref sig .tc := ⟨.hbm, 121, rfl⟩
abbrev main_c_21 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![250], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x3400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x3400x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S4x2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4x2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![250], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 2 → Memref sig .tc .vmem S4x3400x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S3400x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4x3400x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 2 → Memref sig .tc .vmem S4x2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4x2000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![250], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage7_0 : Fin 2 → Memref sig .tc .vmem S4x3400x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S3400x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4x3400x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage8_0 : Fin 2 → Memref sig .tc .vmem S4x2000x1 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x1 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S4x2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S850000_S850000x1 : S850000.ShapeCasts S850000x1
  shapeCasts_S4x50000x1_S200000x1 : S4x50000x1.ShapeCasts S200000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S200000x64_S4x50000x64 : S200000x64.ShapeCasts S4x50000x64
  inb_S4x3400x64_S4x3400x64_0_0_0 : ∀ a, (![0, 0, 0] : Fin 3 → Nat) a + S4x3400x64.size a ≤ S4x3400x64.size a
  h_S4x3400x64 : 0 < S4x3400x64.numel
  shapeCasts_S4x3400x64_S4x3400x64 : S4x3400x64.ShapeCasts S4x3400x64
  inb_S3400x1_S3400x1_0_0 : ∀ a, (![0, 0] : Fin 2 → Nat) a + S3400x1.size a ≤ S3400x1.size a
  h_S3400x1 : 0 < S3400x1.numel
  shapeCasts_S3400x1_S3400x1 : S3400x1.ShapeCasts S3400x1
  shapeCasts_S3400x1_S1x3400x1 : S3400x1.ShapeCasts S1x3400x1
  broadcasts_S1x3400x1_S4x3400x64 : S1x3400x1.Broadcasts S4x3400x64
  bcast_S_S4x50000x64 : S_.BroadcastsInDim S4x50000x64 (![] : Fin 0 → Fin S4x50000x64.rank)
  shapeCasts_S64_S1x64 : S64.ShapeCasts S1x64
  shapeCasts_S1x64_S1x64 : S1x64.ShapeCasts S1x64
  shapeCasts_S1x64_S1x1x64 : S1x64.ShapeCasts S1x1x64
  inb_S4x2000x64_S4x2000x64_0_0_0 : ∀ a, (![0, 0, 0] : Fin 3 → Nat) a + S4x2000x64.size a ≤ S4x2000x64.size a
  h_S4x2000x64 : 0 < S4x2000x64.numel
  shapeCasts_S4x2000x64_S4x2000x64 : S4x2000x64.ShapeCasts S4x2000x64
  broadcasts_S1x1x64_S4x2000x64 : S1x1x64.Broadcasts S4x2000x64
  shapeCasts_S4x50000x64_S200000x64 : S4x50000x64.ShapeCasts S200000x64
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  shapeCasts_S200000x32_S4x50000x32 : S200000x32.ShapeCasts S4x50000x32
  inb_S4x3400x32_S4x3400x32_0_0_0 : ∀ a, (![0, 0, 0] : Fin 3 → Nat) a + S4x3400x32.size a ≤ S4x3400x32.size a
  h_S4x3400x32 : 0 < S4x3400x32.numel
  shapeCasts_S4x3400x32_S4x3400x32 : S4x3400x32.ShapeCasts S4x3400x32
  broadcasts_S1x3400x1_S4x3400x32 : S1x3400x1.Broadcasts S4x3400x32
  bcast_S_S4x50000x32 : S_.BroadcastsInDim S4x50000x32 (![] : Fin 0 → Fin S4x50000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S1x1x32 : S1x32.ShapeCasts S1x1x32
  inb_S4x2000x32_S4x2000x32_0_0_0 : ∀ a, (![0, 0, 0] : Fin 3 → Nat) a + S4x2000x32.size a ≤ S4x2000x32.size a
  h_S4x2000x32 : 0 < S4x2000x32.numel
  shapeCasts_S4x2000x32_S4x2000x32 : S4x2000x32.ShapeCasts S4x2000x32
  broadcasts_S1x1x32_S4x2000x32 : S1x1x32.Broadcasts S4x2000x32
  shapeCasts_S4x50000x32_S200000x32 : S4x50000x32.ShapeCasts S200000x32
  shapeCasts_S10000x32_S10000x32 : S10000x32.ShapeCasts S10000x32
  inb_S32x1_S32x1_0_0 : ∀ a, (![0, 0] : Fin 2 → Nat) a + S32x1.size a ≤ S32x1.size a
  h_S32x1 : 0 < S32x1.numel
  shapeCasts_S200000x1_S4x50000x1 : S200000x1.ShapeCasts S4x50000x1
  inb_S4x3400x1_S4x3400x1_0_0_0 : ∀ a, (![0, 0, 0] : Fin 3 → Nat) a + S4x3400x1.size a ≤ S4x3400x1.size a
  h_S4x3400x1 : 0 < S4x3400x1.numel
  shapeCasts_S4x3400x1_S4x3400x1 : S4x3400x1.ShapeCasts S4x3400x1
  broadcasts_S1x3400x1_S4x3400x1 : S1x3400x1.Broadcasts S4x3400x1
  bcast_S_S4x50000x1 : S_.BroadcastsInDim S4x50000x1 (![] : Fin 0 → Fin S4x50000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  inb_S4x2000x1_S4x2000x1_0_0_0 : ∀ a, (![0, 0, 0] : Fin 3 → Nat) a + S4x2000x1.size a ≤ S4x2000x1.size a
  h_S4x2000x1 : 0 < S4x2000x1.numel
  shapeCasts_S4x2000x1_S4x2000x1 : S4x2000x1.ShapeCasts S4x2000x1
  broadcasts_S1x1x1_S4x2000x1 : S1x1x1.Broadcasts S4x2000x1
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x1_S1x64_S10000x64_1_0_0_1_n_n_wf : DotDims.WF S10000x1 S1x64 S10000x64 [1] [0] [0] [1] [] []
  gather_S4x50000x64_S850000x1_S4x850000x64_02_1_n_n_1_1_4164_wf : GatherDims.WF S4x50000x64 S850000x1 S4x850000x64 [0, 2] [1] [] [1] [] 1 ![4, 1, 64]
  scatter_S4x50000x64_S850000x1_S4x850000x64_02_1_1_1_wf : ScatterDims.WF S4x50000x64 S850000x1 S4x850000x64 [0, 2] [1] [1] 1
  dot_S10000x64_S64x32_S10000x32_1_0_0_1_n_n_wf : DotDims.WF S10000x64 S64x32 S10000x32 [1] [0] [0] [1] [] []
  gather_S4x50000x32_S850000x1_S4x850000x32_02_1_n_n_1_1_4132_wf : GatherDims.WF S4x50000x32 S850000x1 S4x850000x32 [0, 2] [1] [] [1] [] 1 ![4, 1, 32]
  scatter_S4x50000x32_S850000x1_S4x850000x32_02_1_1_1_wf : ScatterDims.WF S4x50000x32 S850000x1 S4x850000x32 [0, 2] [1] [1] 1
  dot_S10000x32_S32x1_S10000x1_1_0_0_1_n_n_wf : DotDims.WF S10000x32 S32x1 S10000x1 [1] [0] [0] [1] [] []
  gather_S4x50000x1_S850000x1_S4x850000x1_02_1_n_n_1_1_411_wf : GatherDims.WF S4x50000x1 S850000x1 S4x850000x1 [0, 2] [1] [] [1] [] 1 ![4, 1, 1]
  scatter_S4x50000x1_S850000x1_S4x850000x1_02_1_1_1_wf : ScatterDims.WF S4x50000x1 S850000x1 S4x850000x1 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S200000x1.size a
  hwx0_0 : ∀ i : grid0.Coords, EltTy.bits .f32 = 32 ∨ (Rect.block (s := S200000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S200000x64.size a
  hwx0_2 : ∀ i : grid0.Coords, EltTy.bits .f32 = 32 ∨ (Rect.block (s := S200000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x3400x64.size a ≤ S4x850000x64.size a
  hwx1_0 : ∀ i : grid1.Coords, EltTy.bits .f32 = 32 ∨ (Rect.block (s := S4x850000x64) S4x3400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3400x1.size a ≤ S850000x1.size a
  hwx1_1 : ∀ i : grid1.Coords, EltTy.bits .f32 = 32 ∨ (Rect.block (s := S850000x1) S3400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x3400x64.size a ≤ S4x850000x64.size a
  hwx1_2 : ∀ i : grid1.Coords, EltTy.bits .f32 = 32 ∨ (Rect.block (s := S4x850000x64) S4x3400x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x2000x64.size a ≤ S4x50000x64.size a
  hwx2_0 : ∀ i : grid2.Coords, EltTy.bits .f32 = 32 ∨ (Rect.block (s := S4x50000x64) S4x2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x2000x64.size a ≤ S4x50000x64.size a
  hwx2_2 : ∀ i : grid2.Coords, EltTy.bits .f32 = 32 ∨ (Rect.block (s := S4x50000x64) S4x2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S200000x64.size a
  hwx3_0 : ∀ i : grid3.Coords, EltTy.bits .f32 = 32 ∨ (Rect.block (s := S200000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S200000x32.size a
  hwx3_2 : ∀ i : grid3.Coords, EltTy.bits .f32 = 32 ∨ (Rect.block (s := S200000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4x3400x32.size a ≤ S4x850000x32.size a
  hwx4_0 : ∀ i : grid4.Coords, EltTy.bits .f32 = 32 ∨ (Rect.block (s := S4x850000x32) S4x3400x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S3400x1.size a ≤ S850000x1.size a
  hwx4_1 : ∀ i : grid4.Coords, EltTy.bits .f32 = 32 ∨ (Rect.block (s := S850000x1) S3400x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4x3400x32.size a ≤ S4x850000x32.size a
  hwx4_2 : ∀ i : grid4.Coords, EltTy.bits .f32 = 32 ∨ (Rect.block (s := S4x850000x32) S4x3400x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4x2000x32.size a ≤ S4x50000x32.size a
  hwx5_0 : ∀ i : grid5.Coords, EltTy.bits .f32 = 32 ∨ (Rect.block (s := S4x50000x32) S4x2000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4x2000x32.size a ≤ S4x50000x32.size a
  hwx5_2 : ∀ i : grid5.Coords, EltTy.bits .f32 = 32 ∨ (Rect.block (s := S4x50000x32) S4x2000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S200000x32.size a
  hwx6_0 : ∀ i : grid6.Coords, EltTy.bits .f32 = 32 ∨ (Rect.block (s := S200000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x1.size a ≤ S32x1.size a
  hwx6_1 : ∀ i : grid6.Coords, EltTy.bits .f32 = 32 ∨ (Rect.block (s := S32x1) S32x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S200000x1.size a
  hwx6_2 : ∀ i : grid6.Coords, EltTy.bits .f32 = 32 ∨ (Rect.block (s := S200000x1) S10000x1.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4x3400x1.size a ≤ S4x850000x1.size a
  hwx7_0 : ∀ i : grid7.Coords, EltTy.bits .f32 = 32 ∨ (Rect.block (s := S4x850000x1) S4x3400x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S3400x1.size a ≤ S850000x1.size a
  hwx7_1 : ∀ i : grid7.Coords, EltTy.bits .f32 = 32 ∨ (Rect.block (s := S850000x1) S3400x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4x3400x1.size a ≤ S4x850000x1.size a
  hwx7_2 : ∀ i : grid7.Coords, EltTy.bits .f32 = 32 ∨ (Rect.block (s := S4x850000x1) S4x3400x1.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4x2000x1.size a ≤ S4x50000x1.size a
  hwx8_0 : ∀ i : grid8.Coords, EltTy.bits .f32 = 32 ∨ (Rect.block (s := S4x50000x1) S4x2000x1.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x1.size a ≤ S1x1.size a
  hwx8_1 : ∀ i : grid8.Coords, EltTy.bits .f32 = 32 ∨ (Rect.block (s := S1x1) S1x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4x2000x1.size a ≤ S4x50000x1.size a
  hwx8_2 : ∀ i : grid8.Coords, EltTy.bits .f32 = 32 ∨ (Rect.block (s := S4x50000x1) S4x2000x1.size (cc8_transform_2 i) (hinb8_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x1_S1x64_S10000x64_1_0_0_1_n_n : DotDims S10000x1 S1x64 S10000x64 where
  lhsContracting := [1]
  rhsContracting := [0]
  lhsNonContracting := [0]
  rhsNonContracting := [1]
  lhsBatch := []
  rhsBatch := []
  wf := dot_S10000x1_S1x64_S10000x64_1_0_0_1_n_n_wf
def gather_S4x50000x64_S850000x1_S4x850000x64_02_1_n_n_1_1_4164 : GatherDims S4x50000x64 S850000x1 S4x850000x64 where
  offsetDims := [0, 2]
  collapsedSliceDims := [1]
  operandBatchingDims := []
  startIndicesBatchingDims := []
  startIndexMap := [1]
  indexVectorDim := 1
  sliceSizes := ![4, 1, 64]
  wf := gather_S4x50000x64_S850000x1_S4x850000x64_02_1_n_n_1_1_4164_wf
def scatter_S4x50000x64_S850000x1_S4x850000x64_02_1_1_1 : ScatterDims S4x50000x64 S850000x1 S4x850000x64 where
  updateWindowDims := [0, 2]
  insertedWindowDims := [1]
  scatterDimsToOperandDims := [1]
  indexVectorDim := 1
  wf := scatter_S4x50000x64_S850000x1_S4x850000x64_02_1_1_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S4x50000x32_S850000x1_S4x850000x32_02_1_n_n_1_1_4132 : GatherDims S4x50000x32 S850000x1 S4x850000x32 where
  offsetDims := [0, 2]
  collapsedSliceDims := [1]
  operandBatchingDims := []
  startIndicesBatchingDims := []
  startIndexMap := [1]
  indexVectorDim := 1
  sliceSizes := ![4, 1, 32]
  wf := gather_S4x50000x32_S850000x1_S4x850000x32_02_1_n_n_1_1_4132_wf
def scatter_S4x50000x32_S850000x1_S4x850000x32_02_1_1_1 : ScatterDims S4x50000x32 S850000x1 S4x850000x32 where
  updateWindowDims := [0, 2]
  insertedWindowDims := [1]
  scatterDimsToOperandDims := [1]
  indexVectorDim := 1
  wf := scatter_S4x50000x32_S850000x1_S4x850000x32_02_1_1_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S4x50000x1_S850000x1_S4x850000x1_02_1_n_n_1_1_411 : GatherDims S4x50000x1 S850000x1 S4x850000x1 where
  offsetDims := [0, 2]
  collapsedSliceDims := [1]
  operandBatchingDims := []
  startIndicesBatchingDims := []
  startIndexMap := [1]
  indexVectorDim := 1
  sliceSizes := ![4, 1, 1]
  wf := gather_S4x50000x1_S850000x1_S4x850000x1_02_1_n_n_1_1_411_wf
def scatter_S4x50000x1_S850000x1_S4x850000x1_02_1_1_1 : ScatterDims S4x50000x1 S850000x1 S4x850000x1 where
  updateWindowDims := [0, 2]
  insertedWindowDims := [1]
  scatterDimsToOperandDims := [1]
  indexVectorDim := 1
  wf := scatter_S4x50000x1_S850000x1_S4x850000x1_02_1_1_1_wf

abbrev win0_0 : Pipeline.Window sig grid0 :=
  Pipeline.Window.ofSpec (Memref.whole main_v33) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S4x3400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S3400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S4x3400x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S4x2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S4x2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S4x3400x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S3400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S4x3400x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S4x2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S4x2000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S32x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S10000x1.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v84) S4x3400x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S3400x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v85) S4x3400x1.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v93) S4x2000x1.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v94) S1x1.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v95) S4x2000x1.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S4x50000x1 : Shape := ⟨3, ![4, 50000, 1]⟩
abbrev S2x800000 : Shape := ⟨2, ![2, 800000]⟩
abbrev S1x64 : Shape := ⟨2, ![1, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S4x50000x64 : Shape := ⟨3, ![4, 50000, 64]⟩
abbrev S4x850000x64 : Shape := ⟨3, ![4, 850000, 64]⟩
abbrev S1x850000x1 : Shape := ⟨3, ![1, 850000, 1]⟩
abbrev S1x1x64 : Shape := ⟨3, ![1, 1, 64]⟩
abbrev S4x50000x32 : Shape := ⟨3, ![4, 50000, 32]⟩
abbrev S4x850000x32 : Shape := ⟨3, ![4, 850000, 32]⟩
abbrev S1x1x32 : Shape := ⟨3, ![1, 1, 32]⟩
abbrev S4x850000x1 : Shape := ⟨3, ![4, 850000, 1]⟩
abbrev S1x1x1 : Shape := ⟨3, ![1, 1, 1]⟩

abbrev nBuf : Space → Nat
  | .hbm => 146
  | .vmem => 0
  | .smem => 0
  | _ => 0

abbrev hbmTy0_0 (i : Nat) : BufTy := match i % 128 with
  | 0 => ⟨S4x50000x1, .f32⟩
  | 1 => ⟨S2x800000, .i32⟩
  | 2 => ⟨S1x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S4x50000x64, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S4x850000x64, .f32⟩
  | 61 => ⟨S1x850000x1, .f32⟩
  | 62 => ⟨S4x850000x64, .f32⟩
  | 63 => ⟨S4x850000x64, .f32⟩
  | 64 => ⟨S_, .f32⟩
  | 65 => ⟨S4x50000x64, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S4x50000x64, .f32⟩
  | 75 => ⟨S1x1x64, .f32⟩
  | 76 => ⟨S4x50000x64, .f32⟩
  | 77 => ⟨S4x50000x64, .f32⟩
  | 78 => ⟨S_, .f32⟩
  | 79 => ⟨S4x50000x64, .f32⟩
  | 80 => ⟨S4x50000x64, .f32⟩
  | 81 => ⟨S4x50000x32, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S4x850000x32, .f32⟩
  | 91 => ⟨S1x850000x1, .f32⟩
  | 92 => ⟨S4x850000x32, .f32⟩
  | 93 => ⟨S4x850000x32, .f32⟩
  | 94 => ⟨S_, .f32⟩
  | 95 => ⟨S4x50000x32, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S4x50000x32, .f32⟩
  | 105 => ⟨S1x1x32, .f32⟩
  | 106 => ⟨S4x50000x32, .f32⟩
  | 107 => ⟨S4x50000x32, .f32⟩
  | 108 => ⟨S_, .f32⟩
  | 109 => ⟨S4x50000x32, .f32⟩
  | 110 => ⟨S4x50000x32, .f32⟩
  | 111 => ⟨S4x50000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S4x850000x1, .f32⟩
  | 121 => ⟨S1x850000x1, .f32⟩
  | 122 => ⟨S4x850000x1, .f32⟩
  | 123 => ⟨S4x850000x1, .f32⟩
  | 124 => ⟨S_, .f32⟩
  | 125 => ⟨S4x50000x1, .f32⟩
  | 126 => ⟨S_, .i32⟩
  | 127 => ⟨S850000, .i32⟩
  | _ => ⟨S4x50000x1, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S4x50000x1, .f32⟩
  | 7 => ⟨S1x1x1, .f32⟩
  | 8 => ⟨S4x50000x1, .f32⟩
  | 9 => ⟨S4x50000x1, .f32⟩
  | 10 => ⟨S4x50000x1, .f32⟩
  | 11 => ⟨S4x50000x1, .f32⟩
  | 12 => ⟨S_, .f32⟩
  | 13 => ⟨S4x50000x1, .f32⟩
  | 14 => ⟨S4x50000x1, .f32⟩
  | 15 => ⟨S_, .f32⟩
  | 16 => ⟨S4x50000x1, .f32⟩
  | 17 => ⟨S4x50000x1, .f32⟩
  | _ => ⟨S4x50000x1, .f32⟩

abbrev hbmTy (i : Nat) : BufTy := match i / 128 with
  | 0 => hbmTy0_0 i
  | 1 => hbmTy0_1 i
  | _ => ⟨S4x50000x1, .f32⟩

abbrev bufTy : (tb : Table) → Fin (tcTables nBuf tb) → BufTy
  | .hbm, ⟨i, _⟩ => hbmTy i
  | _, _ => ⟨S4x50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_cst : Ref sig .tc := ⟨.hbm, 78, rfl⟩
abbrev main_call1_v0 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_14 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_c_20 : Ref sig .tc := ⟨.hbm, 126, rfl⟩
abbrev main_v90 : Ref sig .tc := ⟨.hbm, 127, rfl⟩
abbrev main_v91 : Ref sig .tc := ⟨.hbm, 128, rfl⟩
abbrev main_c_21 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_22 : Ref sig .tc := ⟨.hbm, 140, rfl⟩
abbrev main_v102 : Ref sig .tc := ⟨.hbm, 141, rfl⟩
abbrev main_v103 : Ref sig .tc := ⟨.hbm, 142, rfl⟩
abbrev main_cst_23 : Ref sig .tc := ⟨.hbm, 143, rfl⟩
abbrev main_v104 : Ref sig .tc := ⟨.hbm, 144, rfl⟩
abbrev main_v105 : Ref sig .tc := ⟨.hbm, 145, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000_S1x850000x1_1 : S850000.BroadcastsInDim S1x850000x1 (![1] : Fin 1 → Fin S1x850000x1.rank)
  bcast_S1x850000x1_S4x850000x64_0_1_2 : S1x850000x1.BroadcastsInDim S4x850000x64 (![0, 1, 2] : Fin 3 → Fin S4x850000x64.rank)
  bcast_S_S4x50000x64 : S_.BroadcastsInDim S4x50000x64 (![] : Fin 0 → Fin S4x50000x64.rank)
  bcast_S64_S1x1x64_2 : S64.BroadcastsInDim S1x1x64 (![2] : Fin 1 → Fin S1x1x64.rank)
  bcast_S1x1x64_S4x50000x64_0_1_2 : S1x1x64.BroadcastsInDim S4x50000x64 (![0, 1, 2] : Fin 3 → Fin S4x50000x64.rank)
  bcast_S1x850000x1_S4x850000x32_0_1_2 : S1x850000x1.BroadcastsInDim S4x850000x32 (![0, 1, 2] : Fin 3 → Fin S4x850000x32.rank)
  bcast_S_S4x50000x32 : S_.BroadcastsInDim S4x50000x32 (![] : Fin 0 → Fin S4x50000x32.rank)
  bcast_S32_S1x1x32_2 : S32.BroadcastsInDim S1x1x32 (![2] : Fin 1 → Fin S1x1x32.rank)
  bcast_S1x1x32_S4x50000x32_0_1_2 : S1x1x32.BroadcastsInDim S4x50000x32 (![0, 1, 2] : Fin 3 → Fin S4x50000x32.rank)
  bcast_S1x850000x1_S4x850000x1_0_1_2 : S1x850000x1.BroadcastsInDim S4x850000x1 (![0, 1, 2] : Fin 3 → Fin S4x850000x1.rank)
  bcast_S_S4x50000x1 : S_.BroadcastsInDim S4x50000x1 (![] : Fin 0 → Fin S4x50000x1.rank)
  bcast_S1_S1x1x1_2 : S1.BroadcastsInDim S1x1x1 (![2] : Fin 1 → Fin S1x1x1.rank)
  bcast_S1x1x1_S4x50000x1_0_1_2 : S1x1x1.BroadcastsInDim S4x50000x1 (![0, 1, 2] : Fin 3 → Fin S4x50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S4x50000x1_S1x64_S4x50000x64_2_0_01_1_n_n_wf : DotDims.WF S4x50000x1 S1x64 S4x50000x64 [2] [0] [0, 1] [1] [] []
  gather_S4x50000x64_S850000x1_S4x850000x64_02_1_n_n_1_1_4164_wf : GatherDims.WF S4x50000x64 S850000x1 S4x850000x64 [0, 2] [1] [] [1] [] 1 ![4, 1, 64]
  scatter_S4x50000x64_S850000x1_S4x850000x64_02_1_1_1_wf : ScatterDims.WF S4x50000x64 S850000x1 S4x850000x64 [0, 2] [1] [1] 1
  dot_S4x50000x64_S64x32_S4x50000x32_2_0_01_1_n_n_wf : DotDims.WF S4x50000x64 S64x32 S4x50000x32 [2] [0] [0, 1] [1] [] []
  gather_S4x50000x32_S850000x1_S4x850000x32_02_1_n_n_1_1_4132_wf : GatherDims.WF S4x50000x32 S850000x1 S4x850000x32 [0, 2] [1] [] [1] [] 1 ![4, 1, 32]
  scatter_S4x50000x32_S850000x1_S4x850000x32_02_1_1_1_wf : ScatterDims.WF S4x50000x32 S850000x1 S4x850000x32 [0, 2] [1] [1] 1
  dot_S4x50000x32_S32x1_S4x50000x1_2_0_01_1_n_n_wf : DotDims.WF S4x50000x32 S32x1 S4x50000x1 [2] [0] [0, 1] [1] [] []
  gather_S4x50000x1_S850000x1_S4x850000x1_02_1_n_n_1_1_411_wf : GatherDims.WF S4x50000x1 S850000x1 S4x850000x1 [0, 2] [1] [] [1] [] 1 ![4, 1, 1]
  scatter_S4x50000x1_S850000x1_S4x850000x1_02_1_1_1_wf : ScatterDims.WF S4x50000x1 S850000x1 S4x850000x1 [0, 2] [1] [1] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S4x50000x1_S1x64_S4x50000x64_2_0_01_1_n_n : DotDims S4x50000x1 S1x64 S4x50000x64 where
  lhsContracting := [2]
  rhsContracting := [0]
  lhsNonContracting := [0, 1]
  rhsNonContracting := [1]
  lhsBatch := []
  rhsBatch := []
  wf := dot_S4x50000x1_S1x64_S4x50000x64_2_0_01_1_n_n_wf
def gather_S4x50000x64_S850000x1_S4x850000x64_02_1_n_n_1_1_4164 : GatherDims S4x50000x64 S850000x1 S4x850000x64 where
  offsetDims := [0, 2]
  collapsedSliceDims := [1]
  operandBatchingDims := []
  startIndicesBatchingDims := []
  startIndexMap := [1]
  indexVectorDim := 1
  sliceSizes := ![4, 1, 64]
  wf := gather_S4x50000x64_S850000x1_S4x850000x64_02_1_n_n_1_1_4164_wf
def scatter_S4x50000x64_S850000x1_S4x850000x64_02_1_1_1 : ScatterDims S4x50000x64 S850000x1 S4x850000x64 where
  updateWindowDims := [0, 2]
  insertedWindowDims := [1]
  scatterDimsToOperandDims := [1]
  indexVectorDim := 1
  wf := scatter_S4x50000x64_S850000x1_S4x850000x64_02_1_1_1_wf
def dot_S4x50000x64_S64x32_S4x50000x32_2_0_01_1_n_n : DotDims S4x50000x64 S64x32 S4x50000x32 where
  lhsContracting := [2]
  rhsContracting := [0]
  lhsNonContracting := [0, 1]
  rhsNonContracting := [1]
  lhsBatch := []
  rhsBatch := []
  wf := dot_S4x50000x64_S64x32_S4x50000x32_2_0_01_1_n_n_wf
def gather_S4x50000x32_S850000x1_S4x850000x32_02_1_n_n_1_1_4132 : GatherDims S4x50000x32 S850000x1 S4x850000x32 where
  offsetDims := [0, 2]
  collapsedSliceDims := [1]
  operandBatchingDims := []
  startIndicesBatchingDims := []
  startIndexMap := [1]
  indexVectorDim := 1
  sliceSizes := ![4, 1, 32]
  wf := gather_S4x50000x32_S850000x1_S4x850000x32_02_1_n_n_1_1_4132_wf
def scatter_S4x50000x32_S850000x1_S4x850000x32_02_1_1_1 : ScatterDims S4x50000x32 S850000x1 S4x850000x32 where
  updateWindowDims := [0, 2]
  insertedWindowDims := [1]
  scatterDimsToOperandDims := [1]
  indexVectorDim := 1
  wf := scatter_S4x50000x32_S850000x1_S4x850000x32_02_1_1_1_wf
def dot_S4x50000x32_S32x1_S4x50000x1_2_0_01_1_n_n : DotDims S4x50000x32 S32x1 S4x50000x1 where
  lhsContracting := [2]
  rhsContracting := [0]
  lhsNonContracting := [0, 1]
  rhsNonContracting := [1]
  lhsBatch := []
  rhsBatch := []
  wf := dot_S4x50000x32_S32x1_S4x50000x1_2_0_01_1_n_n_wf
def gather_S4x50000x1_S850000x1_S4x850000x1_02_1_n_n_1_1_411 : GatherDims S4x50000x1 S850000x1 S4x850000x1 where
  offsetDims := [0, 2]
  collapsedSliceDims := [1]
  operandBatchingDims := []
  startIndicesBatchingDims := []
  startIndexMap := [1]
  indexVectorDim := 1
  sliceSizes := ![4, 1, 1]
  wf := gather_S4x50000x1_S850000x1_S4x850000x1_02_1_n_n_1_1_411_wf
def scatter_S4x50000x1_S850000x1_S4x850000x1_02_1_1_1 : ScatterDims S4x50000x1 S850000x1 S4x850000x1 where
  updateWindowDims := [0, 2]
  insertedWindowDims := [1]
  scatterDimsToOperandDims := [1]
  indexVectorDim := 1
  wf := scatter_S4x50000x1_S850000x1_S4x850000x1_02_1_1_1_wf

class Facts : Prop extends Facts₀ where

variable [Facts]
-- ==== Proof.KCarry.lean ====
/-
  What the kernel program's long-lived buffers hold at each boundary of its run. The edge sources, the edge targets and
  the column of edge weights are computed once, by the host operations before the first launch, and read again by every
  layer; no later host operation and no launch writes them (nor an argument array), so at every later boundary they still
  hold what that first stretch left. That stretch's values are the reference's own: the same operations on the edge list
  (sources and targets with the self-loops appended; the weight of an edge the product of its two endpoints' inverse square
  root degrees).
-/
import proofs.«164442_j455266533916_1_alg».proof.Proof.Gen.KernelIdeal.Frame
import proofs.«164442_j455266533916_1_alg».proof.Proof.RefRead
import Idealize.ShloMosaic.Lib.StableHlo.Run
import Idealize.ShloMosaic.Lib.Tactic
import Idealize.ShloMosaic.PureOps.Ideal

set_option maxRecDepth 16384

noncomputable section

open Idealize.ShloMosaic Idealize.ShloMosaic.TcCoe Idealize.SL.Sem Idealize.ShloMosaic.Tactic Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-- One host stretch leaves a buffer alone when none of its operations writes it: every operation's written
    reference is a different one. -/
local macro "carry_host " l:ident : tactic => `(tactic|
  exact StableHlo.after_of_forall_not_mem _ _ (List.forall_iff_forall_mem.mp (by
    simp only [$l:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## What the stretch before the first launch leaves -/

/-! ### After the first list of host operations: the edge sources and targets, the degree's sign test and its inverse
    square root, each the reference's stage of the same name over the edge-list argument -/

private theorem src_at1 (c : Dev nD) : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  after_results
  rfl

private theorem dst_at1 (c : Dev nD) : W1 m ρ c (Proc.devRef .tc main_v6) = Cert.ReferenceIdeal.ReadP.val_main_v6 (F := Ideal) (m ((c.tc : Thread nD τ).loc main_arg1)) := by
  show StableHlo.after hostOps0 (W0 m ρ c) (Proc.devRef .tc main_v6) = _
  after_results
  rfl

/-- Whether a node's degree (the count of edges whose target it is, self-loop included) is positive. -/
private theorem degpos_at1 (c : Dev nD) : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  after_results
  rfl

/-- The inverse square root of the degree (the degree floored at a tiny positive constant). -/
private theorem rsqrt_at1 (c : Dev nD) : W1 m ρ c (Proc.devRef .tc main_v15) = Cert.ReferenceIdeal.ReadP.val_main_v15 (F := Ideal) (m ((c.tc : Thread nD τ).loc main_arg1)) := by
  show StableHlo.after hostOps0 (W0 m ρ c) (Proc.devRef .tc main_v15) = _
  after_results
  rfl

/-- The scalar zero that replaces the inverse square root where the degree is not positive. -/
private theorem zero_at1 (c : Dev nD) :
    W1 m ρ c (Proc.devRef .tc main_cst_3) = Cert.ReferenceIdeal.ReadP.val_main_cst_3 (F := Ideal) := by
  show StableHlo.after hostOps0 (W0 m ρ c) (Proc.devRef .tc main_cst_3) = _
  after_results
  rfl

/-! ### After the selection between the two: the per-node factor -/

/-- Over any buffer contents, the three operations of the selection leave at their result the choice, node by node,
    between the second operand and the broadcast scalar, by the first. Stated for any float values: the transport
    of each operand to its buffer's own type is the identity. -/
private theorem where_at {F : FTy → Type} [FloatOps F] (V1 : Valuation τ sig (Elt F)) :
    StableHlo.after (hostOps0_1 (F := F)) V1 (Proc.devRef .tc main_v16)
      = select (V1 (Proc.devRef .tc main_v12) : (⟨S50000, .i1⟩ : BufTy).Contents (Elt F))
          (V1 (Proc.devRef .tc main_v15) : (⟨S50000, .f32⟩ : BufTy).Contents (Elt F))
          (broadcastInDim S50000 ![] bcast_S_S50000 (id (V1 (Proc.devRef .tc main_cst_3) : (⟨S_, .f32⟩ : BufTy).Contents (Elt F)))) := by
  after_results
  rfl

/-- The per-node factor: the inverse square root of the degree where the degree is positive, zero elsewhere. -/
private theorem dinv_at2 (c : Dev nD) : W2 m ρ c (Proc.devRef .tc main_v16) = Cert.ReferenceIdeal.ReadP.val_main_v16 (F := Ideal) (m ((c.tc : Thread nD τ).loc main_arg1)) := by
  refine (where_at (W1 m ρ c)).trans ?_
  rw [degpos_at1 m ρ c, rsqrt_at1 m ρ c, zero_at1 m ρ c]
  rfl

private theorem src_at2 (c : Dev nD) : W2 m ρ c (Proc.devRef .tc main_v3) = Cert.ReferenceIdeal.ReadP.val_main_v3 (F := Ideal) (m ((c.tc : Thread nD τ).loc main_arg1)) :=
  calc W2 m ρ c (Proc.devRef .tc main_v3)
    _ = W1 m ρ c (Proc.devRef .tc main_v3) := by carry_host hostOps0_1
    _ = Cert.ReferenceIdeal.ReadP.val_main_v3 (F := Ideal) (m ((c.tc : Thread nD τ).loc main_arg1)) := src_at1 m ρ c

private theorem dst_at2 (c : Dev nD) : W2 m ρ c (Proc.devRef .tc main_v6) = Cert.ReferenceIdeal.ReadP.val_main_v6 (F := Ideal) (m ((c.tc : Thread nD τ).loc main_arg1)) :=
  calc W2 m ρ c (Proc.devRef .tc main_v6)
    _ = W1 m ρ c (Proc.devRef .tc main_v6) := by carry_host hostOps0_1
    _ = Cert.ReferenceIdeal.ReadP.val_main_v6 (F := Ideal) (m ((c.tc : Thread nD τ).loc main_arg1)) := dst_at1 m ρ c

/-! ### At the first launch's entry -/

/-- The edge sources (self-loops appended). -/
theorem src_at3 (c : Dev nD) :
    W3 m ρ c (Proc.devRef .tc main_v3) = Cert.ReferenceIdeal.ReadP.val_main_v3 (F := Ideal) (m ((c.tc : Thread nD τ).loc main_arg1)) :=
  calc W3 m ρ c (Proc.devRef .tc main_v3)
    _ = W2 m ρ c (Proc.devRef .tc main_v3) := by carry_host hostOps0_2
    _ = Cert.ReferenceIdeal.ReadP.val_main_v3 (F := Ideal) (m ((c.tc : Thread nD τ).loc main_arg1)) := src_at2 m ρ c

/-- The edge targets (self-loops appended). -/
theorem dst_at3 (c : Dev nD) :
    W3 m ρ c (Proc.devRef .tc main_v6) = Cert.ReferenceIdeal.ReadP.val_main_v6 (F := Ideal) (m ((c.tc : Thread nD τ).loc main_arg1)) :=
  calc W3 m ρ c (Proc.devRef .tc main_v6)
    _ = W2 m ρ c (Proc.devRef .tc main_v6) := by carry_host hostOps0_2
    _ = Cert.ReferenceIdeal.ReadP.val_main_v6 (F := Ideal) (m ((c.tc : Thread nD τ).loc main_arg1)) := dst_at2 m ρ c

/-- The edge weights, as a column: the last list of host operations wraps the sources and the targets (an index below
    zero moved up by the node count), reads the per-node factor at each, multiplies the two reads, and reshapes the
    product to a column; over the sources, the targets and the factor found above these are the reference's stages. -/
theorem wts_at3 (c : Dev nD) :
    W3 m ρ c (Proc.devRef .tc main_v32) = shapeCast S850000x1 (Cert.ReferenceIdeal.ReadP.val_main_v31 (F := Ideal) (m ((c.tc : Thread nD τ).loc main_arg1))) shapeCasts_S850000_S850000x1 := by
  show StableHlo.after hostOps0_2 (W2 m ρ c) (Proc.devRef .tc main_v32) = _
  generalize hV : W2 m ρ c = V2
  after_results_simp
  subst hV
  rw [src_at2 m ρ c, dst_at2 m ρ c, dinv_at2 m ρ c]
  rfl

/-- The input features, (batch, node) flattened to one row axis. -/
theorem feat_at3 (c : Dev nD) :
    W3 m ρ c (Proc.devRef .tc main_v33) = shapeCast S200000x1 (m ((c.tc : Thread nD τ).loc main_arg0)) shapeCasts_S4x50000x1_S200000x1 := by
  show StableHlo.after hostOps0_2 (W2 m ρ c) (Proc.devRef .tc main_v33) = _
  after_results
  rfl

/-! ## Carried unchanged to where each layer reads them -/

theorem src_at4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)
theorem src_at10 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by carry_host hostOps3
    _ = W7 m ρ c (Proc.devRef .tc main_v3) := W8_of_ne m ρ c main_v3 (by decide)
    _ = W6 m ρ c (Proc.devRef .tc main_v3) := by carry_host hostOps2
    _ = W5 m ρ c (Proc.devRef .tc main_v3) := W6_of_ne m ρ c main_v3 (by decide)
    _ = W4 m ρ c (Proc.devRef .tc main_v3) := by carry_host hostOps1
    _ = W3 m ρ c (Proc.devRef .tc main_v3) := src_at4 m ρ c
theorem src_at16 (c : Dev nD) : W16 m ρ c (Proc.devRef .tc main_v3) = W3 m ρ c (Proc.devRef .tc main_v3) :=
  calc W16 m ρ c (Proc.devRef .tc main_v3)
    _ = W15 m ρ c (Proc.devRef .tc main_v3) := W16_of_ne m ρ c main_v3 (by decide)
    _ = W14 m ρ c (Proc.devRef .tc main_v3) := by carry_host hostOps6
    _ = W13 m ρ c (Proc.devRef .tc main_v3) := W14_of_ne m ρ c main_v3 (by decide)
    _ = W12 m ρ c (Proc.devRef .tc main_v3) := by carry_host hostOps5
    _ = W11 m ρ c (Proc.devRef .tc main_v3) := W12_of_ne m ρ c main_v3 (by decide)
    _ = W10 m ρ c (Proc.devRef .tc main_v3) := by carry_host hostOps4
    _ = W3 m ρ c (Proc.devRef .tc main_v3) := src_at10 m ρ c

theorem dst_at6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by carry_host hostOps1
    _ = W3 m ρ c (Proc.devRef .tc main_v6) := W4_of_ne m ρ c main_v6 (by decide)
theorem dst_at12 (c : Dev nD) : W12 m ρ c (Proc.devRef .tc main_v6) = W3 m ρ c (Proc.devRef .tc main_v6) :=
  calc W12 m ρ c (Proc.devRef .tc main_v6)
    _ = W11 m ρ c (Proc.devRef .tc main_v6) := W12_of_ne m ρ c main_v6 (by decide)
    _ = W10 m ρ c (Proc.devRef .tc main_v6) := by carry_host hostOps4
    _ = W9 m ρ c (Proc.devRef .tc main_v6) := W10_of_ne m ρ c main_v6 (by decide)
    _ = W8 m ρ c (Proc.devRef .tc main_v6) := by carry_host hostOps3
    _ = W7 m ρ c (Proc.devRef .tc main_v6) := W8_of_ne m ρ c main_v6 (by decide)
    _ = W6 m ρ c (Proc.devRef .tc main_v6) := by carry_host hostOps2
    _ = W3 m ρ c (Proc.devRef .tc main_v6) := dst_at6 m ρ c
theorem dst_at18 (c : Dev nD) : W18 m ρ c (Proc.devRef .tc main_v6) = W3 m ρ c (Proc.devRef .tc main_v6) :=
  calc W18 m ρ c (Proc.devRef .tc main_v6)
    _ = W17 m ρ c (Proc.devRef .tc main_v6) := W18_of_ne m ρ c main_v6 (by decide)
    _ = W16 m ρ c (Proc.devRef .tc main_v6) := by carry_host hostOps7
    _ = W15 m ρ c (Proc.devRef .tc main_v6) := W16_of_ne m ρ c main_v6 (by decide)
    _ = W14 m ρ c (Proc.devRef .tc main_v6) := by carry_host hostOps6
    _ = W13 m ρ c (Proc.devRef .tc main_v6) := W14_of_ne m ρ c main_v6 (by decide)
    _ = W12 m ρ c (Proc.devRef .tc main_v6) := by carry_host hostOps5
    _ = W3 m ρ c (Proc.devRef .tc main_v6) := dst_at12 m ρ c

/-! The column of edge weights is not among the first launch's arrays; it is an input of the second launch of every
    layer, and a launch writes back only its outputs, so an input's array leaves that launch as it entered. -/

theorem wts_at5 (c : Dev nD) : W5 m ρ c (Proc.devRef .tc main_v32) = W3 m ρ c (Proc.devRef .tc main_v32) :=
  calc W5 m ρ c (Proc.devRef .tc main_v32)
    _ = W4 m ρ c (Proc.devRef .tc main_v32) := by carry_host hostOps1
    _ = W3 m ρ c (Proc.devRef .tc main_v32) := W4_of_ne m ρ c main_v32 (by decide)
theorem wts_at11 (c : Dev nD) : W11 m ρ c (Proc.devRef .tc main_v32) = W3 m ρ c (Proc.devRef .tc main_v32) :=
  calc W11 m ρ c (Proc.devRef .tc main_v32)
    _ = W10 m ρ c (Proc.devRef .tc main_v32) := by carry_host hostOps4
    _ = W9 m ρ c (Proc.devRef .tc main_v32) := W10_of_ne m ρ c main_v32 (by decide)
    _ = W8 m ρ c (Proc.devRef .tc main_v32) := by carry_host hostOps3
    _ = W7 m ρ c (Proc.devRef .tc main_v32) := W8_of_ne m ρ c main_v32 (by decide)
    _ = W6 m ρ c (Proc.devRef .tc main_v32) := by carry_host hostOps2
    _ = W5 m ρ c (Proc.devRef .tc main_v32) := (W6_arr m ρ c 1).trans (((dat1 (V5 m ρ) c).arrAt_in 1 rfl _).trans (A_eq1 (V5 m ρ) c 1))
    _ = W3 m ρ c (Proc.devRef .tc main_v32) := wts_at5 m ρ c
theorem wts_at17 (c : Dev nD) : W17 m ρ c (Proc.devRef .tc main_v32) = W3 m ρ c (Proc.devRef .tc main_v32) :=
  calc W17 m ρ c (Proc.devRef .tc main_v32)
    _ = W16 m ρ c (Proc.devRef .tc main_v32) := by carry_host hostOps7
    _ = W15 m ρ c (Proc.devRef .tc main_v32) := W16_of_ne m ρ c main_v32 (by decide)
    _ = W14 m ρ c (Proc.devRef .tc main_v32) := by carry_host hostOps6
    _ = W13 m ρ c (Proc.devRef .tc main_v32) := W14_of_ne m ρ c main_v32 (by decide)
    _ = W12 m ρ c (Proc.devRef .tc main_v32) := by carry_host hostOps5
    _ = W11 m ρ c (Proc.devRef .tc main_v32) := (W12_arr m ρ c 1).trans (((dat4 (V11 m ρ) c).arrAt_in 1 rfl _).trans (A_eq4 (V11 m ρ) c 1))
    _ = W3 m ρ c (Proc.devRef .tc main_v32) := wts_at11 m ρ c

/-! ## The weight and bias arguments where each launch or stretch reads them -/

theorem arg2_at3 (c : Dev nD) : W3 m ρ c (Proc.devRef .tc main_arg2) = m ((c.tc : Thread nD τ).loc main_arg2) :=
  calc W3 m ρ c (Proc.devRef .tc main_arg2)
    _ = W2 m ρ c (Proc.devRef .tc main_arg2) := by carry_host hostOps0_2
    _ = W1 m ρ c (Proc.devRef .tc main_arg2) := by carry_host hostOps0_1
    _ = W0 m ρ c (Proc.devRef .tc main_arg2) := by carry_host hostOps0
    _ = m ((c.tc : Thread nD τ).loc main_arg2) := rfl
theorem arg3_at6 (c : Dev nD) : W6 m ρ c (Proc.devRef .tc main_arg3) = m ((c.tc : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by carry_host hostOps1
    _ = W3 m ρ c (Proc.devRef .tc main_arg3) := W4_of_ne m ρ c main_arg3 (by decide)
    _ = W2 m ρ c (Proc.devRef .tc main_arg3) := by carry_host hostOps0_2
    _ = W1 m ρ c (Proc.devRef .tc main_arg3) := by carry_host hostOps0_1
    _ = W0 m ρ c (Proc.devRef .tc main_arg3) := by carry_host hostOps0
    _ = m ((c.tc : Thread nD τ).loc main_arg3) := rfl
theorem arg4_at9 (c : Dev nD) : W9 m ρ c (Proc.devRef .tc main_arg4) = m ((c.tc : Thread nD τ).loc main_arg4) :=
  calc W9 m ρ c (Proc.devRef .tc main_arg4)
    _ = W8 m ρ c (Proc.devRef .tc main_arg4) := by carry_host hostOps3
    _ = W7 m ρ c (Proc.devRef .tc main_arg4) := W8_of_ne m ρ c main_arg4 (by decide)
    _ = W6 m ρ c (Proc.devRef .tc main_arg4) := by carry_host hostOps2
    _ = W5 m ρ c (Proc.devRef .tc main_arg4) := W6_of_ne m ρ c main_arg4 (by decide)
    _ = W4 m ρ c (Proc.devRef .tc main_arg4) := by carry_host hostOps1
    _ = W3 m ρ c (Proc.devRef .tc main_arg4) := W4_of_ne m ρ c main_arg4 (by decide)
    _ = W2 m ρ c (Proc.devRef .tc main_arg4) := by carry_host hostOps0_2
    _ = W1 m ρ c (Proc.devRef .tc main_arg4) := by carry_host hostOps0_1
    _ = W0 m ρ c (Proc.devRef .tc main_arg4) := by carry_host hostOps0
    _ = m ((c.tc : Thread nD τ).loc main_arg4) := rfl
theorem arg5_at12 (c : Dev nD) : W12 m ρ c (Proc.devRef .tc main_arg5) = m ((c.tc : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := by carry_host hostOps4
    _ = W9 m ρ c (Proc.devRef .tc main_arg5) := W10_of_ne m ρ c main_arg5 (by decide)
    _ = W8 m ρ c (Proc.devRef .tc main_arg5) := by carry_host hostOps3
    _ = W7 m ρ c (Proc.devRef .tc main_arg5) := W8_of_ne m ρ c main_arg5 (by decide)
    _ = W6 m ρ c (Proc.devRef .tc main_arg5) := by carry_host hostOps2
    _ = W5 m ρ c (Proc.devRef .tc main_arg5) := W6_of_ne m ρ c main_arg5 (by decide)
    _ = W4 m ρ c (Proc.devRef .tc main_arg5) := by carry_host hostOps1
    _ = W3 m ρ c (Proc.devRef .tc main_arg5) := W4_of_ne m ρ c main_arg5 (by decide)
    _ = W2 m ρ c (Proc.devRef .tc main_arg5) := by carry_host hostOps0_2
    _ = W1 m ρ c (Proc.devRef .tc main_arg5) := by carry_host hostOps0_1
    _ = W0 m ρ c (Proc.devRef .tc main_arg5) := by carry_host hostOps0
    _ = m ((c.tc : Thread nD τ).loc main_arg5) := rfl
theorem arg6_at15 (c : Dev nD) : W15 m ρ c (Proc.devRef .tc main_arg6) = m ((c.tc : Thread nD τ).loc main_arg6) :=
  calc W15 m ρ c (Proc.devRef .tc main_arg6)
    _ = W14 m ρ c (Proc.devRef .tc main_arg6) := by carry_host hostOps6
    _ = W13 m ρ c (Proc.devRef .tc main_arg6) := W14_of_ne m ρ c main_arg6 (by decide)
    _ = W12 m ρ c (Proc.devRef .tc main_arg6) := by carry_host hostOps5
    _ = W11 m ρ c (Proc.devRef .tc main_arg6) := W12_of_ne m ρ c main_arg6 (by decide)
    _ = W10 m ρ c (Proc.devRef .tc main_arg6) := by carry_host hostOps4
    _ = W9 m ρ c (Proc.devRef .tc main_arg6) := W10_of_ne m ρ c main_arg6 (by decide)
    _ = W8 m ρ c (Proc.devRef .tc main_arg6) := by carry_host hostOps3
    _ = W7 m ρ c (Proc.devRef .tc main_arg6) := W8_of_ne m ρ c main_arg6 (by decide)
    _ = W6 m ρ c (Proc.devRef .tc main_arg6) := by carry_host hostOps2
    _ = W5 m ρ c (Proc.devRef .tc main_arg6) := W6_of_ne m ρ c main_arg6 (by decide)
    _ = W4 m ρ c (Proc.devRef .tc main_arg6) := by carry_host hostOps1
    _ = W3 m ρ c (Proc.devRef .tc main_arg6) := W4_of_ne m ρ c main_arg6 (by decide)
    _ = W2 m ρ c (Proc.devRef .tc main_arg6) := by carry_host hostOps0_2
    _ = W1 m ρ c (Proc.devRef .tc main_arg6) := by carry_host hostOps0_1
    _ = W0 m ρ c (Proc.devRef .tc main_arg6) := by carry_host hostOps0
    _ = m ((c.tc : Thread nD τ).loc main_arg6) := rfl
theorem arg7_at18 (c : Dev nD) : W18 m ρ c (Proc.devRef .tc main_arg7) = m ((c.tc : Thread nD τ).loc main_arg7) :=
  calc W18 m ρ c (Proc.devRef .tc main_arg7)
    _ = W17 m ρ c (Proc.devRef .tc main_arg7) := W18_of_ne m ρ c main_arg7 (by decide)
    _ = W16 m ρ c (Proc.devRef .tc main_arg7) := by carry_host hostOps7
    _ = W15 m ρ c (Proc.devRef .tc main_arg7) := W16_of_ne m ρ c main_arg7 (by decide)
    _ = W14 m ρ c (Proc.devRef .tc main_arg7) := by carry_host hostOps6
    _ = W13 m ρ c (Proc.devRef .tc main_arg7) := W14_of_ne m ρ c main_arg7 (by decide)
    _ = W12 m ρ c (Proc.devRef .tc main_arg7) := by carry_host hostOps5
    _ = W11 m ρ c (Proc.devRef .tc main_arg7) := W12_of_ne m ρ c main_arg7 (by decide)
    _ = W10 m ρ c (Proc.devRef .tc main_arg7) := by carry_host hostOps4
    _ = W9 m ρ c (Proc.devRef .tc main_arg7) := W10_of_ne m ρ c main_arg7 (by decide)
    _ = W8 m ρ c (Proc.devRef .tc main_arg7) := by carry_host hostOps3
    _ = W7 m ρ c (Proc.devRef .tc main_arg7) := W8_of_ne m ρ c main_arg7 (by decide)
    _ = W6 m ρ c (Proc.devRef .tc main_arg7) := by carry_host hostOps2
    _ = W5 m ρ c (Proc.devRef .tc main_arg7) := W6_of_ne m ρ c main_arg7 (by decide)
    _ = W4 m ρ c (Proc.devRef .tc main_arg7) := by carry_host hostOps1
    _ = W3 m ρ c (Proc.devRef .tc main_arg7) := W4_of_ne m ρ c main_arg7 (by decide)
    _ = W2 m ρ c (Proc.devRef .tc main_arg7) := by carry_host hostOps0_2
    _ = W1 m ρ c (Proc.devRef .tc main_arg7) := by carry_host hostOps0_1
    _ = W0 m ρ c (Proc.devRef .tc main_arg7) := by carry_host hostOps0
    _ = m ((c.tc : Thread nD τ).loc main_arg7) := rfl

end Cert.KernelIdeal.Hand

end
-- ==== Proof.Spec.lean ====
/-
  What each of the nine kernel launches leaves in its result array, as ONE function of its two operand arrays, index by
  index, on the extended reals. Three kinds of launch, each at the three layer widths (1 → 64 → 32 → 1):

  * channel mixing: row `r` of the flattened node features (all batches' nodes in one axis of 200000 rows) times the
    weight matrix: entry (r, d) is the sum over the input channels k of x[r, k] · w[k, d];
  * message scaling: the message gathered for edge e (self-loops included, 850000 edges) in batch b, channel d, times the
    edge's normalisation weight n[e, 0];
  * bias and activation: the aggregated feature at node v plus the channel's bias b[0, d], then max(·, 0) in the two hidden
    layers and the logistic function 1 / (1 + e^(-·)) in the last.

  The shapes are written out as literals so that the same functions serve the kernel's program and the reference's.
-/
import Idealize.ShloMosaic.PureOps.Ideal
import Idealize.ShloMosaic.Lib.ValueIdx

noncomputable section

open scoped BigOperators
open Idealize.ShloMosaic Idealize.ShloMosaic.ValueIdx

namespace Cert.Gcn

/-! ## Channel mixing: rows of features times a weight matrix -/

/-- Layer 1: one input channel, 64 output channels. -/
def mix1 (x : FVec Ideal ⟨2, ![200000, 1]⟩ .f32) (w : FVec Ideal ⟨2, ![1, 64]⟩ .f32) : FVec Ideal ⟨2, ![200000, 64]⟩ .f32 :=
  fun i => ∑ k : Fin 1, x (ix2 (i 0) k) * w (ix2 k (i 1))

/-- Layer 2: 64 input channels, 32 output channels. -/
def mix2 (x : FVec Ideal ⟨2, ![200000, 64]⟩ .f32) (w : FVec Ideal ⟨2, ![64, 32]⟩ .f32) : FVec Ideal ⟨2, ![200000, 32]⟩ .f32 :=
  fun i => ∑ k : Fin 64, x (ix2 (i 0) k) * w (ix2 k (i 1))

/-- Layer 3: 32 input channels, one output channel. -/
def mix3 (x : FVec Ideal ⟨2, ![200000, 32]⟩ .f32) (w : FVec Ideal ⟨2, ![32, 1]⟩ .f32) : FVec Ideal ⟨2, ![200000, 1]⟩ .f32 :=
  fun i => ∑ k : Fin 32, x (ix2 (i 0) k) * w (ix2 k (i 1))

/-! ## Message scaling: each gathered message times its edge's weight -/

def scale1 (g : FVec Ideal ⟨3, ![4, 850000, 64]⟩ .f32) (n : FVec Ideal ⟨2, ![850000, 1]⟩ .f32) : FVec Ideal ⟨3, ![4, 850000, 64]⟩ .f32 :=
  fun i => g i * n (ix2 (i 1) (0 : Fin 1))

def scale2 (g : FVec Ideal ⟨3, ![4, 850000, 32]⟩ .f32) (n : FVec Ideal ⟨2, ![850000, 1]⟩ .f32) : FVec Ideal ⟨3, ![4, 850000, 32]⟩ .f32 :=
  fun i => g i * n (ix2 (i 1) (0 : Fin 1))

def scale3 (g : FVec Ideal ⟨3, ![4, 850000, 1]⟩ .f32) (n : FVec Ideal ⟨2, ![850000, 1]⟩ .f32) : FVec Ideal ⟨3, ![4, 850000, 1]⟩ .f32 :=
  fun i => g i * n (ix2 (i 1) (0 : Fin 1))

/-! ## Bias and activation -/

/-- Hidden layer 1: add the channel's bias, keep the positive part. -/
def biasRelu1 (h : FVec Ideal ⟨3, ![4, 50000, 64]⟩ .f32) (b : FVec Ideal ⟨2, ![1, 64]⟩ .f32) : FVec Ideal ⟨3, ![4, 50000, 64]⟩ .f32 :=
  fun i => max (h i + b (ix2 (0 : Fin 1) (i 2))) (Ideal.ofBits .f32 0x00000000#32)

/-- Hidden layer 2: the same at 32 channels. -/
def biasRelu2 (h : FVec Ideal ⟨3, ![4, 50000, 32]⟩ .f32) (b : FVec Ideal ⟨2, ![1, 32]⟩ .f32) : FVec Ideal ⟨3, ![4, 50000, 32]⟩ .f32 :=
  fun i => max (h i + b (ix2 (0 : Fin 1) (i 2))) (Ideal.ofBits .f32 0x00000000#32)

/-- Output layer: add the bias, apply the logistic function. -/
def biasSigmoid (h : FVec Ideal ⟨3, ![4, 50000, 1]⟩ .f32) (b : FVec Ideal ⟨2, ![1, 1]⟩ .f32) : FVec Ideal ⟨3, ![4, 50000, 1]⟩ .f32 :=
  fun i => Ideal.logistic (h i + b (ix2 (0 : Fin 1) (i 2)))

end Cert.Gcn

end
-- ==== Proof.Alg1.lean ====
/-
  Layer 1 (1 → 64 channels): each launch's function is the reference's operation on the same data.

  * the channel mixing of the flattened features, put back into its [batch, node, channel] layout, is the reference's
    contraction of the feature axis with the weight matrix: both are the sum over the input channels of feature times weight,
    and flattening (batch, node) to one row index and back changes no entry;
  * scaling by the column of edge weights is the product with the weights broadcast over batches and channels;
  * adding the bias row and applying the activation is the reference's broadcast add followed by the maximum with zero.
-/
import proofs.«164442_j455266533916_1_alg».proof.Proof.RefRead
import proofs.«164442_j455266533916_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Gcn.Alg

open Cert.ReferenceIdeal Cert.ReferenceIdeal.ReadP

/-- The flattened row of (batch b, node v) is b · 50000 + v. -/
private def flatRow (b : Fin 4) (v : Fin 50000) : Fin 200000 := ⟨b.val * 50000 + v.val, by omega⟩

theorem mix1_eq (x0 : (⟨S4x50000x1, .f32⟩ : BufTy).Contents (Elt Ideal)) (w : FVec Ideal S1x64 .f32)
    (h1 : S4x50000x1.ShapeCasts ⟨2, ![200000, 1]⟩) (h2 : (⟨2, ![200000, 64]⟩ : Shape).ShapeCasts S4x50000x64) :
    shapeCast S4x50000x64 (Cert.Gcn.mix1 (shapeCast ⟨2, ![200000, 1]⟩ x0 h1) w) h2
      = val_main_v32 (F := Ideal) x0 w := by
  funext i
  obtain ⟨b, v, d, rfl⟩ : ∃ (b : Fin 4) (v : Fin 50000) (d : Fin 64), i = ix3 b v d := ⟨i 0, i 1, i 2, eq_ix3 i⟩
  rw [val_main_v32_apply]
  -- the entry (b, v, d) of the regrouped array is the entry (b · 50000 + v, d) of the flat one
  rw [shapeCast_apply _ h2 (ix3 b v d) (ix2 (flatRow b v) d) (by
    rw [Shape.rowMajor_val_two, Shape.rowMajor_val_three]
    show (b.val * 50000 + v.val) * 64 + d.val = (b.val * 50000 + v.val) * 64 + d.val
    rfl)]
  unfold Cert.Gcn.mix1
  refine Finset.sum_congr rfl fun k _ => ?_
  -- the feature read: row b · 50000 + v of the flat features is the entry (b, v) of the input
  have ex : shapeCast ⟨2, ![200000, 1]⟩ x0 h1 (ix2 (ix2 (flatRow b v) d 0) k) = x0 (lidx_main_v32 (ix3 b v d) k) :=
    shapeCast_apply x0 h1 _ _ (by
      rw [Shape.rowMajor_val_three, Shape.rowMajor_val_two]
      show (b.val * 50000 + v.val) * 1 + k.val = (b.val * 50000 + v.val) * 1 + k.val
      rfl)
  -- the weight read: the same entry (k, d)
  have ew : (ix2 k (ix2 (flatRow b v) d 1) : S1x64.Idx) = ridx_main_v32 (ix3 b v d) k :=
    funext fun a => match a with | ⟨0, _⟩ => rfl | ⟨1, _⟩ => rfl
  rw [ex, ew]

theorem scale1_eq (g : FVec Ideal S4x850000x64 .f32) (x1 : (⟨S2x800000, .i32⟩ : BufTy).Contents (Elt Ideal)) (h : S850000.ShapeCasts ⟨2, ![850000, 1]⟩) :
    Cert.Gcn.scale1 g (shapeCast ⟨2, ![850000, 1]⟩ (val_main_v31 (F := Ideal) x1) h)
      = mulf g (val_main_v41 (F := Ideal) x1) := by
  funext i
  obtain ⟨b, e, d, rfl⟩ : ∃ (b : Fin 4) (e : Fin 850000) (d : Fin 64), i = ix3 b e d := ⟨i 0, i 1, i 2, eq_ix3 i⟩
  rw [mulf_apply, val_main_v41_apply, val_main_v40_apply]
  unfold Cert.Gcn.scale1
  -- the weight column read at (e, 0) is the weight vector at e
  have en : shapeCast ⟨2, ![850000, 1]⟩ (val_main_v31 (F := Ideal) x1) h (ix2 (ix3 b e d 1) (0 : Fin 1))
      = val_main_v31 (F := Ideal) x1 (idx_main_v40 (idx_main_v41 (ix3 b e d))) :=
    shapeCast_apply _ h _ _ (by
      rw [Shape.rowMajor_val_one, Shape.rowMajor_val_two]
      show e.val = e.val * 1 + 0
      omega)
  rw [en]

theorem biasRelu1_eq (a : FVec Ideal S4x50000x64 .f32) (b : (⟨S64, .f32⟩ : BufTy).Contents (Elt Ideal)) (h : S64.ShapeCasts ⟨2, ![1, 64]⟩) :
    Cert.Gcn.biasRelu1 a (shapeCast ⟨2, ![1, 64]⟩ b h)
      = maximumf (addf a (val_main_v52 (F := Ideal) b)) (val_main_call1_v0 (F := Ideal)) := by
  funext i
  obtain ⟨c, v, d, rfl⟩ : ∃ (c : Fin 4) (v : Fin 50000) (d : Fin 64), i = ix3 c v d := ⟨i 0, i 1, i 2, eq_ix3 i⟩
  rw [maximumf_apply, addf_apply, val_main_v52_apply, val_main_v51_apply, val_main_call1_v0_apply, val_main_call1_cst_apply]
  unfold Cert.Gcn.biasRelu1
  -- the bias row read at (0, d) is the bias vector at d
  have eb : shapeCast ⟨2, ![1, 64]⟩ b h (ix2 (0 : Fin 1) (ix3 c v d 2)) = b (idx_main_v51 (idx_main_v52 (ix3 c v d))) :=
    (shapeCast_a_1a_apply b h (0 : Fin 1) d).trans
      (congrArg b (funext fun a => match a with | ⟨0, _⟩ => rfl))
  rw [eb]
  rfl

end Cert.Gcn.Alg

end
-- ==== Proof.KL1.lean ====
/-
  Layer 1 of the kernel program: from the launch memory to the hidden features after the first bias-and-ReLU launch. The
  flattened input features are mixed by the first weight matrix (launch 0), put back in [batch, node, channel] layout and
  gathered along the edge sources; each message is scaled by its edge weight (launch 1); the messages are added into their
  target nodes from zero; the bias is added and the positive part kept (launch 2). Each step is the reference's, so the
  array launch 2 leaves is the reference's first hidden layer.
  Stated over what each of its three launches leaves in its result array (the hypotheses, one per launch: the launch's
  function of its two operand arrays), so that it rests on the host stretches and the algebra alone.
-/
import proofs.«164442_j455266533916_1_alg».proof.Proof.KCarry
import proofs.«164442_j455266533916_1_alg».proof.Proof.Alg1

set_option maxRecDepth 16384

noncomputable section

open Idealize.ShloMosaic Idealize.ShloMosaic.TcCoe Idealize.SL.Sem Idealize.ShloMosaic.Tactic Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-- An edge endpoint list with its negative entries moved up by the node count, as a one-column index array: what the
    gather and the scatter-add read their row numbers from. -/
private abbrev wrapCol (D : (⟨S850000, .i32⟩ : BufTy).Contents (Elt Ideal)) : (⟨S850000x1, .i32⟩ : BufTy).Contents (Elt Ideal) :=
  broadcastInDim S850000x1 ![0] bcast_S850000_S850000x1_0
    (select (cmpi .slt D (broadcastInDim S850000 ![] bcast_S_S850000 (constantI S_ 32 0#32)))
      (addi D (broadcastInDim S850000 ![] bcast_S_S850000 (constantI S_ 32 50000#32))) D)

/-- On the edge sources it is the reference's column of gather indices: the same four operations on the same list. -/
private theorem wrapCol_src (x1 : (⟨S2x800000, .i32⟩ : BufTy).Contents (Elt Ideal)) :
    wrapCol (Cert.ReferenceIdeal.ReadP.val_main_v3 (F := Ideal) x1) = Cert.ReferenceIdeal.ReadP.val_main_v38 (F := Ideal) x1 := rfl

/-- On the edge targets it is the reference's column of scatter indices. -/
private theorem wrapCol_dst (x1 : (⟨S2x800000, .i32⟩ : BufTy).Contents (Elt Ideal)) :
    wrapCol (Cert.ReferenceIdeal.ReadP.val_main_v6 (F := Ideal) x1) = Cert.ReferenceIdeal.ReadP.val_main_v49 (F := Ideal) x1 := rfl

/-! ## What the two host stretches of the layer leave -/

/-- Between launches 0 and 1: the mixed features regrouped to [batch, node, channel] and gathered along the wrapped
    edge sources. -/
private theorem msgs_at5 (c : Dev nD) :
    W5 m ρ c (Proc.devRef .tc main_v42)
      = Host.gather gather_S4x50000x64_S850000x1_S4x850000x64_02_1_n_n_1_1_4164
          (shapeCast S4x50000x64 (W4 m ρ c (Proc.devRef .tc main_v34)) shapeCasts_S200000x64_S4x50000x64)
          (wrapCol (W4 m ρ c (Proc.devRef .tc main_v3))) := by
  show StableHlo.after hostOps1 (W4 m ρ c) (Proc.devRef .tc main_v42) = _
  after_results_simp
  rfl

/-- Between launches 1 and 2: the scaled messages added, from zero, into the rows the wrapped edge targets name. -/
private theorem agg_at7 (c : Dev nD) :
    W7 m ρ c (Proc.devRef .tc main_v51)
      = Host.scatterAdd (F := Ideal) scatter_S4x50000x64_S850000x1_S4x850000x64_02_1_1_1
          (broadcastInDim S4x50000x64 ![] bcast_S_S4x50000x64 (constant S_ .f32 0x00000000#32))
          (wrapCol (W6 m ρ c (Proc.devRef .tc main_v6)))
          (W6 m ρ c (Proc.devRef .tc main_v43)) := by
  show StableHlo.after hostOps2 (W6 m ρ c) (Proc.devRef .tc main_v51) = _
  after_results_simp

/-- The same stretch leaves the bias as a one-row matrix. -/
private theorem bias_at7 (c : Dev nD) :
    W7 m ρ c (Proc.devRef .tc main_v52) = shapeCast S1x64 (W6 m ρ c (Proc.devRef .tc main_arg3)) shapeCasts_S64_S1x64 := by
  show StableHlo.after hostOps2 (W6 m ρ c) (Proc.devRef .tc main_v52) = _
  after_results_simp
  rfl

/-! ## The layer's arrays, one launch at a time, as the reference's stages -/

/-- Launch 0 leaves the first weight matrix applied to the flattened input features. -/
private theorem mixed_at4 (hreg0 : ∀ (V : (c : Dev nD) → (b : Ref sig .tc) → Buf (Elt Ideal) ((c : Thread nD τ).loc b)) (c : Dev nD), (dat0 V c).arrAt 2 cfg0.N = Cert.Gcn.mix1 (V c main_v33) (V c main_arg2))
    (c : Dev nD) :
    W4 m ρ c (Proc.devRef .tc main_v34)
      = Cert.Gcn.mix1 (shapeCast S200000x1 (m ((c.tc : Thread nD τ).loc main_arg0)) shapeCasts_S4x50000x1_S200000x1) (m ((c.tc : Thread nD τ).loc main_arg2)) := by
  have h : W4 m ρ c (Proc.devRef .tc main_v34) = (dat0 (V3 m ρ) c).arrAt 2 cfg0.N := W4_arr m ρ c 2
  rw [h, hreg0 (V3 m ρ) c]
  show Cert.Gcn.mix1 (W3 m ρ c (Proc.devRef .tc main_v33)) (W3 m ρ c (Proc.devRef .tc main_arg2)) = _
  rw [feat_at3, arg2_at3]

/-- The messages launch 1 reads are the reference's: its mixed features gathered along its wrapped edge sources. -/
private theorem msgs_ref (hreg0 : ∀ (V : (c : Dev nD) → (b : Ref sig .tc) → Buf (Elt Ideal) ((c : Thread nD τ).loc b)) (c : Dev nD), (dat0 V c).arrAt 2 cfg0.N = Cert.Gcn.mix1 (V c main_v33) (V c main_arg2))
    (c : Dev nD) :
    W5 m ρ c (Proc.devRef .tc main_v42)
      = Cert.ReferenceIdeal.ReadP.val_main_v39 (F := Ideal) (m ((c.tc : Thread nD τ).loc main_arg0)) (m ((c.tc : Thread nD τ).loc main_arg1)) (m ((c.tc : Thread nD τ).loc main_arg2)) := by
  rw [msgs_at5, mixed_at4 m ρ hreg0 c, src_at4, src_at3]
  exact congrArg₂ (Host.gather _) (Cert.Gcn.Alg.mix1_eq _ _ _ _) (wrapCol_src _)

/-- Launch 1 leaves the reference's messages scaled by its edge weights. -/
private theorem scaled_ref (hreg0 : ∀ (V : (c : Dev nD) → (b : Ref sig .tc) → Buf (Elt Ideal) ((c : Thread nD τ).loc b)) (c : Dev nD), (dat0 V c).arrAt 2 cfg0.N = Cert.Gcn.mix1 (V c main_v33) (V c main_arg2))
    (hreg1 : ∀ (V : (c : Dev nD) → (b : Ref sig .tc) → Buf (Elt Ideal) ((c : Thread nD τ).loc b)) (c : Dev nD), (dat1 V c).arrAt 2 cfg1.N = Cert.Gcn.scale1 (V c main_v42) (V c main_v32))
    (c : Dev nD) :
    W6 m ρ c (Proc.devRef .tc main_v43)
      = Cert.ReferenceIdeal.ReadP.val_main_v42 (F := Ideal) (m ((c.tc : Thread nD τ).loc main_arg0)) (m ((c.tc : Thread nD τ).loc main_arg1)) (m ((c.tc : Thread nD τ).loc main_arg2)) := by
  have h : W6 m ρ c (Proc.devRef .tc main_v43) = (dat1 (V5 m ρ) c).arrAt 2 cfg1.N := W6_arr m ρ c 2
  rw [h, hreg1 (V5 m ρ) c]
  show Cert.Gcn.scale1 (W5 m ρ c (Proc.devRef .tc main_v42)) (W5 m ρ c (Proc.devRef .tc main_v32)) = _
  rw [msgs_ref m ρ hreg0 c, wts_at5, wts_at3]
  exact Cert.Gcn.Alg.scale1_eq _ _ _

/-- What launch 2 reads as its first operand is the reference's aggregate: the scaled messages added from zero into
    the rows its wrapped edge targets name. -/
private theorem agg_ref (hreg0 : ∀ (V : (c : Dev nD) → (b : Ref sig .tc) → Buf (Elt Ideal) ((c : Thread nD τ).loc b)) (c : Dev nD), (dat0 V c).arrAt 2 cfg0.N = Cert.Gcn.mix1 (V c main_v33) (V c main_arg2))
    (hreg1 : ∀ (V : (c : Dev nD) → (b : Ref sig .tc) → Buf (Elt Ideal) ((c : Thread nD τ).loc b)) (c : Dev nD), (dat1 V c).arrAt 2 cfg1.N = Cert.Gcn.scale1 (V c main_v42) (V c main_v32))
    (c : Dev nD) :
    W7 m ρ c (Proc.devRef .tc main_v51)
      = Cert.ReferenceIdeal.ReadP.val_main_v50 (F := Ideal) (m ((c.tc : Thread nD τ).loc main_arg0)) (m ((c.tc : Thread nD τ).loc main_arg1)) (m ((c.tc : Thread nD τ).loc main_arg2)) := by
  rw [agg_at7, scaled_ref m ρ hreg0 hreg1 c, dst_at6, dst_at3, wrapCol_dst]
  rfl

/-! ## The layer -/

/-- Launch 2 adds the bias row to the reference's aggregate and keeps the positive part: the reference's first hidden
    layer. -/
theorem layer1 (hreg0 : ∀ (V : (c : Dev nD) → (b : Ref sig .tc) → Buf (Elt Ideal) ((c : Thread nD τ).loc b)) (c : Dev nD), (dat0 V c).arrAt 2 cfg0.N = Cert.Gcn.mix1 (V c main_v33) (V c main_arg2))
    (hreg1 : ∀ (V : (c : Dev nD) → (b : Ref sig .tc) → Buf (Elt Ideal) ((c : Thread nD τ).loc b)) (c : Dev nD), (dat1 V c).arrAt 2 cfg1.N = Cert.Gcn.scale1 (V c main_v42) (V c main_v32))
    (hreg2 : ∀ (V : (c : Dev nD) → (b : Ref sig .tc) → Buf (Elt Ideal) ((c : Thread nD τ).loc b)) (c : Dev nD), (dat2 V c).arrAt 2 cfg2.N = Cert.Gcn.biasRelu1 (V c main_v51) (V c main_v52))
    (c : Dev nD) :
    W8 m ρ c (Proc.devRef .tc main_v53) = Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3)) := by
  have h : W8 m ρ c (Proc.devRef .tc main_v53) = (dat2 (V7 m ρ) c).arrAt 2 cfg2.N := W8_arr m ρ c 2
  rw [h, hreg2 (V7 m ρ) c]
  show Cert.Gcn.biasRelu1 (W7 m ρ c (Proc.devRef .tc main_v51)) (W7 m ρ c (Proc.devRef .tc main_v52)) = _
  rw [agg_ref m ρ hreg0 hreg1 c, bias_at7, arg3_at6]
  exact Cert.Gcn.Alg.biasRelu1_eq _ _ _

end Cert.KernelIdeal.Hand

end
-- ==== Proof.Alg2.lean ====
/-
  Layer 2 (64 → 32 channels): each launch's function is the reference's operation on the same data.

  * the channel mixing of the flattened features, put back into its [batch, node, channel] layout, is the reference's
    contraction of the feature axis with the weight matrix: both are the sum over the input channels of feature times weight,
    and flattening (batch, node) to one row index and back changes no entry;
  * scaling by the column of edge weights is the product with the weights broadcast over batches and channels;
  * adding the bias row and applying the activation is the reference's broadcast add followed by the maximum with zero.
-/
import proofs.«164442_j455266533916_1_alg».proof.Proof.RefRead
import proofs.«164442_j455266533916_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.Gcn.Alg

open Cert.ReferenceIdeal Cert.ReferenceIdeal.ReadP

/-- The flattened row index of node `v` in batch `p`: the batches lie one after another, 50000 nodes each. -/
private def row2 (p : Fin 4) (v : Fin 50000) : Fin 200000 := ⟨p.val * 50000 + v.val, by omega⟩

/-- Flattening (batch, node) to one row axis keeps the entry at (batch, node, channel) at (row, channel): both have
    row-major position (p · 50000 + v) · 64 + k. -/
private theorem cast_flat64 {α : Type} (x : (⟨3, ![4, 50000, 64]⟩ : Shape).Idx → α)
    (h : (⟨3, ![4, 50000, 64]⟩ : Shape).ShapeCasts ⟨2, ![200000, 64]⟩) (p : Fin 4) (v : Fin 50000) (k : Fin 64) :
    shapeCast ⟨2, ![200000, 64]⟩ x h (ix2 (row2 p v) k) = x (ix3 p v k) :=
  shapeCast_apply x h _ _ (by
    rw [Shape.rowMajor_val_three, Shape.rowMajor_val_two]
    rfl)

/-- Splitting the row axis back into (batch, node) reads the entry at (row, channel): both have row-major position
    (p · 50000 + v) · 32 + d. -/
private theorem cast_unflat32 {α : Type} (y : (⟨2, ![200000, 32]⟩ : Shape).Idx → α)
    (h : (⟨2, ![200000, 32]⟩ : Shape).ShapeCasts ⟨3, ![4, 50000, 32]⟩) (p : Fin 4) (v : Fin 50000) (d : Fin 32) :
    shapeCast ⟨3, ![4, 50000, 32]⟩ y h (ix3 p v d) = y (ix2 (row2 p v) d) :=
  shapeCast_apply y h _ _ (by
    rw [Shape.rowMajor_val_two, Shape.rowMajor_val_three]
    rfl)

/-- A vector seen as a one-column matrix: the entry at (e, 0) is the vector's entry at e. -/
private theorem cast_col850000 {α : Type} (x : (⟨1, ![850000]⟩ : Shape).Idx → α)
    (h : (⟨1, ![850000]⟩ : Shape).ShapeCasts ⟨2, ![850000, 1]⟩) (e : Fin 850000) (u : Fin 1) :
    shapeCast ⟨2, ![850000, 1]⟩ x h (ix2 e u) = x (ix1 e) :=
  shapeCast_apply x h _ _ (by
    have hu : u.val = 0 := by omega
    rw [Shape.rowMajor_val_one, Shape.rowMajor_val_two]
    show e.val = e.val * 1 + u.val
    rw [hu, Nat.mul_one, Nat.add_zero])

theorem mix2_eq (x0 : (⟨S4x50000x1, .f32⟩ : BufTy).Contents (Elt Ideal)) (x1 : (⟨S2x800000, .i32⟩ : BufTy).Contents (Elt Ideal)) (x2 : (⟨S1x64, .f32⟩ : BufTy).Contents (Elt Ideal)) (x3 : (⟨S64, .f32⟩ : BufTy).Contents (Elt Ideal)) (w : FVec Ideal S64x32 .f32)
    (h1 : S4x50000x64.ShapeCasts ⟨2, ![200000, 64]⟩) (h2 : (⟨2, ![200000, 32]⟩ : Shape).ShapeCasts S4x50000x32) :
    shapeCast S4x50000x32 (Cert.Gcn.mix2 (shapeCast ⟨2, ![200000, 64]⟩ (val_main_v54 (F := Ideal) x0 x1 x2 x3) h1) w) h2
      = val_main_v55 (F := Ideal) x0 x1 x2 x3 w := by
  funext i
  obtain ⟨p, v, d, rfl⟩ : ∃ (p : Fin 4) (v : Fin 50000) (d : Fin 32), i = ix3 p v d := ⟨i 0, i 1, i 2, eq_ix3 i⟩
  -- the contraction at (p, v, d): the sum over k of the features at (p, v, k) times the weight at (k, d)
  rw [val_main_v55_apply]
  have el : ∀ k : Fin 64, lidx_main_v55 (ix3 p v d) k = ix3 p v k := fun k =>
    funext fun a => Fin.ext (by match a with | ⟨0, _⟩ => rfl | ⟨1, _⟩ => rfl | ⟨2, _⟩ => rfl)
  have er : ∀ k : Fin 64, ridx_main_v55 (ix3 p v d) k = ix2 k d := fun k =>
    funext fun a => Fin.ext (by match a with | ⟨0, _⟩ => rfl | ⟨1, _⟩ => rfl)
  -- the other side: entry (p, v, d) is entry (row, d) of the row-wise sum, whose k-th term reads the flattened features
  -- at (row, k), that is the features at (p, v, k)
  refine (cast_unflat32 _ h2 p v d).trans ?_
  unfold Cert.Gcn.mix2
  refine Finset.sum_congr rfl fun k _ => ?_
  rw [el k, er k]
  exact congrArg (· * w (ix2 k d)) (cast_flat64 _ h1 p v k)

theorem scale2_eq (g : FVec Ideal S4x850000x32 .f32) (x1 : (⟨S2x800000, .i32⟩ : BufTy).Contents (Elt Ideal)) (h : S850000.ShapeCasts ⟨2, ![850000, 1]⟩) :
    Cert.Gcn.scale2 g (shapeCast ⟨2, ![850000, 1]⟩ (val_main_v31 (F := Ideal) x1) h)
      = mulf g (val_main_v64 (F := Ideal) x1) := by
  funext i
  obtain ⟨p, e, d, rfl⟩ : ∃ (p : Fin 4) (e : Fin 850000) (d : Fin 32), i = ix3 p e d := ⟨i 0, i 1, i 2, eq_ix3 i⟩
  -- the weights broadcast over batches and channels: the entry at (p, e, d) is the weight of edge e
  rw [mulf_apply, val_main_v64_apply, val_main_v63_apply]
  have ei : idx_main_v63 (idx_main_v64 (ix3 p e d)) = ix1 e :=
    funext fun a => Fin.ext (by match a with | ⟨0, _⟩ => rfl)
  rw [ei]
  -- the column of weights at (e, 0) is the same weight
  unfold Cert.Gcn.scale2
  exact congrArg (g (ix3 p e d) * ·) (cast_col850000 _ h e 0)

theorem biasRelu2_eq (a : FVec Ideal S4x50000x32 .f32) (b : (⟨S32, .f32⟩ : BufTy).Contents (Elt Ideal)) (h : S32.ShapeCasts ⟨2, ![1, 32]⟩) :
    Cert.Gcn.biasRelu2 a (shapeCast ⟨2, ![1, 32]⟩ b h)
      = maximumf (addf a (val_main_v75 (F := Ideal) b)) (val_main_call2_v0 (F := Ideal)) := by
  funext i
  obtain ⟨p, v, d, rfl⟩ : ∃ (p : Fin 4) (v : Fin 50000) (d : Fin 32), i = ix3 p v d := ⟨i 0, i 1, i 2, eq_ix3 i⟩
  -- the bias broadcast over batches and nodes: the entry at (p, v, d) is the bias of channel d; the zero is the same
  -- constant at every entry
  rw [maximumf_apply, addf_apply, val_main_v75_apply, val_main_v74_apply, val_main_call2_v0_apply, val_main_call2_cst_apply]
  have ei : idx_main_v74 (idx_main_v75 (ix3 p v d)) = ix1 d :=
    funext fun a => Fin.ext (by match a with | ⟨0, _⟩ => rfl)
  rw [ei]
  -- the bias row at (0, d) is the same bias
  unfold Cert.Gcn.biasRelu2
  exact congrArg (fun t => max (a (ix3 p v d) + t) (Ideal.ofBits .f32 0x00000000#32)) (shapeCast_a_1a_apply b h 0 d)

end Cert.Gcn.Alg

end
-- ==== Proof.KL2.lean ====
/-
  Layer 2 of the kernel program: the same chain (launches 3, 4, 5) from the first hidden features to the second, 64 → 32
  channels; the array launch 5 leaves is the reference's second hidden layer.
  Stated over what each of its three launches leaves in its result array (the hypotheses, one per launch: the launch's
  function of its two operand arrays) and over the layer before, so that it rests on the host stretches and the algebra alone.
-/
import proofs.«164442_j455266533916_1_alg».proof.Proof.KCarry
import proofs.«164442_j455266533916_1_alg».proof.Proof.Alg2
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.Tactic Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-! ## What the three host stretches of the layer leave, over the contents they start from -/

/-- Before launch 3: the hidden features with (batch, node) flattened to one row axis. -/
theorem v54_at9 (c : Dev nD) :
    W9 m ρ c (Proc.devRef .tc main_v54)
      = shapeCast S200000x64 (W8 m ρ c (Proc.devRef .tc main_v53)) shapeCasts_S4x50000x64_S200000x64 := by
  show StableHlo.after hostOps3 (W8 m ρ c) (Proc.devRef .tc main_v54) = _
  after_results_simp
  rfl

/-- Before launch 4: the mixed features, back in [batch, node, channel] layout, gathered along the edge sources (a
    negative source wrapped around by the node count). -/
theorem v63_at11 (c : Dev nD) :
    W11 m ρ c (Proc.devRef .tc main_v63)
      = Host.gather gather_S4x50000x32_S850000x1_S4x850000x32_02_1_n_n_1_1_4132
          (shapeCast S4x50000x32 (W10 m ρ c (Proc.devRef .tc main_v55)) shapeCasts_S200000x32_S4x50000x32)
          (broadcastInDim S850000x1 ![0] bcast_S850000_S850000x1_0
            (select (cmpi .slt (W10 m ρ c (Proc.devRef .tc main_v3)) (broadcastInDim S850000 ![] bcast_S_S850000 (constantI S_ 32 0#32)))
              (addi (W10 m ρ c (Proc.devRef .tc main_v3)) (broadcastInDim S850000 ![] bcast_S_S850000 (constantI S_ 32 50000#32)))
              (W10 m ρ c (Proc.devRef .tc main_v3)))) := by
  show StableHlo.after hostOps4 (W10 m ρ c) (Proc.devRef .tc main_v63) = _
  after_results_simp
  rfl

/-- Before launch 5: the scaled messages added, from zero, into their target nodes (a negative target wrapped
    around by the node count). -/
theorem v72_at13 (c : Dev nD) :
    W13 m ρ c (Proc.devRef .tc main_v72)
      = Host.scatterAdd (F := Ideal) scatter_S4x50000x32_S850000x1_S4x850000x32_02_1_1_1
          (broadcastInDim S4x50000x32 ![] bcast_S_S4x50000x32 (constant S_ .f32 0x00000000#32))
          (broadcastInDim S850000x1 ![0] bcast_S850000_S850000x1_0
            (select (cmpi .slt (W12 m ρ c (Proc.devRef .tc main_v6)) (broadcastInDim S850000 ![] bcast_S_S850000 (constantI S_ 32 0#32)))
              (addi (W12 m ρ c (Proc.devRef .tc main_v6)) (broadcastInDim S850000 ![] bcast_S_S850000 (constantI S_ 32 50000#32)))
              (W12 m ρ c (Proc.devRef .tc main_v6))))
          (W12 m ρ c (Proc.devRef .tc main_v64)) := by
  show StableHlo.after hostOps5 (W12 m ρ c) (Proc.devRef .tc main_v72) = _
  after_results_simp

/-- Before launch 5: the bias as a row. -/
theorem v73_at13 (c : Dev nD) :
    W13 m ρ c (Proc.devRef .tc main_v73)
      = shapeCast S1x32 (W12 m ρ c (Proc.devRef .tc main_arg5)) shapeCasts_S32_S1x32 := by
  show StableHlo.after hostOps5 (W12 m ρ c) (Proc.devRef .tc main_v73) = _
  after_results_simp
  rfl

/-! ## The two programs wrap an edge list's indices by the same four operations -/

theorem wrap_src (x1 : (⟨S2x800000, .i32⟩ : BufTy).Contents (Elt Ideal)) :
    (broadcastInDim S850000x1 ![0] bcast_S850000_S850000x1_0
            (select (cmpi .slt (Cert.ReferenceIdeal.ReadP.val_main_v3 (F := Ideal) x1) (broadcastInDim S850000 ![] bcast_S_S850000 (constantI S_ 32 0#32)))
              (addi (Cert.ReferenceIdeal.ReadP.val_main_v3 (F := Ideal) x1) (broadcastInDim S850000 ![] bcast_S_S850000 (constantI S_ 32 50000#32)))
              (Cert.ReferenceIdeal.ReadP.val_main_v3 (F := Ideal) x1)))
      = Cert.ReferenceIdeal.ReadP.val_main_v61 (F := Ideal) x1 := rfl

theorem wrap_dst (x1 : (⟨S2x800000, .i32⟩ : BufTy).Contents (Elt Ideal)) :
    (broadcastInDim S850000x1 ![0] bcast_S850000_S850000x1_0
            (select (cmpi .slt (Cert.ReferenceIdeal.ReadP.val_main_v6 (F := Ideal) x1) (broadcastInDim S850000 ![] bcast_S_S850000 (constantI S_ 32 0#32)))
              (addi (Cert.ReferenceIdeal.ReadP.val_main_v6 (F := Ideal) x1) (broadcastInDim S850000 ![] bcast_S_S850000 (constantI S_ 32 50000#32)))
              (Cert.ReferenceIdeal.ReadP.val_main_v6 (F := Ideal) x1)))
      = Cert.ReferenceIdeal.ReadP.val_main_v72 (F := Ideal) x1 := rfl

/-! ## The chain of the layer, launch by launch -/

/-- After launch 3: the previous layer's features, rows flattened, mixed by the second weight matrix. -/
theorem v55_at10 (hprev : ∀ c : Dev nD, W8 m ρ c (Proc.devRef .tc main_v53) = Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3)))
    (hreg3 : ∀ (V : (c : Dev nD) → (b : Ref sig .tc) → Buf (Elt Ideal) ((c : Thread nD τ).loc b)) (c : Dev nD), (dat3 V c).arrAt 2 cfg3.N = Cert.Gcn.mix2 (V c main_v54) (V c main_arg4))
    (c : Dev nD) :
    W10 m ρ c (Proc.devRef .tc main_v55)
      = Cert.Gcn.mix2 (shapeCast S200000x64 (Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3))) shapeCasts_S4x50000x64_S200000x64) (m ((c.tc : Thread nD τ).loc main_arg4)) := by
  have h : W10 m ρ c (Proc.devRef .tc main_v55) = (dat3 (V9 m ρ) c).arrAt 2 cfg3.N := W10_arr m ρ c 2
  rw [h, hreg3 (V9 m ρ) c]
  show Cert.Gcn.mix2 (W9 m ρ c (Proc.devRef .tc main_v54)) (W9 m ρ c (Proc.devRef .tc main_arg4)) = _
  rw [v54_at9, hprev c, arg4_at9]

/-- Before launch 4: the reference's gathered messages. -/
theorem v63_val (hprev : ∀ c : Dev nD, W8 m ρ c (Proc.devRef .tc main_v53) = Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3)))
    (hreg3 : ∀ (V : (c : Dev nD) → (b : Ref sig .tc) → Buf (Elt Ideal) ((c : Thread nD τ).loc b)) (c : Dev nD), (dat3 V c).arrAt 2 cfg3.N = Cert.Gcn.mix2 (V c main_v54) (V c main_arg4))
    (c : Dev nD) :
    W11 m ρ c (Proc.devRef .tc main_v63) = Cert.ReferenceIdeal.ReadP.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [v63_at11, v55_at10 m ρ hprev hreg3 c, src_at10, src_at3, Cert.Gcn.Alg.mix2_eq, wrap_src]
  rfl

/-- After launch 4: the reference's scaled messages. -/
theorem v64_val (hprev : ∀ c : Dev nD, W8 m ρ c (Proc.devRef .tc main_v53) = Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3)))
    (hreg3 : ∀ (V : (c : Dev nD) → (b : Ref sig .tc) → Buf (Elt Ideal) ((c : Thread nD τ).loc b)) (c : Dev nD), (dat3 V c).arrAt 2 cfg3.N = Cert.Gcn.mix2 (V c main_v54) (V c main_arg4))
    (hreg4 : ∀ (V : (c : Dev nD) → (b : Ref sig .tc) → Buf (Elt Ideal) ((c : Thread nD τ).loc b)) (c : Dev nD), (dat4 V c).arrAt 2 cfg4.N = Cert.Gcn.scale2 (V c main_v63) (V c main_v32))
    (c : Dev nD) :
    W12 m ρ c (Proc.devRef .tc main_v64) = Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h : W12 m ρ c (Proc.devRef .tc main_v64) = (dat4 (V11 m ρ) c).arrAt 2 cfg4.N := W12_arr m ρ c 2
  rw [h, hreg4 (V11 m ρ) c]
  show Cert.Gcn.scale2 (W11 m ρ c (Proc.devRef .tc main_v63)) (W11 m ρ c (Proc.devRef .tc main_v32)) = _
  rw [v63_val m ρ hprev hreg3 c, wts_at11, wts_at3, Cert.Gcn.Alg.scale2_eq]
  rfl

/-- Before launch 5: the reference's aggregated features. -/
theorem v72_val (hprev : ∀ c : Dev nD, W8 m ρ c (Proc.devRef .tc main_v53) = Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3)))
    (hreg3 : ∀ (V : (c : Dev nD) → (b : Ref sig .tc) → Buf (Elt Ideal) ((c : Thread nD τ).loc b)) (c : Dev nD), (dat3 V c).arrAt 2 cfg3.N = Cert.Gcn.mix2 (V c main_v54) (V c main_arg4))
    (hreg4 : ∀ (V : (c : Dev nD) → (b : Ref sig .tc) → Buf (Elt Ideal) ((c : Thread nD τ).loc b)) (c : Dev nD), (dat4 V c).arrAt 2 cfg4.N = Cert.Gcn.scale2 (V c main_v63) (V c main_v32))
    (c : Dev nD) :
    W13 m ρ c (Proc.devRef .tc main_v72) = Cert.ReferenceIdeal.ReadP.val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [v72_at13, v64_val m ρ hprev hreg3 hreg4 c, dst_at12, dst_at3, wrap_dst]
  rfl

/-! ## The layer -/

theorem layer2 (hprev : ∀ c : Dev nD, W8 m ρ c (Proc.devRef .tc main_v53) = Cert.ReferenceIdeal.ReadP.val_main_v54 (F := Ideal) (m ((c.tc : Thread nD τ).loc main_arg0)) (m ((c.tc : Thread nD τ).loc main_arg1)) (m ((c.tc : Thread nD τ).loc main_arg2)) (m ((c.tc : Thread nD τ).loc main_arg3)))
    (hreg3 : ∀ (V : (c : Dev nD) → (b : Ref sig .tc) → Buf (Elt Ideal) ((c : Thread nD τ).loc b)) (c : Dev nD), (dat3 V c).arrAt 2 cfg3.N = Cert.Gcn.mix2 (V c main_v54) (V c main_arg4))
    (hreg4 : ∀ (V : (c : Dev nD) → (b : Ref sig .tc) → Buf (Elt Ideal) ((c : Thread nD τ).loc b)) (c : Dev nD), (dat4 V c).arrAt 2 cfg4.N = Cert.Gcn.scale2 (V c main_v63) (V c main_v32))
    (hreg5 : ∀ (V : (c : Dev nD) → (b : Ref sig .tc) → Buf (Elt Ideal) ((c : Thread nD τ).loc b)) (c : Dev nD), (dat5 V c).arrAt 2 cfg5.N = Cert.Gcn.biasRelu2 (V c main_v72) (V c main_v73))
    (c : Dev nD) :
    W14 m ρ c (Proc.devRef .tc main_v74) = Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h : W14 m ρ c (Proc.devRef .tc main_v74) = (dat5 (V13 m ρ) c).arrAt 2 cfg5.N := W14_arr m ρ c 2
  rw [h, hreg5 (V13 m ρ) c]
  show Cert.Gcn.biasRelu2 (W13 m ρ c (Proc.devRef .tc main_v72)) (W13 m ρ c (Proc.devRef .tc main_v73)) = _
  rw [v72_val m ρ hprev hreg3 hreg4 c, v73_at13, arg5_at12, Cert.Gcn.Alg.biasRelu2_eq]
  rfl

end Cert.KernelIdeal.Hand

end
-- ==== Proof.Alg3.lean ====
/-
  Layer 3 (32 → 1 channels): each launch's function is the reference's operation on the same data.

  * the channel mixing of the flattened features, put back into its [batch, node, channel] layout, is the reference's
    contraction of the feature axis with the weight matrix: both are the sum over the input channels of feature times weight,
    and flattening (batch, node) to one row index and back changes no entry;
  * scaling by the column of edge weights is the product with the weights broadcast over batches and channels;
  * adding the bias row and applying the activation is the reference's broadcast add followed by 1 / (1 + e^(-·)), which is the logistic function on the extended reals.
-/
import proofs.«164442_j455266533916_1_alg».proof.Proof.RefRead
import proofs.«164442_j455266533916_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators
open Idealize.ShloMosaic Idealize.ShloMosaic.ValueIdx

namespace Cert.Gcn.Alg

open Cert.ReferenceIdeal Cert.ReferenceIdeal.ReadP

/-! ## Channel mixing -/

/-- The [4, 50000, 32] features flattened to [200000, 32]: row b·50000 + v, column k holds entry (b, v, k). -/
theorem flatFeat_apply (V : FVec Ideal S4x50000x32 .f32) (h1 : S4x50000x32.ShapeCasts ⟨2, ![200000, 32]⟩)
    (b : Fin 4) (v : Fin 50000) (k : Fin 32) (hr : b.val * 50000 + v.val < 200000) :
    shapeCast ⟨2, ![200000, 32]⟩ V h1 (ix2 (⟨b.val * 50000 + v.val, hr⟩ : Fin 200000) k) = V (ix3 b v k) :=
  shapeCast_apply V h1 _ _ (by
    rw [Shape.rowMajor_val_three, Shape.rowMajor_val_two]
    rfl)

/-- A [200000, 1] array put back into [4, 50000, 1]: entry (b, v, d) is row b·50000 + v, column d. -/
theorem unflat_apply (Y : FVec Ideal ⟨2, ![200000, 1]⟩ .f32) (h2 : (⟨2, ![200000, 1]⟩ : Shape).ShapeCasts S4x50000x1)
    (b : Fin 4) (v : Fin 50000) (d : Fin 1) (hr : b.val * 50000 + v.val < 200000) :
    shapeCast S4x50000x1 Y h2 (ix3 b v d) = Y (ix2 (⟨b.val * 50000 + v.val, hr⟩ : Fin 200000) d) :=
  shapeCast_apply Y h2 _ _ (by
    rw [Shape.rowMajor_val_three, Shape.rowMajor_val_two]
    rfl)

/-- The contraction's left index at output (b, v, d) and channel k is (b, v, k). -/
theorem lidx78_ix (b : Fin 4) (v : Fin 50000) (d : Fin 1) (k : Fin 32) :
    lidx_main_v78 (ix3 b v d) k = ix3 b v k :=
  funext fun a => Fin.ext (by match a with | ⟨0, _⟩ => rfl | ⟨1, _⟩ => rfl | ⟨2, _⟩ => rfl)

/-- The contraction's right index at output (b, v, d) and channel k is (k, d). -/
theorem ridx78_ix (b : Fin 4) (v : Fin 50000) (d : Fin 1) (k : Fin 32) :
    ridx_main_v78 (ix3 b v d) k = ix2 k d :=
  funext fun a => Fin.ext (by match a with | ⟨0, _⟩ => rfl | ⟨1, _⟩ => rfl)

/-- The mixing of the flattened rows, read at (b, v, d): the sum over the input channels of feature (b, v, k) times weight (k, d). -/
theorem mix3_flat_apply (V : FVec Ideal S4x50000x32 .f32) (w : FVec Ideal S32x1 .f32)
    (h1 : S4x50000x32.ShapeCasts ⟨2, ![200000, 32]⟩) (h2 : (⟨2, ![200000, 1]⟩ : Shape).ShapeCasts S4x50000x1)
    (b : Fin 4) (v : Fin 50000) (d : Fin 1) :
    shapeCast S4x50000x1 (Cert.Gcn.mix3 (shapeCast ⟨2, ![200000, 32]⟩ V h1) w) h2 (ix3 b v d)
      = ∑ k : Fin 32, V (ix3 b v k) * w (ix2 k d) := by
  have hr : b.val * 50000 + v.val < 200000 := by omega
  rw [unflat_apply _ h2 b v d hr]
  show ∑ k : Fin 32, shapeCast ⟨2, ![200000, 32]⟩ V h1 (ix2 (⟨b.val * 50000 + v.val, hr⟩ : Fin 200000) k) * w (ix2 k d) = _
  refine Finset.sum_congr rfl fun k _ => ?_
  rw [flatFeat_apply V h1 b v k hr]

theorem mix3_eq (x0 : (⟨S4x50000x1, .f32⟩ : BufTy).Contents (Elt Ideal)) (x1 : (⟨S2x800000, .i32⟩ : BufTy).Contents (Elt Ideal)) (x2 : (⟨S1x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (w : FVec Ideal S32x1 .f32)
    (h1 : S4x50000x32.ShapeCasts ⟨2, ![200000, 32]⟩) (h2 : (⟨2, ![200000, 1]⟩ : Shape).ShapeCasts S4x50000x1) :
    shapeCast S4x50000x1 (Cert.Gcn.mix3 (shapeCast ⟨2, ![200000, 32]⟩ (val_main_v77 (F := Ideal) x0 x1 x2 x3 x4 x5) h1) w) h2
      = val_main_v78 (F := Ideal) x0 x1 x2 x3 x4 x5 w := by
  funext i
  obtain ⟨b, v, d, rfl⟩ : ∃ (b : Fin 4) (v : Fin 50000) (d : Fin 1), i = ix3 b v d := ⟨i 0, i 1, i 2, eq_ix3 i⟩
  rw [val_main_v78_apply]
  generalize val_main_v77 (F := Ideal) x0 x1 x2 x3 x4 x5 = V
  rw [mix3_flat_apply V w h1 h2 b v d]
  refine Finset.sum_congr rfl fun k _ => ?_
  rw [lidx78_ix, ridx78_ix]

/-! ## Message scaling -/

/-- The vector of edge weights as a one-column matrix: entry (e, 0) is the e-th weight. -/
theorem colWeights_apply (n : FVec Ideal S850000 .f32) (h : S850000.ShapeCasts ⟨2, ![850000, 1]⟩) (e : Fin 850000) (z : Fin 1) :
    shapeCast ⟨2, ![850000, 1]⟩ n h (ix2 e z) = n (ix1 e) :=
  shapeCast_apply n h _ _ (by
    have hz : z.val = 0 := by omega
    rw [Shape.rowMajor_val_two, Shape.rowMajor_val_one]
    show e.val = e.val * 1 + z.val
    rw [hz, Nat.mul_one, Nat.add_zero])

/-- The weights broadcast over batches and channels read, at (b, e, d), the e-th weight. -/
theorem bcastWeights_ix (b : Fin 4) (e : Fin 850000) (d : Fin 1) :
    idx_main_v86 (idx_main_v87 (ix3 b e d)) = ix1 e :=
  funext fun a => Fin.ext (by match a with | ⟨0, _⟩ => rfl)

theorem scale3_eq (g : FVec Ideal S4x850000x1 .f32) (x1 : (⟨S2x800000, .i32⟩ : BufTy).Contents (Elt Ideal)) (h : S850000.ShapeCasts ⟨2, ![850000, 1]⟩) :
    Cert.Gcn.scale3 g (shapeCast ⟨2, ![850000, 1]⟩ (val_main_v31 (F := Ideal) x1) h)
      = mulf g (val_main_v87 (F := Ideal) x1) := by
  funext i
  obtain ⟨b, e, d, rfl⟩ : ∃ (b : Fin 4) (e : Fin 850000) (d : Fin 1), i = ix3 b e d := ⟨i 0, i 1, i 2, eq_ix3 i⟩
  rw [mulf_apply, val_main_v87_apply, val_main_v86_apply, bcastWeights_ix]
  generalize val_main_v31 (F := Ideal) x1 = n
  show g (ix3 b e d) * shapeCast ⟨2, ![850000, 1]⟩ n h (ix2 e (0 : Fin 1)) = _
  rw [colWeights_apply n h e 0]

/-! ## Bias and activation -/

/-- The one bias, broadcast to every (batch, node, channel), is the one entry of the bias vector. -/
theorem bcastBias_ix (b : Fin 4) (v : Fin 50000) (d : Fin 1) :
    idx_main_v97 (idx_main_v98 (ix3 b v d)) = ix1 d :=
  funext fun a => Fin.ext (by match a with | ⟨0, _⟩ => exact (show (0 : Nat) = d.val by omega))

theorem biasSigmoid_eq (a : FVec Ideal S4x50000x1 .f32) (b : (⟨S1, .f32⟩ : BufTy).Contents (Elt Ideal)) (h : S1.ShapeCasts ⟨2, ![1, 1]⟩) :
    Cert.Gcn.biasSigmoid a (shapeCast ⟨2, ![1, 1]⟩ b h)
      = Host.divf (val_main_v104 (F := Ideal)) (addf (val_main_v102 (F := Ideal)) (Host.exp (Host.negf (addf a (val_main_v98 (F := Ideal) b))))) := by
  funext i
  obtain ⟨bb, v, d, rfl⟩ : ∃ (bb : Fin 4) (v : Fin 50000) (d : Fin 1), i = ix3 bb v d := ⟨i 0, i 1, i 2, eq_ix3 i⟩
  have one : (FloatOps.ofBits .f32 0x3F800000#32 : Ideal .f32) = 1 := Ideal.ofBits_one_f32
  show Ideal.logistic (a (ix3 bb v d) + shapeCast ⟨2, ![1, 1]⟩ b h (ix2 (0 : Fin 1) d))
    = Ideal.div (val_main_v104 (F := Ideal) (ix3 bb v d))
        (val_main_v102 (F := Ideal) (ix3 bb v d) + Ideal.exp (-(a (ix3 bb v d) + val_main_v98 (F := Ideal) b (ix3 bb v d))))
  rw [val_main_v104_apply, val_main_cst_23_apply, val_main_v102_apply, val_main_cst_22_apply, val_main_v98_apply,
    val_main_v97_apply, bcastBias_ix, one, shapeCast_a_1a_apply b h 0 d]
  rfl

end Cert.Gcn.Alg

end
-- ==== Proof.KL3.lean ====
/-
  Layer 3 of the kernel program: the same chain (launches 6, 7, 8) from the second hidden features to the output, 32 → 1
  channels, with the logistic function in place of the positive part; the array launch 8 leaves is the reference's result.
  Stated over what each of its three launches leaves in its result array (the hypotheses, one per launch: the launch's
  function of its two operand arrays) and over the layer before, so that it rests on the host stretches and the algebra alone.
-/
import proofs.«164442_j455266533916_1_alg».proof.Proof.KCarry
import proofs.«164442_j455266533916_1_alg».proof.Proof.Alg3

set_option maxRecDepth 16384

noncomputable section

open Idealize.ShloMosaic Idealize.ShloMosaic.TcCoe Idealize.SL.Sem Idealize.ShloMosaic.Tactic Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-! ## The index arrays and the zero array the host stretches of this layer build -/

/-- An edge-endpoint list made safe for indexing the 50000 nodes: a negative entry has 50000 added; then the
    list is turned into a column. -/
def wrapCol (s : (⟨S850000, .i32⟩ : BufTy).Contents (Elt Ideal)) : (⟨S850000x1, .i32⟩ : BufTy).Contents (Elt Ideal) :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The all-zero [batch, node, 1] array the aggregation starts from. -/
def zeroOut : (⟨S4x50000x1, .f32⟩ : BufTy).Contents (Elt Ideal) :=
  broadcastInDim S4x50000x1 ![] bcast_S_S4x50000x1 (constant S_ .f32 0x00000000#32 : FVec Ideal S_ .f32)

/-! ## What the three host stretches of the layer write, over what they read -/

/-- Before launch 6: the second hidden features with (batch, node) flattened to one row axis. -/
theorem flat_at15 (c : Dev nD) :
    W15 m ρ c (Proc.devRef .tc main_v75)
      = shapeCast S200000x32 (W14 m ρ c (Proc.devRef .tc main_v74)) shapeCasts_S4x50000x32_S200000x32 := by
  show StableHlo.after hostOps6 (W14 m ρ c) (Proc.devRef .tc main_v75) = _
  after_results
  all_goals rfl

/-- Before launch 7: the mixed features put back in [batch, node, 1] layout, gathered along the edge sources. -/
theorem gath_at17 (c : Dev nD) :
    W17 m ρ c (Proc.devRef .tc main_v84)
      = Host.gather gather_S4x50000x1_S850000x1_S4x850000x1_02_1_n_n_1_1_411
          (shapeCast S4x50000x1 (W16 m ρ c (Proc.devRef .tc main_v76)) shapeCasts_S200000x1_S4x50000x1)
          (wrapCol (W16 m ρ c (Proc.devRef .tc main_v3))) := by
  show StableHlo.after hostOps7 (W16 m ρ c) (Proc.devRef .tc main_v84) = _
  after_results
  all_goals rfl

/-- Before launch 8: the scaled messages summed into their target nodes, from zero. -/
theorem scat_at19 (c : Dev nD) :
    W19 m ρ c (Proc.devRef .tc main_v93)
      = Host.scatterAdd (F := Ideal) (φ := .f32) scatter_S4x50000x1_S850000x1_S4x850000x1_02_1_1_1 zeroOut
          (wrapCol (W18 m ρ c (Proc.devRef .tc main_v6))) (W18 m ρ c (Proc.devRef .tc main_v85)) := by
  show StableHlo.after hostOps8 (W18 m ρ c) (Proc.devRef .tc main_v93) = _
  after_results_simp
  all_goals rfl

/-- Before launch 8: the bias as a 1 × 1 array. -/
theorem bias_at19 (c : Dev nD) :
    W19 m ρ c (Proc.devRef .tc main_v94)
      = shapeCast S1x1 (W18 m ρ c (Proc.devRef .tc main_arg7)) shapeCasts_S1_S1x1 := by
  show StableHlo.after hostOps8 (W18 m ρ c) (Proc.devRef .tc main_v94) = _
  after_results
  all_goals rfl

/-! ## The same index arrays, zero array and index conventions in the reference program -/

theorem wrapCol_src (x1 : (⟨S2x800000, .i32⟩ : BufTy).Contents (Elt Ideal)) :
    wrapCol (Cert.ReferenceIdeal.ReadP.val_main_v3 (F := Ideal) x1) = Cert.ReferenceIdeal.ReadP.val_main_v84 (F := Ideal) x1 := rfl

theorem wrapCol_dst (x1 : (⟨S2x800000, .i32⟩ : BufTy).Contents (Elt Ideal)) :
    wrapCol (Cert.ReferenceIdeal.ReadP.val_main_v6 (F := Ideal) x1) = Cert.ReferenceIdeal.ReadP.val_main_v95 (F := Ideal) x1 := rfl

theorem zeroOut_eq : zeroOut = Cert.ReferenceIdeal.ReadP.val_main_v89 (F := Ideal) := rfl

theorem gather_eq :
    gather_S4x50000x1_S850000x1_S4x850000x1_02_1_n_n_1_1_411
      = Cert.ReferenceIdeal.gather_S4x50000x1_S850000x1_S4x850000x1_02_1_n_n_1_1_411 := rfl

theorem scatter_eq :
    scatter_S4x50000x1_S850000x1_S4x850000x1_02_1_1_1
      = Cert.ReferenceIdeal.scatter_S4x50000x1_S850000x1_S4x850000x1_02_1_1_1 := rfl

/-- The reference's result, its last five operations written out: the logistic function of (the aggregation plus the
    bias), the aggregation the scatter-add over the edge targets of (the gathered mixed features times the edge weights). -/
theorem ref_out (x0 : (⟨S4x50000x1, .f32⟩ : BufTy).Contents (Elt Ideal)) (x1 : (⟨S2x800000, .i32⟩ : BufTy).Contents (Elt Ideal)) (x2 : (⟨S1x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x1, .f32⟩ : BufTy).Contents (Elt Ideal)) (x7 : (⟨S1, .f32⟩ : BufTy).Contents (Elt Ideal)) :
    Cert.ReferenceIdeal.ReadP.val_main_v105 (F := Ideal) x0 x1 x2 x3 x4 x5 x6 x7
      = Host.divf (F := Ideal) (φ := .f32) (Cert.ReferenceIdeal.ReadP.val_main_v104 (F := Ideal))
          (addf (Cert.ReferenceIdeal.ReadP.val_main_v102 (F := Ideal))
            (Host.exp (Host.negf (addf
              (Host.scatterAdd Cert.ReferenceIdeal.scatter_S4x50000x1_S850000x1_S4x850000x1_02_1_1_1
                (Cert.ReferenceIdeal.ReadP.val_main_v89 (F := Ideal)) (Cert.ReferenceIdeal.ReadP.val_main_v95 (F := Ideal) x1)
                (mulf
                  (Host.gather Cert.ReferenceIdeal.gather_S4x50000x1_S850000x1_S4x850000x1_02_1_n_n_1_1_411
                    (Cert.ReferenceIdeal.ReadP.val_main_v78 (F := Ideal) x0 x1 x2 x3 x4 x5 x6)
                    (Cert.ReferenceIdeal.ReadP.val_main_v84 (F := Ideal) x1))
                  (Cert.ReferenceIdeal.ReadP.val_main_v87 (F := Ideal) x1)))
              (Cert.ReferenceIdeal.ReadP.val_main_v98 (F := Ideal) x7))))) := rfl

theorem layer3 (hprev : ∀ c : Dev nD, W14 m ρ c (Proc.devRef .tc main_v74) = Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    (hreg6 : ∀ (V : (c : Dev nD) → (b : Ref sig .tc) → Buf (Elt Ideal) ((c : Thread nD τ).loc b)) (c : Dev nD), (dat6 V c).arrAt 2 cfg6.N = Cert.Gcn.mix3 (V c main_v75) (V c main_arg6))
    (hreg7 : ∀ (V : (c : Dev nD) → (b : Ref sig .tc) → Buf (Elt Ideal) ((c : Thread nD τ).loc b)) (c : Dev nD), (dat7 V c).arrAt 2 cfg7.N = Cert.Gcn.scale3 (V c main_v84) (V c main_v32))
    (hreg8 : ∀ (V : (c : Dev nD) → (b : Ref sig .tc) → Buf (Elt Ideal) ((c : Thread nD τ).loc b)) (c : Dev nD), (dat8 V c).arrAt 2 cfg8.N = Cert.Gcn.biasSigmoid (V c main_v93) (V c main_v94))
    (c : Dev nD) :
    W20 m ρ c (Proc.devRef .tc main_v95) = Cert.ReferenceIdeal.ReadP.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  -- launch 6 leaves the channel mixing of the flattened second hidden features
  have h76 : W16 m ρ c (Proc.devRef .tc main_v76)
      = Cert.Gcn.mix3 (shapeCast S200000x32 (Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) shapeCasts_S4x50000x32_S200000x32) (m ((c.tc : Thread nD τ).loc main_arg6)) := by
    have e : W16 m ρ c (Proc.devRef .tc main_v76) = (dat6 (V15 m ρ) c).arrAt 2 cfg6.N := W16_arr m ρ c 2
    rw [e, hreg6 (V15 m ρ) c]
    show Cert.Gcn.mix3 (W15 m ρ c (Proc.devRef .tc main_v75)) (W15 m ρ c (Proc.devRef .tc main_arg6)) = _
    rw [flat_at15, arg6_at15, hprev c]
  -- back in [batch, node, 1] layout it is the reference's contraction
  have h78 : shapeCast S4x50000x1 (W16 m ρ c (Proc.devRef .tc main_v76)) shapeCasts_S200000x1_S4x50000x1
      = (Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
    rw [h76]
    exact Cert.Gcn.Alg.mix3_eq _ _ _ _ _ _ _ _ _
  -- gathered along the edge sources
  have h84 : W17 m ρ c (Proc.devRef .tc main_v84) = (Host.gather Cert.ReferenceIdeal.gather_S4x50000x1_S850000x1_S4x850000x1_02_1_n_n_1_1_411 (Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (Cert.ReferenceIdeal.ReadP.val_main_v84 (F := Ideal) (m ((c.tc : Thread nD τ).loc main_arg1)))) := by
    rw [gath_at17, h78, src_at16, src_at3, wrapCol_src, gather_eq]
  -- launch 7 scales each message by its edge's weight
  have h85 : W18 m ρ c (Proc.devRef .tc main_v85) = (mulf (F := Ideal) (φ := .f32) (Host.gather Cert.ReferenceIdeal.gather_S4x50000x1_S850000x1_S4x850000x1_02_1_n_n_1_1_411 (Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (Cert.ReferenceIdeal.ReadP.val_main_v84 (F := Ideal) (m ((c.tc : Thread nD τ).loc main_arg1)))) (Cert.ReferenceIdeal.ReadP.val_main_v87 (F := Ideal) (m ((c.tc : Thread nD τ).loc main_arg1)))) := by
    have e : W18 m ρ c (Proc.devRef .tc main_v85) = (dat7 (V17 m ρ) c).arrAt 2 cfg7.N := W18_arr m ρ c 2
    rw [e, hreg7 (V17 m ρ) c]
    show Cert.Gcn.scale3 (W17 m ρ c (Proc.devRef .tc main_v84)) (W17 m ρ c (Proc.devRef .tc main_v32)) = _
    rw [h84, wts_at17, wts_at3]
    exact Cert.Gcn.Alg.scale3_eq _ _ _
  -- summed into the edge targets
  have h93 : W19 m ρ c (Proc.devRef .tc main_v93)
      = Host.scatterAdd (F := Ideal) (φ := .f32) Cert.ReferenceIdeal.scatter_S4x50000x1_S850000x1_S4x850000x1_02_1_1_1
          (Cert.ReferenceIdeal.ReadP.val_main_v89 (F := Ideal)) (Cert.ReferenceIdeal.ReadP.val_main_v95 (F := Ideal) (m ((c.tc : Thread nD τ).loc main_arg1))) (mulf (F := Ideal) (φ := .f32) (Host.gather Cert.ReferenceIdeal.gather_S4x50000x1_S850000x1_S4x850000x1_02_1_n_n_1_1_411 (Cert.ReferenceIdeal.ReadP.val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (Cert.ReferenceIdeal.ReadP.val_main_v84 (F := Ideal) (m ((c.tc : Thread nD τ).loc main_arg1)))) (Cert.ReferenceIdeal.ReadP.val_main_v87 (F := Ideal) (m ((c.tc : Thread nD τ).loc main_arg1)))) := by
    rw [scat_at19, h85, dst_at18, dst_at3, wrapCol_dst, zeroOut_eq, scatter_eq]
  -- launch 8 adds the bias and applies the logistic function
  have e : W20 m ρ c (Proc.devRef .tc main_v95) = (dat8 (V19 m ρ) c).arrAt 2 cfg8.N := W20_arr m ρ c 2
  rw [e, hreg8 (V19 m ρ) c, ref_out]
  show Cert.Gcn.biasSigmoid (W19 m ρ c (Proc.devRef .tc main_v93)) (W19 m ρ c (Proc.devRef .tc main_v94)) = _
  rw [h93, bias_at19, arg7_at18]
  exact Cert.Gcn.Alg.biasSigmoid_eq _ _ _

end Cert.KernelIdeal.Hand

end
-- ==== Proof.Reg0.lean ====
/-
  Launch 0 (channel mixing: the grid walks the 200000 flattened (batch, node) rows in 20 blocks of 10000; at block t the body multiplies rows 10000·t … of the features by the whole weight matrix (one matrix product into a zero accumulator; the operands' rounding to bf16 is the identity on the extended reals) and writes the block back to the same rows of the result). The blocks tile the result array, so when the launch ends it holds `Gcn.mix1` of the
  two operand arrays as the launch found them.
-/
import proofs.«164442_j455266533916_1_alg».proof.Proof.Gen.KernelIdeal.Frame
import proofs.«164442_j455266533916_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The features and the weight matrix as launch 0 finds them, at their literal types. -/
abbrev feats0 (c : Dev nD) : FVec Ideal S200000x1 .f32 := V c main_v33
abbrev wmat0 (c : Dev nD) : FVec Ideal S1x64 .f32 := V c main_arg2

theorem zeros2_0 : (![0, 0] : Fin 2 → Nat) = fun _ => 0 := funext fun a => by fin_cases a <;> rfl

/-- The operands' coordinates in the product at result entry i and contraction position q: the left operand is read at
    row i 0 and column q, the right one at row q and column i 1. -/
theorem lhs0_0 (i : S10000x64.Idx) (q : dot_S10000x1_S1x64_S10000x64_1_0_0_1_n_n.contr.Idx) :
    (dot_S10000x1_S1x64_S10000x64_1_0_0_1_n_n.lhsIdx i q 0).val = (i 0).val := by
  unfold DotDims.lhsIdx
  rw [dif_neg (show ¬(0 : Fin S10000x1.rank) ∈ dot_S10000x1_S1x64_S10000x64_1_0_0_1_n_n.lhsBatch by decide), dif_pos (show (0 : Fin S10000x1.rank) ∈ dot_S10000x1_S1x64_S10000x64_1_0_0_1_n_n.lhsNonContracting by decide)]
  rfl
theorem lhs0_1 (i : S10000x64.Idx) (q : dot_S10000x1_S1x64_S10000x64_1_0_0_1_n_n.contr.Idx) :
    (dot_S10000x1_S1x64_S10000x64_1_0_0_1_n_n.lhsIdx i q 1).val = (q ⟨0, by decide⟩).val :=
  dot_S10000x1_S1x64_S10000x64_1_0_0_1_n_n.lhsIdx_val_of_single rfl i q
theorem rhs0_0 (i : S10000x64.Idx) (q : dot_S10000x1_S1x64_S10000x64_1_0_0_1_n_n.contr.Idx) :
    (dot_S10000x1_S1x64_S10000x64_1_0_0_1_n_n.rhsIdx i q 0).val = (q ⟨0, by decide⟩).val :=
  dot_S10000x1_S1x64_S10000x64_1_0_0_1_n_n.rhsIdx_val_of_single rfl i q
theorem rhs0_1 (i : S10000x64.Idx) (q : dot_S10000x1_S1x64_S10000x64_1_0_0_1_n_n.contr.Idx) :
    (dot_S10000x1_S1x64_S10000x64_1_0_0_1_n_n.rhsIdx i q 1).val = (i 1).val := by
  unfold DotDims.rhsIdx
  rw [dif_neg (show ¬(1 : Fin S1x64.rank) ∈ dot_S10000x1_S1x64_S10000x64_1_0_0_1_n_n.rhsBatch by decide), dif_pos (show (1 : Fin S1x64.rank) ∈ dot_S10000x1_S1x64_S10000x64_1_0_0_1_n_n.rhsNonContracting by decide)]
  rfl

/-- The body's arithmetic at one entry of the block: the row of the features' block times the column of the weight matrix,
    summed over the one input channel (the accumulator starts at zero; rounding the operands is the identity here). -/
theorem pay0_apply (x0 : Vec Ideal S10000x1 .f32) (x1 : Vec Ideal S1x64 .f32) (r : Fin 10000) (d : Fin 64) :
    k0_pay1 x0 x1 (ix2 r d) = ∑ k : Fin 1, x0 (ix2 r k) * x1 (ix2 k d) := by
  unfold k0_pay1
  simp only [shapeCast_self, matmul]
  rw [Ideal.matmul_constant_zero_apply, ← Equiv.sum_comp (ValueIdx.contrEquiv1 dot_S10000x1_S1x64_S10000x64_1_0_0_1_n_n 1 rfl rfl).symm]
  refine Finset.sum_congr rfl fun k _ => ?_
  have hk := ValueIdx.contrEquiv1_symm_val dot_S10000x1_S1x64_S10000x64_1_0_0_1_n_n 1 rfl rfl k
  have el : dot_S10000x1_S1x64_S10000x64_1_0_0_1_n_n.lhsIdx (ix2 r d) ((ValueIdx.contrEquiv1 dot_S10000x1_S1x64_S10000x64_1_0_0_1_n_n 1 rfl rfl).symm k) = ix2 r k := funext fun a => Fin.ext (by
    match a with
    | ⟨0, _⟩ => exact lhs0_0 _ _
    | ⟨1, _⟩ => exact (lhs0_1 _ _).trans hk)
  have er : dot_S10000x1_S1x64_S10000x64_1_0_0_1_n_n.rhsIdx (ix2 r d) ((ValueIdx.contrEquiv1 dot_S10000x1_S1x64_S10000x64_1_0_0_1_n_n 1 rfl rfl).symm k) = ix2 k d := funext fun a => Fin.ext (by
    match a with
    | ⟨0, _⟩ => exact (rhs0_0 _ _).trans hk
    | ⟨1, _⟩ => exact rhs0_1 _ _)
  rw [truncf_apply, truncf_apply, el, er]

/-- Where each window's block sits at point t, decided over the grid: the features' and the result's block is rows
    10000·t … of the row axis, whole in the channel axis; the weight matrix is one block, the same at every point. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `Gcn.mix1` of the operand arrays. -/
theorem flushed0 (c : Dev nD) (t : Fin cfg0.N) :
    (dat0 V c).flushed 2 t = ((cfg0.win 2).blk t).view.read (Elt Ideal)
      (Cert.Gcn.mix1 (feats0 V c) (wmat0 V c)) := by
  show (cfg0.win 2).cut (grid0.coords t) ((dat0 V c).after 2 t) = _
  rw [after0_2]
  unfold out0_2
  rw [View.canon_unit_zero zeros2_0]
  simp only [View.ld_unit_zero (S := S10000x1) zeros2_0, View.ld_unit_zero (S := S1x64) zeros2_0]
  obtain ⟨e00, e01, e10, e11, e20, e21⟩ := idx0 t
  funext j
  obtain ⟨r, d, rfl⟩ : ∃ (r : Fin 10000) (d : Fin 64), j = ix2 r d := ⟨j 0, j 1, eq_ix2 j⟩
  show k0_pay1 (iblk0 V c 0 t) (iblk0 V c 1 t) (ix2 r d)
    = Cert.Gcn.mix1 (feats0 V c) (wmat0 V c) (((cfg0.win 2).blk t).view.emb (ix2 r d))
  rw [pay0_apply]
  unfold Cert.Gcn.mix1
  show ∑ k : Fin 1, feats0 V c (((cfg0.win 0).blk t).view.emb (ix2 r k)) * wmat0 V c (((cfg0.win 1).blk t).view.emb (ix2 k d))
    = ∑ k : Fin 1, feats0 V c (ix2 ((((cfg0.win 2).blk t).view.emb (ix2 r d)) 0) k) * wmat0 V c (ix2 k ((((cfg0.win 2).blk t).view.emb (ix2 r d)) 1))
  refine Finset.sum_congr rfl fun k _ => ?_
  have h0 : ((cfg0.win 0).blk t).view.emb (ix2 r k) = ix2 ((((cfg0.win 2).blk t).view.emb (ix2 r d)) 0) k := by
    funext a; apply Fin.ext
    match a with
    | ⟨0, _⟩ => show win0_0.index t (0 : Fin 2) * 10000 + 1 * r.val = win0_2.index t (0 : Fin 2) * 10000 + 1 * r.val; omega
    | ⟨1, _⟩ => show win0_0.index t (1 : Fin 2) * 1 + 1 * k.val = k.val; omega
  have h1 : ((cfg0.win 1).blk t).view.emb (ix2 k d) = ix2 k ((((cfg0.win 2).blk t).view.emb (ix2 r d)) 1) := by
    funext a; apply Fin.ext
    match a with
    | ⟨0, _⟩ => show win0_1.index t (0 : Fin 2) * 1 + 1 * k.val = k.val; omega
    | ⟨1, _⟩ => show win0_1.index t (1 : Fin 2) * 64 + 1 * d.val = win0_2.index t (1 : Fin 2) * 64 + 1 * d.val; omega
  rw [h0, h1]
  rfl

/-- A result index lies in point t's block exactly when its coordinates are in the block's ranges. -/
theorem mem_blk0 (t : Fin cfg0.N) (i : S200000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- The 20 blocks tile the result: row r is in block r / 10000. -/
theorem cover0 (i : S200000x64.Idx) : ∃ t : Fin cfg0.N, (cfg0.win 2).flush t = true ∧ i ∈ ((cfg0.win 2).blk t).view.set := by
  have hi0 : (i 0).val < 200000 := (i 0).isLt
  have hi1 : (i 1).val < 64 := (i 1).isLt
  have hN : cfg0.N = 20 := N_0
  refine ⟨⟨(i 0).val / 10000, by rw [hN]; omega⟩, flush0_2 _, ?_⟩
  rw [mem_blk0]
  obtain ⟨e00, e01, e10, e11, e20, e21⟩ := idx0 ⟨(i 0).val / 10000, by rw [hN]; omega⟩
  intro a
  match a with
  | ⟨0, _⟩ => show win0_2.index _ (0 : Fin 2) * 10000 ≤ (i 0).val ∧ (i 0).val < win0_2.index _ (0 : Fin 2) * 10000 + 10000; rw [e20]; show (i 0).val / 10000 * 10000 ≤ (i 0).val ∧ (i 0).val < (i 0).val / 10000 * 10000 + 10000; omega
  | ⟨1, _⟩ => show win0_2.index _ (1 : Fin 2) * 64 ≤ (i 1).val ∧ (i 1).val < win0_2.index _ (1 : Fin 2) * 64 + 64; rw [e21]; omega

/-- The result array of launch 0 when it ends. -/
theorem reg0_arr (c : Dev nD) :
    (dat0 V c).arrAt 2 cfg0.N = Cert.Gcn.mix1 (V c main_v33) (V c main_arg2) :=
  (dat0 V c).arrAt_eq_of_cover 2 _ (fun t _ => flushed0 V c t) cover0

end Cert.KernelIdeal.Hand

end
-- ==== Proof.Reg1.lean ====
/-
  Launch 1 (message scaling, layer 1): what its result array holds when the launch ends. The grid walks the 850000 edges
  in 250 blocks of 3400; at block t the body multiplies the gathered messages of edges 3400·t … 3400·t + 3399 (all four
  batches, all 64 channels) by those edges' weights, and writes the block back to the same rows of the result. The blocks
  tile the array, so it ends holding `Gcn.scale1` of the two operand arrays as the launch found them.
-/
import proofs.«164442_j455266533916_1_alg».proof.Proof.Gen.KernelIdeal.Frame
import proofs.«164442_j455266533916_1_alg».proof.Proof.Spec
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The gathered messages and the edge weights as launch 1 finds them, at their literal types. -/
abbrev msgs1 (c : Dev nD) : FVec Ideal S4x850000x64 .f32 := V c main_v42
abbrev wts1 (c : Dev nD) : FVec Ideal S850000x1 .f32 := V c main_v32

theorem zeros3_1 : (![0, 0, 0] : Fin 3 → Nat) = fun _ => 0 := funext fun a => by fin_cases a <;> rfl
theorem zeros2_1 : (![0, 0] : Fin 2 → Nat) = fun _ => 0 := funext fun a => by fin_cases a <;> rfl

/-- The body's arithmetic at one entry of the block: the message times its edge's weight (the weight column is broadcast
    over batches and channels). -/
theorem pay1_apply (x0 : Vec Ideal S4x3400x64 .f32) (x1 : Vec Ideal S3400x1 .f32) (b : Fin 4) (e : Fin 3400) (d : Fin 64) :
    k1_pay1 x0 x1 (ix3 b e d) = x0 (ix3 b e d) * x1 (ix2 e (0 : Fin 1)) := by
  unfold k1_pay1
  simp only [shapeCast_self]
  rw [mulf_apply]
  congr 1
  refine (broadcastTo_apply _ _ (ix3 b e d) (ix3 (0 : Fin 1) e (0 : Fin 1)) ?_).trans ?_
  · intro a
    match a with
    | ⟨0, _⟩ => rfl
    | ⟨1, _⟩ => rfl
    | ⟨2, _⟩ => rfl
  · exact shapeCast_ab_1ab_apply _ _ _ _ _

/-- Where each window's block sits at point t, decided over the grid: the messages' and the result's block is rows
    3400·t … of the edge axis, whole in batch and channel; the weights' block the same rows. -/
theorem idx1 : ∀ t : Fin cfg1.N,
    win1_0.index t (0 : Fin 3) = 0 ∧ win1_0.index t (1 : Fin 3) = t.val ∧ win1_0.index t (2 : Fin 3) = 0
    ∧ win1_1.index t (0 : Fin 2) = t.val ∧ win1_1.index t (1 : Fin 2) = 0
    ∧ win1_2.index t (0 : Fin 3) = 0 ∧ win1_2.index t (1 : Fin 3) = t.val ∧ win1_2.index t (2 : Fin 3) = 0 :=
  (by decide +kernel : ∀ t : Fin grid1.N, _)

/-- What point t writes back is block t of `Gcn.scale1` of the operand arrays. -/
theorem flushed1 (c : Dev nD) (t : Fin cfg1.N) :
    (dat1 V c).flushed 2 t = ((cfg1.win 2).blk t).view.read (Elt Ideal)
      (Cert.Gcn.scale1 (msgs1 V c) (wts1 V c)) := by
  show (cfg1.win 2).cut (grid1.coords t) ((dat1 V c).after 2 t) = _
  rw [after1_2]
  unfold out1_2
  rw [View.canon_unit_zero zeros3_1]
  simp only [View.ld_unit_zero (S := S4x3400x64) zeros3_1, View.ld_unit_zero (S := S3400x1) zeros2_1]
  obtain ⟨e00, e01, e02, e10, e11, e20, e21, e22⟩ := idx1 t
  funext j
  obtain ⟨b, e, d, rfl⟩ : ∃ (b : Fin 4) (e : Fin 3400) (d : Fin 64), j = ix3 b e d := ⟨j 0, j 1, j 2, eq_ix3 j⟩
  show k1_pay1 (iblk1 V c 0 t) (iblk1 V c 1 t) (ix3 b e d)
    = Cert.Gcn.scale1 (msgs1 V c) (wts1 V c) (((cfg1.win 2).blk t).view.emb (ix3 b e d))
  rw [pay1_apply]
  unfold Cert.Gcn.scale1
  show msgs1 V c (((cfg1.win 0).blk t).view.emb (ix3 b e d)) * wts1 V c (((cfg1.win 1).blk t).view.emb (ix2 e (0 : Fin 1)))
    = msgs1 V c (((cfg1.win 2).blk t).view.emb (ix3 b e d)) * wts1 V c (ix2 ((((cfg1.win 2).blk t).view.emb (ix3 b e d)) 1) (0 : Fin 1))
  have h0 : ((cfg1.win 0).blk t).view.emb (ix3 b e d) = ((cfg1.win 2).blk t).view.emb (ix3 b e d) := by
    funext a; apply Fin.ext
    match a with
    | ⟨0, _⟩ => show win1_0.index t (0 : Fin 3) * 4 + 1 * b.val = win1_2.index t (0 : Fin 3) * 4 + 1 * b.val; omega
    | ⟨1, _⟩ => show win1_0.index t (1 : Fin 3) * 3400 + 1 * e.val = win1_2.index t (1 : Fin 3) * 3400 + 1 * e.val; omega
    | ⟨2, _⟩ => show win1_0.index t (2 : Fin 3) * 64 + 1 * d.val = win1_2.index t (2 : Fin 3) * 64 + 1 * d.val; omega
  have h1 : ((cfg1.win 1).blk t).view.emb (ix2 e (0 : Fin 1)) = ix2 ((((cfg1.win 2).blk t).view.emb (ix3 b e d)) 1) (0 : Fin 1) := by
    funext a; apply Fin.ext
    match a with
    | ⟨0, _⟩ => show win1_1.index t (0 : Fin 2) * 3400 + 1 * e.val = win1_2.index t (1 : Fin 3) * 3400 + 1 * e.val; omega
    | ⟨1, _⟩ => show win1_1.index t (1 : Fin 2) * 1 + 1 * 0 = 0; omega
  rw [h0, h1]
  rfl

/-- An edge index lies in point t's block exactly when its coordinates are in the block's ranges. -/
theorem mem_blk1 (t : Fin cfg1.N) (i : S4x850000x64.Idx) :
    i ∈ ((cfg1.win 2).blk t).view.set ↔ ∀ a : Fin 3, win1_2.index t a * S4x3400x64.size a ≤ (i a).val ∧ (i a).val < win1_2.index t a * S4x3400x64.size a + S4x3400x64.size a := by
  show i ∈ ((View.whole main_v43).slice (win1_2.rect t)).set ↔ _
  rw [View.set_slice_whole, Rect.mem_set_unit]
  exact Iff.rfl

/-- The 250 blocks tile the result: edge e is in block e / 3400. -/
theorem cover1 (i : S4x850000x64.Idx) : ∃ t : Fin cfg1.N, (cfg1.win 2).flush t = true ∧ i ∈ ((cfg1.win 2).blk t).view.set := by
  have hi0 : (i 0).val < 4 := (i 0).isLt
  have hi1 : (i 1).val < 850000 := (i 1).isLt
  have hi2 : (i 2).val < 64 := (i 2).isLt
  have hN : cfg1.N = 250 := N_1
  refine ⟨⟨(i 1).val / 3400, by rw [hN]; omega⟩, flush1_2 _, ?_⟩
  rw [mem_blk1]
  obtain ⟨e00, e01, e02, e10, e11, e20, e21, e22⟩ := idx1 ⟨(i 1).val / 3400, by rw [hN]; omega⟩
  intro a
  match a with
  | ⟨0, _⟩ => show win1_2.index _ (0 : Fin 3) * 4 ≤ (i 0).val ∧ (i 0).val < win1_2.index _ (0 : Fin 3) * 4 + 4; rw [e20]; omega
  | ⟨1, _⟩ => show win1_2.index _ (1 : Fin 3) * 3400 ≤ (i 1).val ∧ (i 1).val < win1_2.index _ (1 : Fin 3) * 3400 + 3400; rw [e21]; show (i 1).val / 3400 * 3400 ≤ (i 1).val ∧ (i 1).val < (i 1).val / 3400 * 3400 + 3400; omega
  | ⟨2, _⟩ => show win1_2.index _ (2 : Fin 3) * 64 ≤ (i 2).val ∧ (i 2).val < win1_2.index _ (2 : Fin 3) * 64 + 64; rw [e22]; omega

/-- The result array of launch 1 when it ends. -/
theorem reg1_arr (c : Dev nD) :
    (dat1 V c).arrAt 2 cfg1.N = Cert.Gcn.scale1 (V c main_v42) (V c main_v32) :=
  (dat1 V c).arrAt_eq_of_cover 2 _ (fun t _ => flushed1 V c t) cover1

end Cert.KernelIdeal.Hand

end
-- ==== Proof.Reg2.lean ====
/-
  Launch 2 (bias and activation: the grid walks the 50000 nodes in 25 blocks of 2000; at block t the body adds the bias row to the aggregated features of nodes 2000·t … (all batches), applies the activation, and writes the block back to the same rows of the result). The blocks tile the result array, so when the launch ends it holds `Gcn.biasRelu1` of the
  two operand arrays as the launch found them.
-/
import proofs.«164442_j455266533916_1_alg».proof.Proof.Gen.KernelIdeal.Frame
import proofs.«164442_j455266533916_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The aggregated features and the bias row as launch 2 finds them, at their literal types. -/
abbrev feats2 (c : Dev nD) : FVec Ideal S4x50000x64 .f32 := V c main_v51
abbrev bias2 (c : Dev nD) : FVec Ideal S1x64 .f32 := V c main_v52

theorem zeros3_2 : (![0, 0, 0] : Fin 3 → Nat) = fun _ => 0 := funext fun a => by fin_cases a <;> rfl
theorem zeros2_2 : (![0, 0] : Fin 2 → Nat) = fun _ => 0 := funext fun a => by fin_cases a <;> rfl

/-- The body's arithmetic at one entry of the block: the feature plus its channel's bias (the bias row is broadcast over
    batches and nodes), then the larger of that sum and zero. -/
theorem pay2_apply (x0 : Vec Ideal S1x64 .f32) (x1 : Vec Ideal S4x2000x64 .f32) (b : Fin 4) (v : Fin 2000) (d : Fin 64) :
    k2_pay1 x0 x1 (ix3 b v d) = max (x1 (ix3 b v d) + x0 (ix2 (0 : Fin 1) d)) (Ideal.ofBits .f32 0x00000000#32) := by
  unfold k2_pay1
  simp only [shapeCast_self]
  rw [maximumf_apply, addf_apply, broadcast_apply]
  congr 1
  congr 1
  refine (broadcastTo_apply _ _ (ix3 b v d) (ix3 (0 : Fin 1) (0 : Fin 1) d) ?_).trans ?_
  · intro a
    match a with
    | ⟨0, _⟩ => rfl
    | ⟨1, _⟩ => rfl
    | ⟨2, _⟩ => rfl
  · exact shapeCast_ab_1ab_apply _ _ _ _ _

/-- Where each window's block sits at point t, decided over the grid: the features' and the result's block is rows
    2000·t … of the node axis, whole in batch and channel; the bias row's block is the whole row at every point. -/
theorem idx2 : ∀ t : Fin cfg2.N,
    win2_0.index t (0 : Fin 3) = 0 ∧ win2_0.index t (1 : Fin 3) = t.val ∧ win2_0.index t (2 : Fin 3) = 0
    ∧ win2_1.index t (0 : Fin 2) = 0 ∧ win2_1.index t (1 : Fin 2) = 0
    ∧ win2_2.index t (0 : Fin 3) = 0 ∧ win2_2.index t (1 : Fin 3) = t.val ∧ win2_2.index t (2 : Fin 3) = 0 :=
  (by decide +kernel : ∀ t : Fin grid2.N, _)

/-- What point t writes back is block t of `Gcn.biasRelu1` of the operand arrays. -/
theorem flushed2 (c : Dev nD) (t : Fin cfg2.N) :
    (dat2 V c).flushed 2 t = ((cfg2.win 2).blk t).view.read (Elt Ideal)
      (Cert.Gcn.biasRelu1 (feats2 V c) (bias2 V c)) := by
  show (cfg2.win 2).cut (grid2.coords t) ((dat2 V c).after 2 t) = _
  rw [after2_2]
  unfold out2_2
  rw [View.canon_unit_zero zeros3_2]
  simp only [View.ld_unit_zero (S := S4x2000x64) zeros3_2, View.ld_unit_zero (S := S1x64) zeros2_2]
  obtain ⟨e00, e01, e02, e10, e11, e20, e21, e22⟩ := idx2 t
  funext j
  obtain ⟨b, v, d, rfl⟩ : ∃ (b : Fin 4) (v : Fin 2000) (d : Fin 64), j = ix3 b v d := ⟨j 0, j 1, j 2, eq_ix3 j⟩
  show k2_pay1 (iblk2 V c 1 t) (iblk2 V c 0 t) (ix3 b v d)
    = Cert.Gcn.biasRelu1 (feats2 V c) (bias2 V c) (((cfg2.win 2).blk t).view.emb (ix3 b v d))
  rw [pay2_apply]
  unfold Cert.Gcn.biasRelu1
  show max (feats2 V c (((cfg2.win 0).blk t).view.emb (ix3 b v d)) + bias2 V c (((cfg2.win 1).blk t).view.emb (ix2 (0 : Fin 1) d))) (Ideal.ofBits .f32 0x00000000#32)
    = max (feats2 V c (((cfg2.win 2).blk t).view.emb (ix3 b v d)) + bias2 V c (ix2 (0 : Fin 1) ((((cfg2.win 2).blk t).view.emb (ix3 b v d)) 2))) (Ideal.ofBits .f32 0x00000000#32)
  have h0 : ((cfg2.win 0).blk t).view.emb (ix3 b v d) = ((cfg2.win 2).blk t).view.emb (ix3 b v d) := by
    funext a; apply Fin.ext
    match a with
    | ⟨0, _⟩ => show win2_0.index t (0 : Fin 3) * 4 + 1 * b.val = win2_2.index t (0 : Fin 3) * 4 + 1 * b.val; omega
    | ⟨1, _⟩ => show win2_0.index t (1 : Fin 3) * 2000 + 1 * v.val = win2_2.index t (1 : Fin 3) * 2000 + 1 * v.val; omega
    | ⟨2, _⟩ => show win2_0.index t (2 : Fin 3) * 64 + 1 * d.val = win2_2.index t (2 : Fin 3) * 64 + 1 * d.val; omega
  have h1 : ((cfg2.win 1).blk t).view.emb (ix2 (0 : Fin 1) d) = ix2 (0 : Fin 1) ((((cfg2.win 2).blk t).view.emb (ix3 b v d)) 2) := by
    funext a; apply Fin.ext
    match a with
    | ⟨0, _⟩ => show win2_1.index t (0 : Fin 2) * 1 + 1 * 0 = 0; omega
    | ⟨1, _⟩ => show win2_1.index t (1 : Fin 2) * 64 + 1 * d.val = win2_2.index t (2 : Fin 3) * 64 + 1 * d.val; omega
  rw [h0, h1]
  rfl

/-- A node index lies in point t's block exactly when its coordinates are in the block's ranges. -/
theorem mem_blk2 (t : Fin cfg2.N) (i : S4x50000x64.Idx) :
    i ∈ ((cfg2.win 2).blk t).view.set ↔ ∀ a : Fin 3, win2_2.index t a * S4x2000x64.size a ≤ (i a).val ∧ (i a).val < win2_2.index t a * S4x2000x64.size a + S4x2000x64.size a := by
  show i ∈ ((View.whole main_v53).slice (win2_2.rect t)).set ↔ _
  rw [View.set_slice_whole, Rect.mem_set_unit]
  exact Iff.rfl

/-- The 25 blocks tile the result: node r is in block r / 2000. -/
theorem cover2 (i : S4x50000x64.Idx) : ∃ t : Fin cfg2.N, (cfg2.win 2).flush t = true ∧ i ∈ ((cfg2.win 2).blk t).view.set := by
  have hi0 : (i 0).val < 4 := (i 0).isLt
  have hi1 : (i 1).val < 50000 := (i 1).isLt
  have hi2 : (i 2).val < 64 := (i 2).isLt
  have hN : cfg2.N = 25 := N_2
  refine ⟨⟨(i 1).val / 2000, by rw [hN]; omega⟩, flush2_2 _, ?_⟩
  rw [mem_blk2]
  obtain ⟨e00, e01, e02, e10, e11, e20, e21, e22⟩ := idx2 ⟨(i 1).val / 2000, by rw [hN]; omega⟩
  intro a
  match a with
  | ⟨0, _⟩ => show win2_2.index _ (0 : Fin 3) * 4 ≤ (i 0).val ∧ (i 0).val < win2_2.index _ (0 : Fin 3) * 4 + 4; rw [e20]; omega
  | ⟨1, _⟩ => show win2_2.index _ (1 : Fin 3) * 2000 ≤ (i 1).val ∧ (i 1).val < win2_2.index _ (1 : Fin 3) * 2000 + 2000; rw [e21]; show (i 1).val / 2000 * 2000 ≤ (i 1).val ∧ (i 1).val < (i 1).val / 2000 * 2000 + 2000; omega
  | ⟨2, _⟩ => show win2_2.index _ (2 : Fin 3) * 64 ≤ (i 2).val ∧ (i 2).val < win2_2.index _ (2 : Fin 3) * 64 + 64; rw [e22]; omega

/-- The result array of launch 2 when it ends. -/
theorem reg2_arr (c : Dev nD) :
    (dat2 V c).arrAt 2 cfg2.N = Cert.Gcn.biasRelu1 (V c main_v51) (V c main_v52) :=
  (dat2 V c).arrAt_eq_of_cover 2 _ (fun t _ => flushed2 V c t) cover2

end Cert.KernelIdeal.Hand

end
-- ==== Proof.Reg3.lean ====
/-
  Launch 3 (channel mixing: the grid walks the 200000 flattened (batch, node) rows in 20 blocks of 10000; at block t the body multiplies rows 10000·t … of the features by the whole weight matrix (one matrix product into a zero accumulator; the operands' rounding to bf16 is the identity on the extended reals) and writes the block back to the same rows of the result). The blocks tile the result array, so when the launch ends it holds `Gcn.mix2` of the
  two operand arrays as the launch found them.
-/
import proofs.«164442_j455266533916_1_alg».proof.Proof.Gen.KernelIdeal.Frame
import proofs.«164442_j455266533916_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The features and the weight matrix as launch 3 finds them, at their literal types. -/
abbrev feats3 (c : Dev nD) : FVec Ideal S200000x64 .f32 := V c main_v54
abbrev wmat3 (c : Dev nD) : FVec Ideal S64x32 .f32 := V c main_arg4

theorem zeros2_3 : (![0, 0] : Fin 2 → Nat) = fun _ => 0 := funext fun a => by fin_cases a <;> rfl

/-- The product's left operand is read at the result's row (axis 0) and the contraction position (axis 1). -/
theorem lhs3_0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs3_1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
/-- The right operand is read at the contraction position (axis 0) and the result's column (axis 1). -/
theorem rhs3_0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs3_1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The body's arithmetic at one entry of the block: row r of the features' block against column d of the weights, summed
    over the 64 input channels (the accumulator is zero; rounding the operands is the identity on the extended reals). -/
theorem pay3_apply (x0 : Vec Ideal S10000x64 .f32) (x1 : Vec Ideal S64x32 .f32) (r : Fin 10000) (d : Fin 32) :
    k3_pay1 x0 x1 (ix2 r d) = ∑ k : Fin 64, x0 (ix2 r k) * x1 (ix2 k d) := by
  unfold k3_pay1
  simp only [shapeCast_self, matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 r d) ((ValueIdx.contrEquiv1 dot_S10000x64_S64x32_S10000x32_1_0_0_1_n_n 64 rfl rfl).symm k) = ix2 r k := funext fun a => Fin.ext (by
    match a with
    | ⟨0, _⟩ => exact lhs3_0 _ _
    | ⟨1, _⟩ => exact (lhs3_1 _ _).trans hk)
  have er : dot_S10000x64_S64x32_S10000x32_1_0_0_1_n_n.rhsIdx (ix2 r d) ((ValueIdx.contrEquiv1 dot_S10000x64_S64x32_S10000x32_1_0_0_1_n_n 64 rfl rfl).symm k) = ix2 k d := funext fun a => Fin.ext (by
    match a with
    | ⟨0, _⟩ => exact (rhs3_0 _ _).trans hk
    | ⟨1, _⟩ => exact rhs3_1 _ _)
  show x0 (dot_S10000x64_S64x32_S10000x32_1_0_0_1_n_n.lhsIdx (ix2 r d) ((ValueIdx.contrEquiv1 dot_S10000x64_S64x32_S10000x32_1_0_0_1_n_n 64 rfl rfl).symm k))
    * x1 (dot_S10000x64_S64x32_S10000x32_1_0_0_1_n_n.rhsIdx (ix2 r d) ((ValueIdx.contrEquiv1 dot_S10000x64_S64x32_S10000x32_1_0_0_1_n_n 64 rfl rfl).symm k)) = _
  rw [el, er]

/-- Where each window's block sits at point t, decided over the grid: the features' and the result's block is rows
    10000·t … of the row axis, whole in channels; the weights' block is the whole matrix at every point. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `Gcn.mix2` of the operand arrays. -/
theorem flushed3 (c : Dev nD) (t : Fin cfg3.N) :
    (dat3 V c).flushed 2 t = ((cfg3.win 2).blk t).view.read (Elt Ideal)
      (Cert.Gcn.mix2 (feats3 V c) (wmat3 V c)) := by
  show (cfg3.win 2).cut (grid3.coords t) ((dat3 V c).after 2 t) = _
  rw [after3_2]
  unfold out3_2
  rw [View.canon_unit_zero zeros2_3]
  simp only [View.ld_unit_zero (S := S10000x64) zeros2_3, View.ld_unit_zero (S := S64x32) zeros2_3]
  obtain ⟨e00, e01, e10, e11, e20, e21⟩ := idx3 t
  funext j
  obtain ⟨r, d, rfl⟩ : ∃ (r : Fin 10000) (d : Fin 32), j = ix2 r d := ⟨j 0, j 1, eq_ix2 j⟩
  show k3_pay1 (iblk3 V c 0 t) (iblk3 V c 1 t) (ix2 r d)
    = Cert.Gcn.mix2 (feats3 V c) (wmat3 V c) (((cfg3.win 2).blk t).view.emb (ix2 r d))
  rw [pay3_apply]
  unfold Cert.Gcn.mix2
  refine Finset.sum_congr rfl fun k _ => ?_
  show feats3 V c (((cfg3.win 0).blk t).view.emb (ix2 r k)) * wmat3 V c (((cfg3.win 1).blk t).view.emb (ix2 k d))
    = feats3 V c (ix2 ((((cfg3.win 2).blk t).view.emb (ix2 r d)) 0) k) * wmat3 V c (ix2 k ((((cfg3.win 2).blk t).view.emb (ix2 r d)) 1))
  have h0 : ((cfg3.win 0).blk t).view.emb (ix2 r k) = ix2 ((((cfg3.win 2).blk t).view.emb (ix2 r d)) 0) k := by
    funext a; apply Fin.ext
    match a with
    | ⟨0, _⟩ => show win3_0.index t (0 : Fin 2) * 10000 + 1 * r.val = win3_2.index t (0 : Fin 2) * 10000 + 1 * r.val; omega
    | ⟨1, _⟩ => show win3_0.index t (1 : Fin 2) * 64 + 1 * k.val = k.val; omega
  have h1 : ((cfg3.win 1).blk t).view.emb (ix2 k d) = ix2 k ((((cfg3.win 2).blk t).view.emb (ix2 r d)) 1) := by
    funext a; apply Fin.ext
    match a with
    | ⟨0, _⟩ => show win3_1.index t (0 : Fin 2) * 64 + 1 * k.val = k.val; omega
    | ⟨1, _⟩ => show win3_1.index t (1 : Fin 2) * 32 + 1 * d.val = win3_2.index t (1 : Fin 2) * 32 + 1 * d.val; omega
  rw [h0, h1]
  rfl

/-- A result index lies in point t's block exactly when its coordinates are in the block's ranges. -/
theorem mem_blk3 (t : Fin cfg3.N) (i : S200000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v55).slice (win3_2.rect t)).set ↔ _
  rw [View.set_slice_whole, Rect.mem_set_unit]
  exact Iff.rfl

/-- The 20 blocks tile the result: row r is in block r / 10000. -/
theorem cover3 (i : S200000x32.Idx) : ∃ t : Fin cfg3.N, (cfg3.win 2).flush t = true ∧ i ∈ ((cfg3.win 2).blk t).view.set := by
  have hi0 : (i 0).val < 200000 := (i 0).isLt
  have hi1 : (i 1).val < 32 := (i 1).isLt
  have hN : cfg3.N = 20 := N_3
  refine ⟨⟨(i 0).val / 10000, by rw [hN]; omega⟩, flush3_2 _, ?_⟩
  rw [mem_blk3]
  obtain ⟨e00, e01, e10, e11, e20, e21⟩ := idx3 ⟨(i 0).val / 10000, by rw [hN]; omega⟩
  intro a
  match a with
  | ⟨0, _⟩ => show win3_2.index _ (0 : Fin 2) * 10000 ≤ (i 0).val ∧ (i 0).val < win3_2.index _ (0 : Fin 2) * 10000 + 10000; rw [e20]; show (i 0).val / 10000 * 10000 ≤ (i 0).val ∧ (i 0).val < (i 0).val / 10000 * 10000 + 10000; omega
  | ⟨1, _⟩ => show win3_2.index _ (1 : Fin 2) * 32 ≤ (i 1).val ∧ (i 1).val < win3_2.index _ (1 : Fin 2) * 32 + 32; rw [e21]; omega

/-- The result array of launch 3 when it ends. -/
theorem reg3_arr (c : Dev nD) :
    (dat3 V c).arrAt 2 cfg3.N = Cert.Gcn.mix2 (V c main_v54) (V c main_arg4) :=
  (dat3 V c).arrAt_eq_of_cover 2 _ (fun t _ => flushed3 V c t) cover3

end Cert.KernelIdeal.Hand

end
-- ==== Proof.Reg4.lean ====
/-
  Launch 4 (message scaling: the grid walks the 850000 edges in 250 blocks of 3400; at block t the body multiplies the gathered messages of edges 3400·t … (all batches, all channels) by those edges' weights and writes the block back to the same rows of the result). The blocks tile the result array, so when the launch ends it holds `Gcn.scale2` of the
  two operand arrays as the launch found them.
-/
import proofs.«164442_j455266533916_1_alg».proof.Proof.Gen.KernelIdeal.Frame
import proofs.«164442_j455266533916_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The gathered messages and the edge weights as launch 4 finds them, at their literal types. -/
abbrev msgs4 (c : Dev nD) : FVec Ideal S4x850000x32 .f32 := V c main_v63
abbrev wts4 (c : Dev nD) : FVec Ideal S850000x1 .f32 := V c main_v32

theorem zeros3_4 : (![0, 0, 0] : Fin 3 → Nat) = fun _ => 0 := funext fun a => by fin_cases a <;> rfl
theorem zeros2_4 : (![0, 0] : Fin 2 → Nat) = fun _ => 0 := funext fun a => by fin_cases a <;> rfl

/-- The body's arithmetic at one entry of the block: the message times its edge's weight (the weight column is broadcast
    over batches and channels). -/
theorem pay4_apply (x0 : Vec Ideal S4x3400x32 .f32) (x1 : Vec Ideal S3400x1 .f32) (b : Fin 4) (e : Fin 3400) (d : Fin 32) :
    k4_pay1 x0 x1 (ix3 b e d) = x0 (ix3 b e d) * x1 (ix2 e (0 : Fin 1)) := by
  unfold k4_pay1
  simp only [shapeCast_self]
  rw [mulf_apply]
  congr 1
  refine (broadcastTo_apply _ _ (ix3 b e d) (ix3 (0 : Fin 1) e (0 : Fin 1)) ?_).trans ?_
  · intro a
    match a with
    | ⟨0, _⟩ => rfl
    | ⟨1, _⟩ => rfl
    | ⟨2, _⟩ => rfl
  · exact shapeCast_ab_1ab_apply _ _ _ _ _

/-- Where each window's block sits at point t, decided over the grid: the messages' and the result's block is rows
    3400·t … of the edge axis, whole in batch and channel; the weights' block the same rows. -/
theorem idx4 : ∀ t : Fin cfg4.N,
    win4_0.index t (0 : Fin 3) = 0 ∧ win4_0.index t (1 : Fin 3) = t.val ∧ win4_0.index t (2 : Fin 3) = 0
    ∧ win4_1.index t (0 : Fin 2) = t.val ∧ win4_1.index t (1 : Fin 2) = 0
    ∧ win4_2.index t (0 : Fin 3) = 0 ∧ win4_2.index t (1 : Fin 3) = t.val ∧ win4_2.index t (2 : Fin 3) = 0 :=
  (by decide +kernel : ∀ t : Fin grid4.N, _)

/-- What point t writes back is block t of `Gcn.scale2` of the operand arrays. -/
theorem flushed4 (c : Dev nD) (t : Fin cfg4.N) :
    (dat4 V c).flushed 2 t = ((cfg4.win 2).blk t).view.read (Elt Ideal)
      (Cert.Gcn.scale2 (msgs4 V c) (wts4 V c)) := by
  show (cfg4.win 2).cut (grid4.coords t) ((dat4 V c).after 2 t) = _
  rw [after4_2]
  unfold out4_2
  rw [View.canon_unit_zero zeros3_4]
  simp only [View.ld_unit_zero (S := S4x3400x32) zeros3_4, View.ld_unit_zero (S := S3400x1) zeros2_4]
  obtain ⟨e00, e01, e02, e10, e11, e20, e21, e22⟩ := idx4 t
  funext j
  obtain ⟨b, e, d, rfl⟩ : ∃ (b : Fin 4) (e : Fin 3400) (d : Fin 32), j = ix3 b e d := ⟨j 0, j 1, j 2, eq_ix3 j⟩
  show k4_pay1 (iblk4 V c 0 t) (iblk4 V c 1 t) (ix3 b e d)
    = Cert.Gcn.scale2 (msgs4 V c) (wts4 V c) (((cfg4.win 2).blk t).view.emb (ix3 b e d))
  rw [pay4_apply]
  unfold Cert.Gcn.scale2
  show msgs4 V c (((cfg4.win 0).blk t).view.emb (ix3 b e d)) * wts4 V c (((cfg4.win 1).blk t).view.emb (ix2 e (0 : Fin 1)))
    = msgs4 V c (((cfg4.win 2).blk t).view.emb (ix3 b e d)) * wts4 V c (ix2 ((((cfg4.win 2).blk t).view.emb (ix3 b e d)) 1) (0 : Fin 1))
  have h0 : ((cfg4.win 0).blk t).view.emb (ix3 b e d) = ((cfg4.win 2).blk t).view.emb (ix3 b e d) := by
    funext a; apply Fin.ext
    match a with
    | ⟨0, _⟩ => show win4_0.index t (0 : Fin 3) * 4 + 1 * b.val = win4_2.index t (0 : Fin 3) * 4 + 1 * b.val; omega
    | ⟨1, _⟩ => show win4_0.index t (1 : Fin 3) * 3400 + 1 * e.val = win4_2.index t (1 : Fin 3) * 3400 + 1 * e.val; omega
    | ⟨2, _⟩ => show win4_0.index t (2 : Fin 3) * 32 + 1 * d.val = win4_2.index t (2 : Fin 3) * 32 + 1 * d.val; omega
  have h1 : ((cfg4.win 1).blk t).view.emb (ix2 e (0 : Fin 1)) = ix2 ((((cfg4.win 2).blk t).view.emb (ix3 b e d)) 1) (0 : Fin 1) := by
    funext a; apply Fin.ext
    match a with
    | ⟨0, _⟩ => show win4_1.index t (0 : Fin 2) * 3400 + 1 * e.val = win4_2.index t (1 : Fin 3) * 3400 + 1 * e.val; omega
    | ⟨1, _⟩ => show win4_1.index t (1 : Fin 2) * 1 + 1 * 0 = 0; omega
  rw [h0, h1]
  rfl

/-- An edge index lies in point t's block exactly when its coordinates are in the block's ranges. -/
theorem mem_blk4 (t : Fin cfg4.N) (i : S4x850000x32.Idx) :
    i ∈ ((cfg4.win 2).blk t).view.set ↔ ∀ a : Fin 3, win4_2.index t a * S4x3400x32.size a ≤ (i a).val ∧ (i a).val < win4_2.index t a * S4x3400x32.size a + S4x3400x32.size a := by
  show i ∈ ((View.whole main_v64).slice (win4_2.rect t)).set ↔ _
  rw [View.set_slice_whole, Rect.mem_set_unit]
  exact Iff.rfl

/-- The 250 blocks tile the result: edge e is in block e / 3400. -/
theorem cover4 (i : S4x850000x32.Idx) : ∃ t : Fin cfg4.N, (cfg4.win 2).flush t = true ∧ i ∈ ((cfg4.win 2).blk t).view.set := by
  have hi0 : (i 0).val < 4 := (i 0).isLt
  have hi1 : (i 1).val < 850000 := (i 1).isLt
  have hi2 : (i 2).val < 32 := (i 2).isLt
  have hN : cfg4.N = 250 := N_4
  refine ⟨⟨(i 1).val / 3400, by rw [hN]; omega⟩, flush4_2 _, ?_⟩
  rw [mem_blk4]
  obtain ⟨e00, e01, e02, e10, e11, e20, e21, e22⟩ := idx4 ⟨(i 1).val / 3400, by rw [hN]; omega⟩
  intro a
  match a with
  | ⟨0, _⟩ => show win4_2.index _ (0 : Fin 3) * 4 ≤ (i 0).val ∧ (i 0).val < win4_2.index _ (0 : Fin 3) * 4 + 4; rw [e20]; omega
  | ⟨1, _⟩ => show win4_2.index _ (1 : Fin 3) * 3400 ≤ (i 1).val ∧ (i 1).val < win4_2.index _ (1 : Fin 3) * 3400 + 3400; rw [e21]; show (i 1).val / 3400 * 3400 ≤ (i 1).val ∧ (i 1).val < (i 1).val / 3400 * 3400 + 3400; omega
  | ⟨2, _⟩ => show win4_2.index _ (2 : Fin 3) * 32 ≤ (i 2).val ∧ (i 2).val < win4_2.index _ (2 : Fin 3) * 32 + 32; rw [e22]; omega

/-- The result array of launch 4 when it ends. -/
theorem reg4_arr (c : Dev nD) :
    (dat4 V c).arrAt 2 cfg4.N = Cert.Gcn.scale2 (V c main_v63) (V c main_v32) :=
  (dat4 V c).arrAt_eq_of_cover 2 _ (fun t _ => flushed4 V c t) cover4

end Cert.KernelIdeal.Hand

end
-- ==== Proof.Reg5.lean ====
/-
  Launch 5 (bias and activation: the grid walks the 50000 nodes in 25 blocks of 2000; at block t the body adds the bias row to the aggregated features of nodes 2000·t … (all batches), applies the activation, and writes the block back to the same rows of the result). The blocks tile the result array, so when the launch ends it holds `Gcn.biasRelu2` of the
  two operand arrays as the launch found them.
-/
import proofs.«164442_j455266533916_1_alg».proof.Proof.Gen.KernelIdeal.Frame
import proofs.«164442_j455266533916_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The aggregated features and the bias row as launch 5 finds them, at their literal types. -/
abbrev feats5 (c : Dev nD) : FVec Ideal S4x50000x32 .f32 := V c main_v72
abbrev bias5 (c : Dev nD) : FVec Ideal S1x32 .f32 := V c main_v73

theorem zeros3_5 : (![0, 0, 0] : Fin 3 → Nat) = fun _ => 0 := funext fun a => by fin_cases a <;> rfl
theorem zeros2_5 : (![0, 0] : Fin 2 → Nat) = fun _ => 0 := funext fun a => by fin_cases a <;> rfl

/-- The body's arithmetic at one entry of the block: the feature plus its channel's bias (the bias row is broadcast over
    batches and nodes), then the larger of that sum and zero. -/
theorem pay5_apply (x0 : Vec Ideal S1x32 .f32) (x1 : Vec Ideal S4x2000x32 .f32) (b : Fin 4) (v : Fin 2000) (d : Fin 32) :
    k5_pay1 x0 x1 (ix3 b v d) = max (x1 (ix3 b v d) + x0 (ix2 (0 : Fin 1) d)) (Ideal.ofBits .f32 0x00000000#32) := by
  unfold k5_pay1
  simp only [shapeCast_self]
  rw [maximumf_apply, addf_apply, broadcast_apply]
  congr 1
  congr 1
  refine (broadcastTo_apply _ _ (ix3 b v d) (ix3 (0 : Fin 1) (0 : Fin 1) d) ?_).trans ?_
  · intro a
    match a with
    | ⟨0, _⟩ => rfl
    | ⟨1, _⟩ => rfl
    | ⟨2, _⟩ => rfl
  · exact shapeCast_ab_1ab_apply _ _ _ _ _

/-- Where each window's block sits at point t, decided over the grid: the features' and the result's block is rows
    2000·t … of the node axis, whole in batch and channel; the bias row's block is the whole row at every point. -/
theorem idx5 : ∀ t : Fin cfg5.N,
    win5_0.index t (0 : Fin 3) = 0 ∧ win5_0.index t (1 : Fin 3) = t.val ∧ win5_0.index t (2 : Fin 3) = 0
    ∧ win5_1.index t (0 : Fin 2) = 0 ∧ win5_1.index t (1 : Fin 2) = 0
    ∧ win5_2.index t (0 : Fin 3) = 0 ∧ win5_2.index t (1 : Fin 3) = t.val ∧ win5_2.index t (2 : Fin 3) = 0 :=
  (by decide +kernel : ∀ t : Fin grid5.N, _)

/-- What point t writes back is block t of `Gcn.biasRelu2` of the operand arrays. -/
theorem flushed5 (c : Dev nD) (t : Fin cfg5.N) :
    (dat5 V c).flushed 2 t = ((cfg5.win 2).blk t).view.read (Elt Ideal)
      (Cert.Gcn.biasRelu2 (feats5 V c) (bias5 V c)) := by
  show (cfg5.win 2).cut (grid5.coords t) ((dat5 V c).after 2 t) = _
  rw [after5_2]
  unfold out5_2
  rw [View.canon_unit_zero zeros3_5]
  simp only [View.ld_unit_zero (S := S4x2000x32) zeros3_5, View.ld_unit_zero (S := S1x32) zeros2_5]
  obtain ⟨e00, e01, e02, e10, e11, e20, e21, e22⟩ := idx5 t
  funext j
  obtain ⟨b, v, d, rfl⟩ : ∃ (b : Fin 4) (v : Fin 2000) (d : Fin 32), j = ix3 b v d := ⟨j 0, j 1, j 2, eq_ix3 j⟩
  show k5_pay1 (iblk5 V c 1 t) (iblk5 V c 0 t) (ix3 b v d)
    = Cert.Gcn.biasRelu2 (feats5 V c) (bias5 V c) (((cfg5.win 2).blk t).view.emb (ix3 b v d))
  rw [pay5_apply]
  unfold Cert.Gcn.biasRelu2
  show max (feats5 V c (((cfg5.win 0).blk t).view.emb (ix3 b v d)) + bias5 V c (((cfg5.win 1).blk t).view.emb (ix2 (0 : Fin 1) d))) (Ideal.ofBits .f32 0x00000000#32)
    = max (feats5 V c (((cfg5.win 2).blk t).view.emb (ix3 b v d)) + bias5 V c (ix2 (0 : Fin 1) ((((cfg5.win 2).blk t).view.emb (ix3 b v d)) 2))) (Ideal.ofBits .f32 0x00000000#32)
  have h0 : ((cfg5.win 0).blk t).view.emb (ix3 b v d) = ((cfg5.win 2).blk t).view.emb (ix3 b v d) := by
    funext a; apply Fin.ext
    match a with
    | ⟨0, _⟩ => show win5_0.index t (0 : Fin 3) * 4 + 1 * b.val = win5_2.index t (0 : Fin 3) * 4 + 1 * b.val; omega
    | ⟨1, _⟩ => show win5_0.index t (1 : Fin 3) * 2000 + 1 * v.val = win5_2.index t (1 : Fin 3) * 2000 + 1 * v.val; omega
    | ⟨2, _⟩ => show win5_0.index t (2 : Fin 3) * 32 + 1 * d.val = win5_2.index t (2 : Fin 3) * 32 + 1 * d.val; omega
  have h1 : ((cfg5.win 1).blk t).view.emb (ix2 (0 : Fin 1) d) = ix2 (0 : Fin 1) ((((cfg5.win 2).blk t).view.emb (ix3 b v d)) 2) := by
    funext a; apply Fin.ext
    match a with
    | ⟨0, _⟩ => show win5_1.index t (0 : Fin 2) * 1 + 1 * 0 = 0; omega
    | ⟨1, _⟩ => show win5_1.index t (1 : Fin 2) * 32 + 1 * d.val = win5_2.index t (2 : Fin 3) * 32 + 1 * d.val; omega
  rw [h0, h1]
  rfl

/-- A node index lies in point t's block exactly when its coordinates are in the block's ranges. -/
theorem mem_blk5 (t : Fin cfg5.N) (i : S4x50000x32.Idx) :
    i ∈ ((cfg5.win 2).blk t).view.set ↔ ∀ a : Fin 3, win5_2.index t a * S4x2000x32.size a ≤ (i a).val ∧ (i a).val < win5_2.index t a * S4x2000x32.size a + S4x2000x32.size a := by
  show i ∈ ((View.whole main_v74).slice (win5_2.rect t)).set ↔ _
  rw [View.set_slice_whole, Rect.mem_set_unit]
  exact Iff.rfl

/-- The 25 blocks tile the result: node r is in block r / 2000. -/
theorem cover5 (i : S4x50000x32.Idx) : ∃ t : Fin cfg5.N, (cfg5.win 2).flush t = true ∧ i ∈ ((cfg5.win 2).blk t).view.set := by
  have hi0 : (i 0).val < 4 := (i 0).isLt
  have hi1 : (i 1).val < 50000 := (i 1).isLt
  have hi2 : (i 2).val < 32 := (i 2).isLt
  have hN : cfg5.N = 25 := N_5
  refine ⟨⟨(i 1).val / 2000, by rw [hN]; omega⟩, flush5_2 _, ?_⟩
  rw [mem_blk5]
  obtain ⟨e00, e01, e02, e10, e11, e20, e21, e22⟩ := idx5 ⟨(i 1).val / 2000, by rw [hN]; omega⟩
  intro a
  match a with
  | ⟨0, _⟩ => show win5_2.index _ (0 : Fin 3) * 4 ≤ (i 0).val ∧ (i 0).val < win5_2.index _ (0 : Fin 3) * 4 + 4; rw [e20]; omega
  | ⟨1, _⟩ => show win5_2.index _ (1 : Fin 3) * 2000 ≤ (i 1).val ∧ (i 1).val < win5_2.index _ (1 : Fin 3) * 2000 + 2000; rw [e21]; show (i 1).val / 2000 * 2000 ≤ (i 1).val ∧ (i 1).val < (i 1).val / 2000 * 2000 + 2000; omega
  | ⟨2, _⟩ => show win5_2.index _ (2 : Fin 3) * 32 ≤ (i 2).val ∧ (i 2).val < win5_2.index _ (2 : Fin 3) * 32 + 32; rw [e22]; omega

/-- The result array of launch 5 when it ends. -/
theorem reg5_arr (c : Dev nD) :
    (dat5 V c).arrAt 2 cfg5.N = Cert.Gcn.biasRelu2 (V c main_v72) (V c main_v73) :=
  (dat5 V c).arrAt_eq_of_cover 2 _ (fun t _ => flushed5 V c t) cover5

end Cert.KernelIdeal.Hand

end
-- ==== Proof.Reg6.lean ====
/-
  Launch 6 (channel mixing: the grid walks the 200000 flattened (batch, node) rows in 20 blocks of 10000; at block t the body multiplies rows 10000·t … of the features by the whole weight matrix (one matrix product into a zero accumulator; the operands' rounding to bf16 is the identity on the extended reals) and writes the block back to the same rows of the result). The blocks tile the result array, so when the launch ends it holds `Gcn.mix3` of the
  two operand arrays as the launch found them.
-/
import proofs.«164442_j455266533916_1_alg».proof.Proof.Gen.KernelIdeal.Frame
import proofs.«164442_j455266533916_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The features and the weight matrix as launch 6 finds them, at their literal types. -/
abbrev feat6 (c : Dev nD) : FVec Ideal S200000x32 .f32 := V c main_v75
abbrev wmat6 (c : Dev nD) : FVec Ideal S32x1 .f32 := V c main_arg6

theorem zeros2_6 : (![0, 0] : Fin 2 → Nat) = fun _ => 0 := funext fun a => by fin_cases a <;> rfl

/-- The left operand's index at output entry i and contraction index q: its row is the output's row … -/
theorem lhs6_0 (i : S10000x1.Idx) (q : dot_S10000x32_S32x1_S10000x1_1_0_0_1_n_n.contr.Idx) :
    (dot_S10000x32_S32x1_S10000x1_1_0_0_1_n_n.lhsIdx i q 0).val = (i 0).val := by
  unfold DotDims.lhsIdx
  rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
  rfl
/-- … and its column the contraction coordinate. -/
theorem lhs6_1 (i : S10000x1.Idx) (q : dot_S10000x32_S32x1_S10000x1_1_0_0_1_n_n.contr.Idx) :
    (dot_S10000x32_S32x1_S10000x1_1_0_0_1_n_n.lhsIdx i q 1).val = (q ⟨0, by decide⟩).val :=
  dot_S10000x32_S32x1_S10000x1_1_0_0_1_n_n.lhsIdx_val_of_single rfl i q
/-- The right operand's index: its row is the contraction coordinate … -/
theorem rhs6_0 (i : S10000x1.Idx) (q : dot_S10000x32_S32x1_S10000x1_1_0_0_1_n_n.contr.Idx) :
    (dot_S10000x32_S32x1_S10000x1_1_0_0_1_n_n.rhsIdx i q 0).val = (q ⟨0, by decide⟩).val :=
  dot_S10000x32_S32x1_S10000x1_1_0_0_1_n_n.rhsIdx_val_of_single rfl i q
/-- … and its column the output's column. -/
theorem rhs6_1 (i : S10000x1.Idx) (q : dot_S10000x32_S32x1_S10000x1_1_0_0_1_n_n.contr.Idx) :
    (dot_S10000x32_S32x1_S10000x1_1_0_0_1_n_n.rhsIdx i q 1).val = (i 1).val := by
  unfold DotDims.rhsIdx
  rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
  rfl

/-- The body's arithmetic at one entry of the block: row r of the features' block times column d of the weights, summed
    over the 32 input channels (the accumulator starts at zero; rounding the operands is the identity here). -/
theorem pay6_apply (x0 : Vec Ideal S10000x32 .f32) (x1 : Vec Ideal S32x1 .f32) (r : Fin 10000) (d : Fin 1) :
    k6_pay1 x0 x1 (ix2 r d) = ∑ k : Fin 32, x0 (ix2 r k) * x1 (ix2 k d) := by
  unfold k6_pay1
  simp only [shapeCast_self, matmul]
  rw [Ideal.matmul_constant_zero_apply, ← Equiv.sum_comp (ValueIdx.contrEquiv1 dot_S10000x32_S32x1_S10000x1_1_0_0_1_n_n 32 rfl rfl).symm]
  refine Finset.sum_congr rfl fun k _ => ?_
  have hk := ValueIdx.contrEquiv1_symm_val dot_S10000x32_S32x1_S10000x1_1_0_0_1_n_n 32 rfl rfl k
  have el : dot_S10000x32_S32x1_S10000x1_1_0_0_1_n_n.lhsIdx (ix2 r d) ((ValueIdx.contrEquiv1 dot_S10000x32_S32x1_S10000x1_1_0_0_1_n_n 32 rfl rfl).symm k) = ix2 r k := funext fun a => Fin.ext (by
    match a with
    | ⟨0, _⟩ => exact lhs6_0 _ _
    | ⟨1, _⟩ => exact (lhs6_1 _ _).trans hk)
  have er : dot_S10000x32_S32x1_S10000x1_1_0_0_1_n_n.rhsIdx (ix2 r d) ((ValueIdx.contrEquiv1 dot_S10000x32_S32x1_S10000x1_1_0_0_1_n_n 32 rfl rfl).symm k) = ix2 k d := funext fun a => Fin.ext (by
    match a with
    | ⟨0, _⟩ => exact (rhs6_0 _ _).trans hk
    | ⟨1, _⟩ => exact rhs6_1 _ _)
  rw [el, er]
  rfl

/-- Where each window's block sits at point t, decided over the grid: the features' and the result's block is rows
    10000·t … of the row axis; the weights' block is the whole matrix at every point. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of `Gcn.mix3` of the operand arrays. -/
theorem flushed6 (c : Dev nD) (t : Fin cfg6.N) :
    (dat6 V c).flushed 2 t = ((cfg6.win 2).blk t).view.read (Elt Ideal)
      (Cert.Gcn.mix3 (feat6 V c) (wmat6 V c)) := by
  show (cfg6.win 2).cut (grid6.coords t) ((dat6 V c).after 2 t) = _
  rw [after6_2]
  unfold out6_2
  rw [View.canon_unit_zero zeros2_6]
  simp only [View.ld_unit_zero (S := S10000x32) zeros2_6, View.ld_unit_zero (S := S32x1) zeros2_6]
  obtain ⟨e00, e01, e10, e11, e20, e21⟩ := idx6 t
  funext j
  obtain ⟨r, d, rfl⟩ : ∃ (r : Fin 10000) (d : Fin 1), j = ix2 r d := ⟨j 0, j 1, eq_ix2 j⟩
  show k6_pay1 (iblk6 V c 0 t) (iblk6 V c 1 t) (ix2 r d)
    = Cert.Gcn.mix3 (feat6 V c) (wmat6 V c) (((cfg6.win 2).blk t).view.emb (ix2 r d))
  rw [pay6_apply]
  unfold Cert.Gcn.mix3
  show ∑ k : Fin 32, feat6 V c (((cfg6.win 0).blk t).view.emb (ix2 r k)) * wmat6 V c (((cfg6.win 1).blk t).view.emb (ix2 k d))
    = ∑ k : Fin 32, feat6 V c (ix2 ((((cfg6.win 2).blk t).view.emb (ix2 r d)) 0) k) * wmat6 V c (ix2 k ((((cfg6.win 2).blk t).view.emb (ix2 r d)) 1))
  refine Finset.sum_congr rfl fun k _ => ?_
  have h0 : ((cfg6.win 0).blk t).view.emb (ix2 r k) = ix2 ((((cfg6.win 2).blk t).view.emb (ix2 r d)) 0) k := by
    funext a; apply Fin.ext
    match a with
    | ⟨0, _⟩ => show win6_0.index t (0 : Fin 2) * 10000 + 1 * r.val = win6_2.index t (0 : Fin 2) * 10000 + 1 * r.val; omega
    | ⟨1, _⟩ => show win6_0.index t (1 : Fin 2) * 32 + 1 * k.val = k.val; omega
  have h1 : ((cfg6.win 1).blk t).view.emb (ix2 k d) = ix2 k ((((cfg6.win 2).blk t).view.emb (ix2 r d)) 1) := by
    funext a; apply Fin.ext
    match a with
    | ⟨0, _⟩ => show win6_1.index t (0 : Fin 2) * 32 + 1 * k.val = k.val; omega
    | ⟨1, _⟩ => show win6_1.index t (1 : Fin 2) * 1 + 1 * d.val = win6_2.index t (1 : Fin 2) * 1 + 1 * d.val; omega
  rw [h0, h1]
  rfl

/-- A result index lies in point t's block exactly when its coordinates are in the block's ranges. -/
theorem mem_blk6 (t : Fin cfg6.N) (i : S200000x1.Idx) :
    i ∈ ((cfg6.win 2).blk t).view.set ↔ ∀ a : Fin 2, win6_2.index t a * S10000x1.size a ≤ (i a).val ∧ (i a).val < win6_2.index t a * S10000x1.size a + S10000x1.size a := by
  show i ∈ ((View.whole main_v76).slice (win6_2.rect t)).set ↔ _
  rw [View.set_slice_whole, Rect.mem_set_unit]
  exact Iff.rfl

/-- The 20 blocks tile the result: row r is in block r / 10000. -/
theorem cover6 (i : S200000x1.Idx) : ∃ t : Fin cfg6.N, (cfg6.win 2).flush t = true ∧ i ∈ ((cfg6.win 2).blk t).view.set := by
  have hi0 : (i 0).val < 200000 := (i 0).isLt
  have hi1 : (i 1).val < 1 := (i 1).isLt
  have hN : cfg6.N = 20 := N_6
  refine ⟨⟨(i 0).val / 10000, by rw [hN]; omega⟩, flush6_2 _, ?_⟩
  rw [mem_blk6]
  obtain ⟨e00, e01, e10, e11, e20, e21⟩ := idx6 ⟨(i 0).val / 10000, by rw [hN]; omega⟩
  intro a
  match a with
  | ⟨0, _⟩ => show win6_2.index _ (0 : Fin 2) * 10000 ≤ (i 0).val ∧ (i 0).val < win6_2.index _ (0 : Fin 2) * 10000 + 10000; rw [e20]; show (i 0).val / 10000 * 10000 ≤ (i 0).val ∧ (i 0).val < (i 0).val / 10000 * 10000 + 10000; omega
  | ⟨1, _⟩ => show win6_2.index _ (1 : Fin 2) * 1 ≤ (i 1).val ∧ (i 1).val < win6_2.index _ (1 : Fin 2) * 1 + 1; rw [e21]; omega

/-- The result array of launch 6 when it ends. -/
theorem reg6_arr (c : Dev nD) :
    (dat6 V c).arrAt 2 cfg6.N = Cert.Gcn.mix3 (V c main_v75) (V c main_arg6) :=
  (dat6 V c).arrAt_eq_of_cover 2 _ (fun t _ => flushed6 V c t) cover6

end Cert.KernelIdeal.Hand

end
-- ==== Proof.Reg7.lean ====
/-
  Launch 7 (message scaling: the grid walks the 850000 edges in 250 blocks of 3400; at block t the body multiplies the gathered messages of edges 3400·t … (all batches, all channels) by those edges' weights and writes the block back to the same rows of the result). The blocks tile the result array, so when the launch ends it holds `Gcn.scale3` of the
  two operand arrays as the launch found them.
-/
import proofs.«164442_j455266533916_1_alg».proof.Proof.Gen.KernelIdeal.Frame
import proofs.«164442_j455266533916_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The gathered messages and the edge weights as launch 7 finds them, at their literal types. -/
abbrev msgs7 (c : Dev nD) : FVec Ideal S4x850000x1 .f32 := V c main_v84
abbrev wts7 (c : Dev nD) : FVec Ideal S850000x1 .f32 := V c main_v32

theorem zeros3_7 : (![0, 0, 0] : Fin 3 → Nat) = fun _ => 0 := funext fun a => by fin_cases a <;> rfl
theorem zeros2_7 : (![0, 0] : Fin 2 → Nat) = fun _ => 0 := funext fun a => by fin_cases a <;> rfl

/-- The body's arithmetic at one entry of the block: the message times its edge's weight (the weight column is broadcast
    over batches and channels). -/
theorem pay7_apply (x0 : Vec Ideal S4x3400x1 .f32) (x1 : Vec Ideal S3400x1 .f32) (b : Fin 4) (e : Fin 3400) (d : Fin 1) :
    k7_pay1 x0 x1 (ix3 b e d) = x0 (ix3 b e d) * x1 (ix2 e (0 : Fin 1)) := by
  unfold k7_pay1
  simp only [shapeCast_self]
  rw [mulf_apply]
  congr 1
  refine (broadcastTo_apply _ _ (ix3 b e d) (ix3 (0 : Fin 1) e (0 : Fin 1)) ?_).trans ?_
  · intro a
    match a with
    | ⟨0, _⟩ => rfl
    | ⟨1, _⟩ => rfl
    | ⟨2, _⟩ => rfl
  · exact shapeCast_ab_1ab_apply _ _ _ _ _

/-- Where each window's block sits at point t, decided over the grid: the messages' and the result's block is rows
    3400·t … of the edge axis, whole in batch and channel; the weights' block the same rows. -/
theorem idx7 : ∀ t : Fin cfg7.N,
    win7_0.index t (0 : Fin 3) = 0 ∧ win7_0.index t (1 : Fin 3) = t.val ∧ win7_0.index t (2 : Fin 3) = 0
    ∧ win7_1.index t (0 : Fin 2) = t.val ∧ win7_1.index t (1 : Fin 2) = 0
    ∧ win7_2.index t (0 : Fin 3) = 0 ∧ win7_2.index t (1 : Fin 3) = t.val ∧ win7_2.index t (2 : Fin 3) = 0 :=
  (by decide +kernel : ∀ t : Fin grid7.N, _)

/-- What point t writes back is block t of `Gcn.scale3` of the operand arrays. -/
theorem flushed7 (c : Dev nD) (t : Fin cfg7.N) :
    (dat7 V c).flushed 2 t = ((cfg7.win 2).blk t).view.read (Elt Ideal)
      (Cert.Gcn.scale3 (msgs7 V c) (wts7 V c)) := by
  show (cfg7.win 2).cut (grid7.coords t) ((dat7 V c).after 2 t) = _
  rw [after7_2]
  unfold out7_2
  rw [View.canon_unit_zero zeros3_7]
  simp only [View.ld_unit_zero (S := S4x3400x1) zeros3_7, View.ld_unit_zero (S := S3400x1) zeros2_7]
  obtain ⟨e00, e01, e02, e10, e11, e20, e21, e22⟩ := idx7 t
  funext j
  obtain ⟨b, e, d, rfl⟩ : ∃ (b : Fin 4) (e : Fin 3400) (d : Fin 1), j = ix3 b e d := ⟨j 0, j 1, j 2, eq_ix3 j⟩
  show k7_pay1 (iblk7 V c 0 t) (iblk7 V c 1 t) (ix3 b e d)
    = Cert.Gcn.scale3 (msgs7 V c) (wts7 V c) (((cfg7.win 2).blk t).view.emb (ix3 b e d))
  rw [pay7_apply]
  unfold Cert.Gcn.scale3
  show msgs7 V c (((cfg7.win 0).blk t).view.emb (ix3 b e d)) * wts7 V c (((cfg7.win 1).blk t).view.emb (ix2 e (0 : Fin 1)))
    = msgs7 V c (((cfg7.win 2).blk t).view.emb (ix3 b e d)) * wts7 V c (ix2 ((((cfg7.win 2).blk t).view.emb (ix3 b e d)) 1) (0 : Fin 1))
  have h0 : ((cfg7.win 0).blk t).view.emb (ix3 b e d) = ((cfg7.win 2).blk t).view.emb (ix3 b e d) := by
    funext a; apply Fin.ext
    match a with
    | ⟨0, _⟩ => show win7_0.index t (0 : Fin 3) * 4 + 1 * b.val = win7_2.index t (0 : Fin 3) * 4 + 1 * b.val; omega
    | ⟨1, _⟩ => show win7_0.index t (1 : Fin 3) * 3400 + 1 * e.val = win7_2.index t (1 : Fin 3) * 3400 + 1 * e.val; omega
    | ⟨2, _⟩ => show win7_0.index t (2 : Fin 3) * 1 + 1 * d.val = win7_2.index t (2 : Fin 3) * 1 + 1 * d.val; omega
  have h1 : ((cfg7.win 1).blk t).view.emb (ix2 e (0 : Fin 1)) = ix2 ((((cfg7.win 2).blk t).view.emb (ix3 b e d)) 1) (0 : Fin 1) := by
    funext a; apply Fin.ext
    match a with
    | ⟨0, _⟩ => show win7_1.index t (0 : Fin 2) * 3400 + 1 * e.val = win7_2.index t (1 : Fin 3) * 3400 + 1 * e.val; omega
    | ⟨1, _⟩ => show win7_1.index t (1 : Fin 2) * 1 + 1 * 0 = 0; omega
  rw [h0, h1]
  rfl

/-- An edge index lies in point t's block exactly when its coordinates are in the block's ranges. -/
theorem mem_blk7 (t : Fin cfg7.N) (i : S4x850000x1.Idx) :
    i ∈ ((cfg7.win 2).blk t).view.set ↔ ∀ a : Fin 3, win7_2.index t a * S4x3400x1.size a ≤ (i a).val ∧ (i a).val < win7_2.index t a * S4x3400x1.size a + S4x3400x1.size a := by
  show i ∈ ((View.whole main_v85).slice (win7_2.rect t)).set ↔ _
  rw [View.set_slice_whole, Rect.mem_set_unit]
  exact Iff.rfl

/-- The 250 blocks tile the result: edge e is in block e / 3400. -/
theorem cover7 (i : S4x850000x1.Idx) : ∃ t : Fin cfg7.N, (cfg7.win 2).flush t = true ∧ i ∈ ((cfg7.win 2).blk t).view.set := by
  have hi0 : (i 0).val < 4 := (i 0).isLt
  have hi1 : (i 1).val < 850000 := (i 1).isLt
  have hi2 : (i 2).val < 1 := (i 2).isLt
  have hN : cfg7.N = 250 := N_7
  refine ⟨⟨(i 1).val / 3400, by rw [hN]; omega⟩, flush7_2 _, ?_⟩
  rw [mem_blk7]
  obtain ⟨e00, e01, e02, e10, e11, e20, e21, e22⟩ := idx7 ⟨(i 1).val / 3400, by rw [hN]; omega⟩
  intro a
  match a with
  | ⟨0, _⟩ => show win7_2.index _ (0 : Fin 3) * 4 ≤ (i 0).val ∧ (i 0).val < win7_2.index _ (0 : Fin 3) * 4 + 4; rw [e20]; omega
  | ⟨1, _⟩ => show win7_2.index _ (1 : Fin 3) * 3400 ≤ (i 1).val ∧ (i 1).val < win7_2.index _ (1 : Fin 3) * 3400 + 3400; rw [e21]; show (i 1).val / 3400 * 3400 ≤ (i 1).val ∧ (i 1).val < (i 1).val / 3400 * 3400 + 3400; omega
  | ⟨2, _⟩ => show win7_2.index _ (2 : Fin 3) * 1 ≤ (i 2).val ∧ (i 2).val < win7_2.index _ (2 : Fin 3) * 1 + 1; rw [e22]; omega

/-- The result array of launch 7 when it ends. -/
theorem reg7_arr (c : Dev nD) :
    (dat7 V c).arrAt 2 cfg7.N = Cert.Gcn.scale3 (V c main_v84) (V c main_v32) :=
  (dat7 V c).arrAt_eq_of_cover 2 _ (fun t _ => flushed7 V c t) cover7

end Cert.KernelIdeal.Hand

end
-- ==== Proof.Reg8.lean ====
/-
  Launch 8 (bias and activation: the grid walks the 50000 nodes in 25 blocks of 2000; at block t the body adds the bias row to the aggregated features of nodes 2000·t … (all batches), applies the activation, and writes the block back to the same rows of the result). The blocks tile the result array, so when the launch ends it holds `Gcn.biasSigmoid` of the
  two operand arrays as the launch found them.
-/
import proofs.«164442_j455266533916_1_alg».proof.Proof.Gen.KernelIdeal.Frame
import proofs.«164442_j455266533916_1_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The aggregated features and the bias as launch 8 finds them, at their literal types. -/
abbrev feats8 (c : Dev nD) : FVec Ideal S4x50000x1 .f32 := V c main_v93
abbrev bias8 (c : Dev nD) : FVec Ideal S1x1 .f32 := V c main_v94

theorem zeros3_8 : (![0, 0, 0] : Fin 3 → Nat) = fun _ => 0 := funext fun a => by fin_cases a <;> rfl
theorem zeros2_8 : (![0, 0] : Fin 2 → Nat) = fun _ => 0 := funext fun a => by fin_cases a <;> rfl

/-- The logistic function of a block is taken entry by entry. -/
theorem logistic8_apply (x : FVec Ideal S4x2000x1 .f32) (i : S4x2000x1.Idx) : logistic x i = Ideal.logistic (x i) := rfl

/-- The body's arithmetic at one entry of the block: the logistic function of the feature plus the bias (the single bias
    entry is broadcast over batches and nodes; the channel axis has one coordinate). -/
theorem pay8_apply (v0 : Vec Ideal S1x1 .f32) (v3 : Vec Ideal S4x2000x1 .f32) (b : Fin 4) (n : Fin 2000) (d : Fin 1) :
    k8_pay1 v0 v3 (ix3 b n d) = Ideal.logistic (v3 (ix3 b n d) + v0 (ix2 (0 : Fin 1) d)) := by
  obtain rfl : d = 0 := Subsingleton.elim _ _
  unfold k8_pay1
  simp only [shapeCast_self]
  rw [logistic8_apply, addf_apply]
  congr 2
  refine (broadcastTo_apply _ _ (ix3 b n (0 : Fin 1)) (ix3 (0 : Fin 1) (0 : Fin 1) (0 : Fin 1)) ?_).trans ?_
  · intro a
    match a with
    | ⟨0, _⟩ => rfl
    | ⟨1, _⟩ => rfl
    | ⟨2, _⟩ => rfl
  · exact shapeCast_ab_1ab_apply _ _ _ _ _

/-- Where each window's block sits at point t, decided over the grid: the features' and the result's block is rows
    2000·t … of the node axis, whole in batch and channel; the bias window is the whole row at every point. -/
theorem idx8 : ∀ t : Fin cfg8.N,
    win8_0.index t (0 : Fin 3) = 0 ∧ win8_0.index t (1 : Fin 3) = t.val ∧ win8_0.index t (2 : Fin 3) = 0
    ∧ win8_1.index t (0 : Fin 2) = 0 ∧ win8_1.index t (1 : Fin 2) = 0
    ∧ win8_2.index t (0 : Fin 3) = 0 ∧ win8_2.index t (1 : Fin 3) = t.val ∧ win8_2.index t (2 : Fin 3) = 0 :=
  (by decide +kernel : ∀ t : Fin grid8.N, _)

/-- What point t writes back is block t of `Gcn.biasSigmoid` of the operand arrays. -/
theorem flushed8 (c : Dev nD) (t : Fin cfg8.N) :
    (dat8 V c).flushed 2 t = ((cfg8.win 2).blk t).view.read (Elt Ideal)
      (Cert.Gcn.biasSigmoid (feats8 V c) (bias8 V c)) := by
  show (cfg8.win 2).cut (grid8.coords t) ((dat8 V c).after 2 t) = _
  rw [after8_2]
  unfold out8_2
  rw [View.canon_unit_zero zeros3_8]
  simp only [View.ld_unit_zero (S := S4x2000x1) zeros3_8, View.ld_unit_zero (S := S1x1) zeros2_8]
  obtain ⟨e00, e01, e02, e10, e11, e20, e21, e22⟩ := idx8 t
  funext j
  obtain ⟨b, n, d, rfl⟩ : ∃ (b : Fin 4) (n : Fin 2000) (d : Fin 1), j = ix3 b n d := ⟨j 0, j 1, j 2, eq_ix3 j⟩
  show k8_pay1 (iblk8 V c 1 t) (iblk8 V c 0 t) (ix3 b n d)
    = Cert.Gcn.biasSigmoid (feats8 V c) (bias8 V c) (((cfg8.win 2).blk t).view.emb (ix3 b n d))
  rw [pay8_apply]
  unfold Cert.Gcn.biasSigmoid
  show Ideal.logistic (feats8 V c (((cfg8.win 0).blk t).view.emb (ix3 b n d)) + bias8 V c (((cfg8.win 1).blk t).view.emb (ix2 (0 : Fin 1) d)))
    = Ideal.logistic (feats8 V c (((cfg8.win 2).blk t).view.emb (ix3 b n d)) + bias8 V c (ix2 (0 : Fin 1) ((((cfg8.win 2).blk t).view.emb (ix3 b n d)) 2)))
  have h0 : ((cfg8.win 0).blk t).view.emb (ix3 b n d) = ((cfg8.win 2).blk t).view.emb (ix3 b n d) := by
    funext a; apply Fin.ext
    match a with
    | ⟨0, _⟩ => show win8_0.index t (0 : Fin 3) * 4 + 1 * b.val = win8_2.index t (0 : Fin 3) * 4 + 1 * b.val; omega
    | ⟨1, _⟩ => show win8_0.index t (1 : Fin 3) * 2000 + 1 * n.val = win8_2.index t (1 : Fin 3) * 2000 + 1 * n.val; omega
    | ⟨2, _⟩ => show win8_0.index t (2 : Fin 3) * 1 + 1 * d.val = win8_2.index t (2 : Fin 3) * 1 + 1 * d.val; omega
  have h1 : ((cfg8.win 1).blk t).view.emb (ix2 (0 : Fin 1) d) = ix2 (0 : Fin 1) ((((cfg8.win 2).blk t).view.emb (ix3 b n d)) 2) := by
    funext a; apply Fin.ext
    match a with
    | ⟨0, _⟩ => show win8_1.index t (0 : Fin 2) * 1 + 1 * 0 = 0; omega
    | ⟨1, _⟩ => show win8_1.index t (1 : Fin 2) * 1 + 1 * d.val = win8_2.index t (2 : Fin 3) * 1 + 1 * d.val; omega
  rw [h0, h1]
  rfl

/-- A node index lies in point t's block exactly when its coordinates are in the block's ranges. -/
theorem mem_blk8 (t : Fin cfg8.N) (i : S4x50000x1.Idx) :
    i ∈ ((cfg8.win 2).blk t).view.set ↔ ∀ a : Fin 3, win8_2.index t a * S4x2000x1.size a ≤ (i a).val ∧ (i a).val < win8_2.index t a * S4x2000x1.size a + S4x2000x1.size a := by
  show i ∈ ((View.whole main_v95).slice (win8_2.rect t)).set ↔ _
  rw [View.set_slice_whole, Rect.mem_set_unit]
  exact Iff.rfl

/-- The 25 blocks tile the result: node v is in block v / 2000. -/
theorem cover8 (i : S4x50000x1.Idx) : ∃ t : Fin cfg8.N, (cfg8.win 2).flush t = true ∧ i ∈ ((cfg8.win 2).blk t).view.set := by
  have hi0 : (i 0).val < 4 := (i 0).isLt
  have hi1 : (i 1).val < 50000 := (i 1).isLt
  have hi2 : (i 2).val < 1 := (i 2).isLt
  have hN : cfg8.N = 25 := N_8
  refine ⟨⟨(i 1).val / 2000, by rw [hN]; omega⟩, flush8_2 _, ?_⟩
  rw [mem_blk8]
  obtain ⟨e00, e01, e02, e10, e11, e20, e21, e22⟩ := idx8 ⟨(i 1).val / 2000, by rw [hN]; omega⟩
  intro a
  match a with
  | ⟨0, _⟩ => show win8_2.index _ (0 : Fin 3) * 4 ≤ (i 0).val ∧ (i 0).val < win8_2.index _ (0 : Fin 3) * 4 + 4; rw [e20]; omega
  | ⟨1, _⟩ => show win8_2.index _ (1 : Fin 3) * 2000 ≤ (i 1).val ∧ (i 1).val < win8_2.index _ (1 : Fin 3) * 2000 + 2000; rw [e21]; show (i 1).val / 2000 * 2000 ≤ (i 1).val ∧ (i 1).val < (i 1).val / 2000 * 2000 + 2000; omega
  | ⟨2, _⟩ => show win8_2.index _ (2 : Fin 3) * 1 ≤ (i 2).val ∧ (i 2).val < win8_2.index _ (2 : Fin 3) * 1 + 1; rw [e22]; omega

/-- The result array of launch 8 when it ends. -/
theorem reg8_arr (c : Dev nD) :
    (dat8 V c).arrAt 2 cfg8.N = Cert.Gcn.biasSigmoid (V c main_v93) (V c main_v94) :=
  (dat8 V c).arrAt_eq_of_cover 2 _ (fun t _ => flushed8 V c t) cover8

end Cert.KernelIdeal.Hand

end
-- ==== Proof.Layers.lean ====
/-
  The three layers of the kernel program joined: each layer's statement at what its three launches leave, the launches'
  result arrays being the tiled functions of their operands; so the array the last launch leaves is the reference's result
  stage of the same arguments.
-/
import proofs.«164442_j455266533916_1_alg».proof.Proof.KL1
import proofs.«164442_j455266533916_1_alg».proof.Proof.KL2
import proofs.«164442_j455266533916_1_alg».proof.Proof.KL3
import proofs.«164442_j455266533916_1_alg».proof.Proof.Reg0
import proofs.«164442_j455266533916_1_alg».proof.Proof.Reg1
import proofs.«164442_j455266533916_1_alg».proof.Proof.Reg2
import proofs.«164442_j455266533916_1_alg».proof.Proof.Reg3
import proofs.«164442_j455266533916_1_alg».proof.Proof.Reg4
import proofs.«164442_j455266533916_1_alg».proof.Proof.Reg5
import proofs.«164442_j455266533916_1_alg».proof.Proof.Reg6
import proofs.«164442_j455266533916_1_alg».proof.Proof.Reg7
import proofs.«164442_j455266533916_1_alg».proof.Proof.Reg8

set_option maxRecDepth 16384

noncomputable section

open Idealize.ShloMosaic Idealize.ShloMosaic.TcCoe Idealize.SL.Sem Idealize.ShloMosaic.Tactic Idealize.ShloMosaic.ValueIdx

namespace Cert.KernelIdeal.Hand

open Cert.KernelIdeal Cert.KernelIdeal.Gen

variable (m : (ℓ : Loc nD τ sig) → Buf (Elt Ideal) ℓ) (ρ : Dev nD → PrngReg)

/-- The kernel program's result array is the reference's last stage of the arguments. -/
theorem result_eq (c : Dev nD) :
    W20 m ρ c (Proc.devRef .tc main_v95) = Cert.ReferenceIdeal.ReadP.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  layer3 m ρ
    (fun c => layer2 m ρ (fun c => layer1 m ρ reg0_arr reg1_arr reg2_arr c) reg3_arr reg4_arr reg5_arr c)
    reg6_arr reg7_arr reg8_arr c

end Cert.KernelIdeal.Hand

end
-- ==== Proof.lean ====
/-
  A three-layer graph convolution (1 → 64 → 32 → 1 channels over 50000 nodes, 4 batches, 800000 edges plus one self-loop
  per node) computed by nine tiled kernel launches, against the same network written with whole-array operations.

  Per layer the kernel program flattens (batch, node) and multiplies the features by the weight matrix block by block,
  gathers the mixed features along the edge sources, multiplies each message by its edge's normalisation weight block by
  block, adds the messages into their target nodes, and adds the bias and applies the activation block by block. On the
  extended reals each launch's blocks tile its result, each block is the same pointwise or row-times-matrix function of the
  operands that the reference applies to the whole array (rounding the matrix operands to bf16 is the identity there, a
  matrix product into a zero accumulator is the plain sum over the input channels, and the logistic function is
  1 / (1 + e^(-x))), and the edge bookkeeping (sources, targets, weights from the degrees) and the gathers and scatter-adds
  are the very same host operations in both programs. So layer by layer the two programs hold the same arrays, and the
  results agree entry by entry. No law used needs finiteness: the precondition is never opened.

  The three frame claims: the two kernel programs by their generated frame certificates; the reference by its run with the
  result dropped. The kernel's idealization rewrote nothing, so `preserves` is trivial.
-/
import proofs.«164442_j455266533916_1_alg».proof.Defs
import proofs.«164442_j455266533916_1_alg».proof.Proof.Gen.Kernel
import proofs.«164442_j455266533916_1_alg».proof.Proof.Gen.Kernel.Skeleton
import proofs.«164442_j455266533916_1_alg».proof.Proof.Gen.Kernel.Launch
import proofs.«164442_j455266533916_1_alg».proof.Proof.Gen.Kernel.Points
import proofs.«164442_j455266533916_1_alg».proof.Proof.Gen.Kernel.Frame
import proofs.«164442_j455266533916_1_alg».proof.Proof.Gen.KernelIdeal
import proofs.«164442_j455266533916_1_alg».proof.Proof.Gen.KernelIdeal.Skeleton
import proofs.«164442_j455266533916_1_alg».proof.Proof.Gen.KernelIdeal.Launch
import proofs.«164442_j455266533916_1_alg».proof.Proof.Gen.KernelIdeal.Points
import proofs.«164442_j455266533916_1_alg».proof.Proof.Gen.KernelIdeal.Frame
import proofs.«164442_j455266533916_1_alg».proof.Proof.Gen.ReferenceIdeal
import proofs.«164442_j455266533916_1_alg».proof.Proof.Gen.Pre_finite_inputs
import proofs.«164442_j455266533916_1_alg».proof.Proof.KRun
import proofs.«164442_j455266533916_1_alg».proof.Proof.Layers
import proofs.«164442_j455266533916_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the same result array: the kernel program's at what
    its last launch leaves, which is the reference's last stage of the same arguments (`result_eq`); the reference's at that
    stage by its run. -/
theorem algebraic : Cert.algebraic_KernelIdeal_ReferenceIdeal := by
  intro m ρ m' ρ' _ hagree
  refine ⟨fun c => Cert.KernelIdeal.Gen.W20 m ρ c (Proc.devRef .tc Cert.KernelIdeal.main_v95),
    Cert.KernelIdeal.Hand.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.ReadP.val_main_v105_eq, e0, e1, e2, e3, e4, e5, e6, e7]
  exact (Cert.KernelIdeal.Hand.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
